-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v12)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v12) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v36) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32x256x56x56 : Shape := ⟨4, ![32, 256, 56, 56]⟩
abbrev S256x256 : Shape := ⟨2, ![256, 256]⟩
abbrev S256 : Shape := ⟨1, ![256]⟩
abbrev S_ : Shape := ⟨0, ![]⟩

class Facts : Prop where
  bcast_S_S32x256x56x56 : S_.BroadcastsInDim S32x256x56x56 (![] : Fin 0 → Fin S32x256x56x56.rank)
  reducesTo_S32x256x56x56_S_d0_1_2_3 : S32x256x56x56.ReducesTo [0, 1, 2, 3] S_
  h_S_ : 0 < S_.numel
  bcast_S_S256x256 : S_.BroadcastsInDim S256x256 (![] : Fin 0 → Fin S256x256.rank)
  reducesTo_S256x256_S_d0_1 : S256x256.ReducesTo [0, 1] S_
  bcast_S_S256 : S_.BroadcastsInDim S256 (![] : Fin 0 → Fin S256.rank)
  reducesTo_S256_S_d0 : S256.ReducesTo [0] S_

variable [Facts]

def fn {F : FTy → Type} [FloatOps F] (main_arg0 : FVec F S32x256x56x56 .f32) (main_arg1 : FVec F S256x256 .f32) (main_arg2 : FVec F S256 .f32) : IVec S_ 1 :=
  let main_v0 : FVec F S32x256x56x56 .f32 := Host.absf main_arg0
  let main_cst : FVec F S_ .f32 := constant S_ .f32 0x7F800000#32
  let main_v1 : FVec F S32x256x56x56 .f32 := broadcastInDim S32x256x56x56 ![] bcast_S_S32x256x56x56 main_cst
  let main_v2 : IVec S32x256x56x56 1 := cmpf .olt main_v0 main_v1
  let main_c : IVec S_ 1 := constantI S_ 1 1#1
  let main_v3 : IVec S_ 1 := (fun x v => Host.reduce IntOp.andi x v reducesTo_S32x256x56x56_S_d0_1_2_3 h_S_) main_v2 main_c
  let main_v4 : FVec F S256x256 .f32 := Host.absf main_arg1
  let main_cst_0 : FVec F S_ .f32 := constant S_ .f32 0x7F800000#32
  let main_v5 : FVec F S256x256 .f32 := broadcastInDim S256x256 ![] bcast_S_S256x256 main_cst_0
  let main_v6 : IVec S256x256 1 := cmpf .olt main_v4 main_v5
  let main_c_1 : IVec S_ 1 := constantI S_ 1 1#1
  let main_v7 : IVec S_ 1 := (fun x v => Host.reduce IntOp.andi x v reducesTo_S256x256_S_d0_1 h_S_) main_v6 main_c_1
  let main_v8 : IVec S_ 1 := andi main_v3 main_v7
  let main_v9 : FVec F S256 .f32 := Host.absf main_arg2
  let main_cst_2 : FVec F S_ .f32 := constant S_ .f32 0x7F800000#32
  let main_v10 : FVec F S256 .f32 := broadcastInDim S256 ![] bcast_S_S256 main_cst_2
  let main_v11 : IVec S256 1 := cmpf .olt main_v9 main_v10
  let main_c_3 : IVec S_ 1 := constantI S_ 1 1#1
  let main_v12 : IVec S_ 1 := (fun x v => Host.reduce IntOp.andi x v reducesTo_S256_S_d0 h_S_) main_v11 main_c_3
  let main_v13 : IVec S_ 1 := andi main_v8 main_v12
  main_v13
-- ==== Kernel.lean ====
abbrev S32x256x56x56 : Shape := ⟨4, ![32, 256, 56, 56]⟩
abbrev S256x256 : Shape := ⟨2, ![256, 256]⟩
abbrev S256 : Shape := ⟨1, ![256]⟩
abbrev S32x256x3136 : Shape := ⟨3, ![32, 256, 3136]⟩
abbrev S256x1 : Shape := ⟨2, ![256, 1]⟩
abbrev S1x256x3136 : Shape := ⟨3, ![1, 256, 3136]⟩
abbrev S256x3136 : Shape := ⟨2, ![256, 3136]⟩
abbrev S_ : Shape := ⟨0, ![]⟩

abbrev nBuf : Space → Nat
  | .hbm => 19
  | .vmem => 24
  | .smem => 0
  | _ => 0

abbrev bufTy : (tb : Table) → Fin (tcTables nBuf tb) → BufTy
  | .hbm, ⟨0, _⟩ => ⟨S32x256x56x56, .f32⟩
  | .hbm, ⟨1, _⟩ => ⟨S256x256, .f32⟩
  | .hbm, ⟨2, _⟩ => ⟨S256, .f32⟩
  | .hbm, ⟨3, _⟩ => ⟨S32x256x3136, .f32⟩
  | .hbm, ⟨4, _⟩ => ⟨S256x256, .f32⟩
  | .hbm, ⟨5, _⟩ => ⟨S256x1, .f32⟩
  | .hbm, ⟨6, _⟩ => ⟨S256x1, .f32⟩
  | .hbm, ⟨7, _⟩ => ⟨S_, .f32⟩
  | .hbm, ⟨8, _⟩ => ⟨S256x1, .f32⟩
  | .hbm, ⟨9, _⟩ => ⟨S256x1, .f32⟩
  | .hbm, ⟨10, _⟩ => ⟨S256x1, .f32⟩
  | .hbm, ⟨11, _⟩ => ⟨S256x1, .f32⟩
  | .hbm, ⟨12, _⟩ => ⟨S256x1, .f32⟩
  | .hbm, ⟨13, _⟩ => ⟨S256x1, .f32⟩
  | .hbm, ⟨14, _⟩ => ⟨S_, .f32⟩
  | .hbm, ⟨15, _⟩ => ⟨S256x1, .f32⟩
  | .hbm, ⟨16, _⟩ => ⟨S256x1, .f32⟩
  | .hbm, ⟨17, _⟩ => ⟨S32x256x3136, .f32⟩
  | .hbm, ⟨18, _⟩ => ⟨S32x256x56x56, .f32⟩
  | .local _ .vmem, ⟨0, _⟩ => ⟨S1x256x3136, .f32⟩
  | .local _ .vmem, ⟨1, _⟩ => ⟨S1x256x3136, .f32⟩
  | .local _ .vmem, ⟨2, _⟩ => ⟨S256x1, .f32⟩
  | .local _ .vmem, ⟨3, _⟩ => ⟨S256x1, .f32⟩
  | .local _ .vmem, ⟨4, _⟩ => ⟨S1x256x3136, .f32⟩
  | .local _ .vmem, ⟨5, _⟩ => ⟨S1x256x3136, .f32⟩
  | .local _ .vmem, ⟨6, _⟩ => ⟨S256x256, .f32⟩
  | .local _ .vmem, ⟨7, _⟩ => ⟨S256x1, .f32⟩
  | .local _ .vmem, ⟨8, _⟩ => ⟨S256x1, .f32⟩
  | .local _ .vmem, ⟨9, _⟩ => ⟨S256x1, .f32⟩
  | .local _ .vmem, ⟨10, _⟩ => ⟨S256x1, .f32⟩
  | .local _ .vmem, ⟨11, _⟩ => ⟨S256x1, .f32⟩
  | .local _ .vmem, ⟨12, _⟩ => ⟨S256x1, .f32⟩
  | .local _ .vmem, ⟨13, _⟩ => ⟨S1x256x3136, .f32⟩
  | .local _ .vmem, ⟨14, _⟩ => ⟨S1x256x3136, .f32⟩
  | .local _ .vmem, ⟨15, _⟩ => ⟨S256x256, .f32⟩
  | .local _ .vmem, ⟨16, _⟩ => ⟨S256x256, .f32⟩
  | .local _ .vmem, ⟨17, _⟩ => ⟨S256x1, .f32⟩
  | .local _ .vmem, ⟨18, _⟩ => ⟨S256x1, .f32⟩
  | .local _ .vmem, ⟨19, _⟩ => ⟨S256x1, .f32⟩
  | .local _ .vmem, ⟨20, _⟩ => ⟨S256x1, .f32⟩
  | .local _ .vmem, ⟨21, _⟩ => ⟨S256x1, .f32⟩
  | .local _ .vmem, ⟨22, _⟩ => ⟨S1x256x3136, .f32⟩
  | .local _ .vmem, ⟨23, _⟩ => ⟨S1x256x3136, .f32⟩
  | _, _ => ⟨S32x256x56x56, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_cst : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7_0 : Ref sig .tc := ⟨.hbm, 11, rfl⟩
abbrev main_v7_1 : Ref sig .tc := ⟨.hbm, 12, rfl⟩
abbrev main_v8 : Ref sig .tc := ⟨.hbm, 13, rfl⟩
abbrev main_cst_0 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_scratch0 : Ref sig .tc := ⟨.vmem, 3, rfl⟩
abbrev cc1_stg0_0 : Ref sig .tc := ⟨.vmem, 4, rfl⟩
abbrev cc1_stg0_1 : Ref sig .tc := ⟨.vmem, 5, rfl⟩
abbrev cc1_stg1_0 : Ref sig .tc := ⟨.vmem, 6, rfl⟩
abbrev cc1_stg2_0 : Ref sig .tc := ⟨.vmem, 7, rfl⟩
abbrev cc1_stg3_0 : Ref sig .tc := ⟨.vmem, 8, rfl⟩
abbrev cc1_stg4_0 : Ref sig .tc := ⟨.vmem, 9, rfl⟩
abbrev cc1_stg5_0 : Ref sig .tc := ⟨.vmem, 10, rfl⟩
abbrev cc1_scratch0 : Ref sig .tc := ⟨.vmem, 11, rfl⟩
abbrev cc1_scratch1 : Ref sig .tc := ⟨.vmem, 12, rfl⟩
abbrev cc2_stg0_0 : Ref sig .tc := ⟨.vmem, 13, rfl⟩
abbrev cc2_stg0_1 : Ref sig .tc := ⟨.vmem, 14, rfl⟩
abbrev cc2_stg1_0 : Ref sig .tc := ⟨.vmem, 15, rfl⟩
abbrev cc2_stg2_0 : Ref sig .tc := ⟨.vmem, 16, rfl⟩
abbrev cc2_stg3_0 : Ref sig .tc := ⟨.vmem, 17, rfl⟩
abbrev cc2_stg4_0 : Ref sig .tc := ⟨.vmem, 18, rfl⟩
abbrev cc2_stg5_0 : Ref sig .tc := ⟨.vmem, 19, rfl⟩
abbrev cc2_stg6_0 : Ref sig .tc := ⟨.vmem, 20, rfl⟩
abbrev cc2_stg7_0 : Ref sig .tc := ⟨.vmem, 21, rfl⟩
abbrev cc2_stg8_0 : Ref sig .tc := ⟨.vmem, 22, rfl⟩
abbrev cc2_stg8_1 : Ref sig .tc := ⟨.vmem, 23, rfl⟩
abbrev cc0_sem0_0 : DmaSem sig := 0
abbrev cc0_sem0_1 : DmaSem sig := 1
abbrev cc0_sem1_0 : DmaSem sig := 2
abbrev cc1_sem0_0 : DmaSem sig := 3
abbrev cc1_sem0_1 : DmaSem sig := 4
abbrev cc1_sem1_0 : DmaSem sig := 5
abbrev cc1_sem2_0 : DmaSem sig := 6
abbrev cc1_sem3_0 : DmaSem sig := 7
abbrev cc1_sem4_0 : DmaSem sig := 8
abbrev cc1_sem5_0 : DmaSem sig := 9
abbrev cc2_sem0_0 : DmaSem sig := 10
abbrev cc2_sem0_1 : DmaSem sig := 11
abbrev cc2_sem1_0 : DmaSem sig := 12
abbrev cc2_sem2_0 : DmaSem sig := 13
abbrev cc2_sem3_0 : DmaSem sig := 14
abbrev cc2_sem4_0 : DmaSem sig := 15
abbrev cc2_sem5_0 : DmaSem sig := 16
abbrev cc2_sem6_0 : DmaSem sig := 17
abbrev cc2_sem7_0 : DmaSem sig := 18
abbrev cc2_sem8_0 : DmaSem sig := 19
abbrev cc2_sem8_1 : DmaSem sig := 20

abbrev nD : Nat := 1
abbrev τ : Topo := Topo.v7x

variable {F : FTy → Type} [FloatOps F]

abbrev grid0 : Pipeline.Grid := ⟨1, ![32], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1x256x3136 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x1 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev grid1 : Pipeline.Grid := ⟨1, ![32], ![false]⟩

def cc1_transform_0 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage1_0 : Fin 2 → Memref sig .tc .vmem S1x256x3136 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S256x256 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S256x1 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S256x1 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S256x1 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S256x1 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev grid2 : Pipeline.Grid := ⟨1, ![32], ![false]⟩

def cc2_transform_0 (i : grid2.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_7 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_8 (i : grid2.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage2_0 : Fin 2 → Memref sig .tc .vmem S1x256x3136 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S256x256 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S256x256 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S256x1 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S256x1 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S256x1 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 1 → Memref sig .tc .vmem S256x1 .f32 := fun | 0 => Memref.whole cc2_stg6_0 | ⟨_ + 1, h⟩ => absurd h (Nat.not_lt.2 (Nat.le_add_left _ _))
abbrev sem2_6 : Fin 1 → DmaSem sig := fun | 0 => cc2_sem6_0 | ⟨_ + 1, h⟩ => absurd h (Nat.not_lt.2 (Nat.le_add_left _ _))
abbrev reads2_6 : Fin grid2.rank → Bool := ![false]

abbrev stage2_7 : Fin 1 → Memref sig .tc .vmem S256x1 .f32 := fun | 0 => Memref.whole cc2_stg7_0 | ⟨_ + 1, h⟩ => absurd h (Nat.not_lt.2 (Nat.le_add_left _ _))
abbrev sem2_7 : Fin 1 → DmaSem sig := fun | 0 => cc2_sem7_0 | ⟨_ + 1, h⟩ => absurd h (Nat.not_lt.2 (Nat.le_add_left _ _))
abbrev reads2_7 : Fin grid2.rank → Bool := ![false]

abbrev stage2_8 : Fin 2 → Memref sig .tc .vmem S1x256x3136 .f32 := fun | 0 => Memref.whole cc2_stg8_0 | 1 => Memref.whole cc2_stg8_1 | ⟨_ + 2, h⟩ => absurd h (Nat.not_lt.2 (Nat.le_add_left _ _))
abbrev sem2_8 : Fin 2 → DmaSem sig := fun | 0 => cc2_sem8_0 | 1 => cc2_sem8_1 | ⟨_ + 2, h⟩ => absurd h (Nat.not_lt.2 (Nat.le_add_left _ _))
abbrev reads2_8 : Fin grid2.rank → Bool := ![true]

class Facts₀ : Prop where
  shapeCasts_S32x256x56x56_S32x256x3136 : S32x256x56x56.ShapeCasts S32x256x3136
  transposes_S256x256_S256x256_1_0 : S256x256.Transposes [1, 0] S256x256
  shapeCasts_S256_S256x1 : S256.ShapeCasts S256x1
  inb_S256x1_S256x1_0_0 : ∀ a, (![0, 0] : Fin 2 → Nat) a + S256x1.size a ≤ S256x1.size a
  h_S256x1 : 0 < S256x1.numel
  shapeCasts_S256x1_S256x1 : S256x1.ShapeCasts S256x1
  inb_S1x256x3136_S1x256x3136_0_0_0 : ∀ a, (![0, 0, 0] : Fin 3 → Nat) a + S1x256x3136.size a ≤ S1x256x3136.size a
  h_S1x256x3136 : 0 < S1x256x3136.numel
  shapeCasts_S1x256x3136_S256x3136 : S1x256x3136.ShapeCasts S256x3136
  reduces_S256x3136_S256 : S256x3136.Reduces [1] S256
  bcast_S_S256x1 : S_.BroadcastsInDim S256x1 (![] : Fin 0 → Fin S256x1.rank)
  bitsLt_bf16_f32 : FTy.bits .bf16 < FTy.bits .f32
  inb_S256x256_S256x256_0_0 : ∀ a, (![0, 0] : Fin 2 → Nat) a + S256x256.size a ≤ S256x256.size a
  h_S256x256 : 0 < S256x256.numel
  shapeCasts_S256x256_S256x256 : S256x256.ShapeCasts S256x256
  broadcasts_S256x1_S256x3136 : S256x1.Broadcasts S256x3136
  shapeCasts_S256x3136_S1x256x3136 : S256x3136.ShapeCasts S1x256x3136
  shapeCasts_S32x256x3136_S32x256x56x56 : S32x256x3136.ShapeCasts S32x256x56x56
  dot_S256x256_S256x1_S256x1_1_0_0_1_n_n_wf : DotDims.WF S256x256 S256x1 S256x1 [1] [0] [0] [1] [] []
  dot_S256x256_S256x3136_S256x3136_1_0_0_1_n_n_wf : DotDims.WF S256x256 S256x3136 S256x3136 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x256x3136.size a ≤ S32x256x3136.size a
  hwx0_0 : ∀ i : grid0.Coords, EltTy.bits .f32 = 32 ∨ (Rect.block (s := S32x256x3136) S1x256x3136.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S256x1.size a ≤ S256x1.size a
  hwx0_1 : ∀ i : grid0.Coords, EltTy.bits .f32 = 32 ∨ (Rect.block (s := S256x1) S256x1.size (cc0_transform_1 i) (hinb0_1 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1x256x3136.size a ≤ S32x256x3136.size a
  hwx1_0 : ∀ i : grid1.Coords, EltTy.bits .f32 = 32 ∨ (Rect.block (s := S32x256x3136) S1x256x3136.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S256x256.size a ≤ S256x256.size a
  hwx1_1 : ∀ i : grid1.Coords, EltTy.bits .f32 = 32 ∨ (Rect.block (s := S256x256) S256x256.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S256x1.size a ≤ S256x1.size a
  hwx1_2 : ∀ i : grid1.Coords, EltTy.bits .f32 = 32 ∨ (Rect.block (s := S256x1) S256x1.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S256x1.size a ≤ S256x1.size a
  hwx1_3 : ∀ i : grid1.Coords, EltTy.bits .f32 = 32 ∨ (Rect.block (s := S256x1) S256x1.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S256x1.size a ≤ S256x1.size a
  hwx1_4 : ∀ i : grid1.Coords, EltTy.bits .f32 = 32 ∨ (Rect.block (s := S256x1) S256x1.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S256x1.size a ≤ S256x1.size a
  hwx1_5 : ∀ i : grid1.Coords, EltTy.bits .f32 = 32 ∨ (Rect.block (s := S256x1) S256x1.size (cc1_transform_5 i) (hinb1_5 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S1x256x3136.size a ≤ S32x256x3136.size a
  hwx2_0 : ∀ i : grid2.Coords, EltTy.bits .f32 = 32 ∨ (Rect.block (s := S32x256x3136) S1x256x3136.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S256x256.size a ≤ S256x256.size a
  hwx2_1 : ∀ i : grid2.Coords, EltTy.bits .f32 = 32 ∨ (Rect.block (s := S256x256) S256x256.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S256x256.size a ≤ S256x256.size a
  hwx2_2 : ∀ i : grid2.Coords, EltTy.bits .f32 = 32 ∨ (Rect.block (s := S256x256) S256x256.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S256x1.size a ≤ S256x1.size a
  hwx2_3 : ∀ i : grid2.Coords, EltTy.bits .f32 = 32 ∨ (Rect.block (s := S256x1) S256x1.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S256x1.size a ≤ S256x1.size a
  hwx2_4 : ∀ i : grid2.Coords, EltTy.bits .f32 = 32 ∨ (Rect.block (s := S256x1) S256x1.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S256x1.size a ≤ S256x1.size a
  hwx2_5 : ∀ i : grid2.Coords, EltTy.bits .f32 = 32 ∨ (Rect.block (s := S256x1) S256x1.size (cc2_transform_5 i) (hinb2_5 i)).WholeWords (EltTy.packing .f32)
  hstage2_6 : ∀ j, (stage2_6 j).IsWhole
  nbuf2_6 : grid2.bufCount reads2_6 true = 1
  hreads2_6 : ∀ i i' : grid2.Coords, (∀ a, reads2_6 a = true → i a = i' a) → cc2_transform_6 i = cc2_transform_6 i'
  hinb2_6 : ∀ (i : grid2.Coords) a, (cc2_transform_6 i a + 1) * S256x1.size a ≤ S256x1.size a
  hwx2_6 : ∀ i : grid2.Coords, EltTy.bits .f32 = 32 ∨ (Rect.block (s := S256x1) S256x1.size (cc2_transform_6 i) (hinb2_6 i)).WholeWords (EltTy.packing .f32)
  hstage2_7 : ∀ j, (stage2_7 j).IsWhole
  nbuf2_7 : grid2.bufCount reads2_7 true = 1
  hreads2_7 : ∀ i i' : grid2.Coords, (∀ a, reads2_7 a = true → i a = i' a) → cc2_transform_7 i = cc2_transform_7 i'
  hinb2_7 : ∀ (i : grid2.Coords) a, (cc2_transform_7 i a + 1) * S256x1.size a ≤ S256x1.size a
  hwx2_7 : ∀ i : grid2.Coords, EltTy.bits .f32 = 32 ∨ (Rect.block (s := S256x1) S256x1.size (cc2_transform_7 i) (hinb2_7 i)).WholeWords (EltTy.packing .f32)
  hstage2_8 : ∀ j, (stage2_8 j).IsWhole
  nbuf2_8 : grid2.bufCount reads2_8 false = 2
  hreads2_8 : ∀ i i' : grid2.Coords, (∀ a, reads2_8 a = true → i a = i' a) → cc2_transform_8 i = cc2_transform_8 i'
  hinb2_8 : ∀ (i : grid2.Coords) a, (cc2_transform_8 i a + 1) * S1x256x3136.size a ≤ S32x256x3136.size a
  hwx2_8 : ∀ i : grid2.Coords, EltTy.bits .f32 = 32 ∨ (Rect.block (s := S32x256x3136) S1x256x3136.size (cc2_transform_8 i) (hinb2_8 i)).WholeWords (EltTy.packing .f32)

variable [Facts₀]

def dot_S256x256_S256x1_S256x1_1_0_0_1_n_n : DotDims S256x256 S256x1 S256x1 where
  lhsContracting := [1]
  rhsContracting := [0]
  lhsNonContracting := [0]
  rhsNonContracting := [1]
  lhsBatch := []
  rhsBatch := []
  wf := dot_S256x256_S256x1_S256x1_1_0_0_1_n_n_wf
def dot_S256x256_S256x3136_S256x3136_1_0_0_1_n_n : DotDims S256x256 S256x3136 S256x3136 where
  lhsContracting := [1]
  rhsContracting := [0]
  lhsNonContracting := [0]
  rhsNonContracting := [1]
  lhsBatch := []
  rhsBatch := []
  wf := dot_S256x256_S256x3136_S256x3136_1_0_0_1_n_n_wf

abbrev win0_0 : Pipeline.Window sig grid0 :=
  Pipeline.Window.ofSpec (Memref.whole main_v0) S1x256x3136.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v3) S256x1.size cc0_transform_1 reads0_1 true true 1 stage0_1 sem0_1
    hrank0 hreads0_1 hinb0_1 nbuf0_1 (Memref.isWhole_whole _) hwx0_1 hstage0_1

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

abbrev win1_0 : Pipeline.Window sig grid1 :=
  Pipeline.Window.ofSpec (Memref.whole main_v0) S1x256x3136.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v1) S256x256.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v6) S256x1.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v2) S256x1.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v7_0) S256x1.size cc1_transform_4 reads1_4 true true 1 stage1_4 sem1_4
    hrank1 hreads1_4 hinb1_4 nbuf1_4 (Memref.isWhole_whole _) hwx1_4 hstage1_4

abbrev win1_5 : Pipeline.Window sig grid1 :=
  Pipeline.Window.ofSpec (Memref.whole main_v7_1) S256x1.size cc1_transform_5 reads1_5 true true 1 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

abbrev win2_0 : Pipeline.Window sig grid2 :=
  Pipeline.Window.ofSpec (Memref.whole main_v0) S1x256x3136.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v1) S256x256.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_arg1) S256x256.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v6) S256x1.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v5) S256x1.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v2) S256x1.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_v7_0) S256x1.size cc2_transform_6 reads2_6 false true 1 stage2_6 sem2_6
    hrank2 hreads2_6 hinb2_6 nbuf2_6 (Memref.isWhole_whole _) hwx2_6 hstage2_6

abbrev win2_7 : Pipeline.Window sig grid2 :=
  Pipeline.Window.ofSpec (Memref.whole main_v10) S256x1.size cc2_transform_7 reads2_7 false true 1 stage2_7 sem2_7
    hrank2 hreads2_7 hinb2_7 nbuf2_7 (Memref.isWhole_whole _) hwx2_7 hstage2_7

abbrev win2_8 : Pipeline.Window sig grid2 :=
  Pipeline.Window.ofSpec (Memref.whole main_v11) S1x256x3136.size cc2_transform_8 reads2_8 true false 2 stage2_8 sem2_8
    hrank2 hreads2_8 hinb2_8 nbuf2_8 (Memref.isWhole_whole _) hwx2_8 hstage2_8

abbrev win2 : Fin 9 → Pipeline.Window sig grid2 := fun | 0 => win2_0 | 1 => win2_1 | 2 => win2_2 | 3 => win2_3 | 4 => win2_4 | 5 => win2_5 | 6 => win2_6 | 7 => win2_7 | 8 => win2_8 | ⟨_ + 9, h⟩ => absurd h (Nat.not_lt.2 (Nat.le_add_left _ _))
abbrev spec2 : Fin 9 → Pipeline.WinSpec sig grid2.rank := fun w => (win2 w).toWinSpec

class Facts : Prop extends Facts₀ where

variable [Facts]
-- ==== ReferenceIdeal.lean ====
abbrev S32x256x56x56 : Shape := ⟨4, ![32, 256, 56, 56]⟩
abbrev S256x256 : Shape := ⟨2, ![256, 256]⟩
abbrev S256 : Shape := ⟨1, ![256]⟩
abbrev S_ : Shape := ⟨0, ![]⟩
abbrev S32x56x56x256 : Shape := ⟨4, ![32, 56, 56, 256]⟩
abbrev S100352x256 : Shape := ⟨2, ![100352, 256]⟩
abbrev S256x100352 : Shape := ⟨2, ![256, 100352]⟩
abbrev S256x1 : Shape := ⟨2, ![256, 1]⟩

abbrev nBuf : Space → Nat
  | .hbm => 50
  | .vmem => 0
  | .smem => 0
  | _ => 0

abbrev bufTy : (tb : Table) → Fin (tcTables nBuf tb) → BufTy
  | .hbm, ⟨0, _⟩ => ⟨S32x256x56x56, .f32⟩
  | .hbm, ⟨1, _⟩ => ⟨S256x256, .f32⟩
  | .hbm, ⟨2, _⟩ => ⟨S256, .f32⟩
  | .hbm, ⟨3, _⟩ => ⟨S_, .f32⟩
  | .hbm, ⟨4, _⟩ => ⟨S32x256x56x56, .f32⟩
  | .hbm, ⟨5, _⟩ => ⟨S32x256x56x56, .f32⟩
  | .hbm, ⟨6, _⟩ => ⟨S32x56x56x256, .f32⟩
  | .hbm, ⟨7, _⟩ => ⟨S100352x256, .f32⟩
  | .hbm, ⟨8, _⟩ => ⟨S256x100352, .f32⟩
  | .hbm, ⟨9, _⟩ => ⟨S_, .f32⟩
  | .hbm, ⟨10, _⟩ => ⟨S256, .f32⟩
  | .hbm, ⟨11, _⟩ => ⟨S256x1, .f32⟩
  | .hbm, ⟨12, _⟩ => ⟨S_, .f32⟩
  | .hbm, ⟨13, _⟩ => ⟨S256x1, .f32⟩
  | .hbm, ⟨14, _⟩ => ⟨S256x1, .f32⟩
  | .hbm, ⟨15, _⟩ => ⟨S256x100352, .f32⟩
  | .hbm, ⟨16, _⟩ => ⟨S256x100352, .f32⟩
  | .hbm, ⟨17, _⟩ => ⟨S256x256, .f32⟩
  | .hbm, ⟨18, _⟩ => ⟨S256x100352, .f32⟩
  | .hbm, ⟨19, _⟩ => ⟨S256x1, .f32⟩
  | .hbm, ⟨20, _⟩ => ⟨S256x1, .f32⟩
  | .hbm, ⟨21, _⟩ => ⟨S256x100352, .f32⟩
  | .hbm, ⟨22, _⟩ => ⟨S256x100352, .f32⟩
  | .hbm, ⟨23, _⟩ => ⟨S256x100352, .f32⟩
  | .hbm, ⟨24, _⟩ => ⟨S256x100352, .f32⟩
  | .hbm, ⟨25, _⟩ => ⟨S_, .f32⟩
  | .hbm, ⟨26, _⟩ => ⟨S256, .f32⟩
  | .hbm, ⟨27, _⟩ => ⟨S256x1, .f32⟩
  | .hbm, ⟨28, _⟩ => ⟨S_, .f32⟩
  | .hbm, ⟨29, _⟩ => ⟨S256, .f32⟩
  | .hbm, ⟨30, _⟩ => ⟨S256x1, .f32⟩
  | .hbm, ⟨31, _⟩ => ⟨S256x1, .f32⟩
  | .hbm, ⟨32, _⟩ => ⟨S_, .f32⟩
  | .hbm, ⟨33, _⟩ => ⟨S256x1, .f32⟩
  | .hbm, ⟨34, _⟩ => ⟨S256x1, .f32⟩
  | .hbm, ⟨35, _⟩ => ⟨S256x100352, .f32⟩
  | .hbm, ⟨36, _⟩ => ⟨S256x100352, .f32⟩
  | .hbm, ⟨37, _⟩ => ⟨S256x100352, .f32⟩
  | .hbm, ⟨38, _⟩ => ⟨S256x100352, .f32⟩
  | .hbm, ⟨39, _⟩ => ⟨S256x100352, .f32⟩
  | .hbm, ⟨40, _⟩ => ⟨S256x100352, .f32⟩
  | .hbm, ⟨41, _⟩ => ⟨S256x100352, .f32⟩
  | .hbm, ⟨42, _⟩ => ⟨S256x100352, .f32⟩
  | .hbm, ⟨43, _⟩ => ⟨S256x100352, .f32⟩
  | .hbm, ⟨44, _⟩ => ⟨S256x100352, .f32⟩
  | .hbm, ⟨45, _⟩ => ⟨S256x100352, .f32⟩
  | .hbm, ⟨46, _⟩ => ⟨S256x100352, .f32⟩
  | .hbm, ⟨47, _⟩ => ⟨S100352x256, .f32⟩
  | .hbm, ⟨48, _⟩ => ⟨S32x56x56x256, .f32⟩
  | .hbm, ⟨49, _⟩ => ⟨S32x256x56x56, .f32⟩
  | _, _ => ⟨S32x256x56x56, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_call0_cst : Ref sig .tc := ⟨.hbm, 3, rfl⟩
abbrev main_call0_v0 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_cst : Ref sig .tc := ⟨.hbm, 9, rfl⟩
abbrev main_v4 : Ref sig .tc := ⟨.hbm, 10, rfl⟩
abbrev main_v5 : Ref sig .tc := ⟨.hbm, 11, rfl⟩
abbrev main_cst_0 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_call1_v0 : Ref sig .tc := ⟨.hbm, 21, rfl⟩
abbrev main_call1_v1 : Ref sig .tc := ⟨.hbm, 22, rfl⟩
abbrev main_call1_v2 : Ref sig .tc := ⟨.hbm, 23, rfl⟩
abbrev main_v14 : Ref sig .tc := ⟨.hbm, 24, rfl⟩
abbrev main_cst_1 : Ref sig .tc := ⟨.hbm, 25, rfl⟩
abbrev main_v15 : Ref sig .tc := ⟨.hbm, 26, rfl⟩
abbrev main_v16 : Ref sig .tc := ⟨.hbm, 27, rfl⟩
abbrev main_cst_2 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_cst_3 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩

abbrev nD : Nat := 1
abbrev τ : Topo := Topo.v7x

variable {F : FTy → Type} [FloatOps F]

class Facts₀ : Prop where
  bcast_S_S32x256x56x56 : S_.BroadcastsInDim S32x256x56x56 (![] : Fin 0 → Fin S32x256x56x56.rank)
  transposes_S32x256x56x56_S32x56x56x256_0_2_3_1 : S32x256x56x56.Transposes [0, 2, 3, 1] S32x56x56x256
  shapeCasts_S32x56x56x256_S100352x256 : S32x56x56x256.ShapeCasts S100352x256
  transposes_S100352x256_S256x100352_1_0 : S100352x256.Transposes [1, 0] S256x100352
  reducesTo_S256x100352_S256_d1 : S256x100352.ReducesTo [1] S256
  h_S_ : 0 < S_.numel
  bcast_S256_S256x1_0 : S256.BroadcastsInDim S256x1 (![0] : Fin 1 → Fin S256x1.rank)
  bcast_S_S256x1 : S_.BroadcastsInDim S256x1 (![] : Fin 0 → Fin S256x1.rank)
  bcast_S256x1_S256x100352_0_1 : S256x1.BroadcastsInDim S256x100352 (![0, 1] : Fin 2 → Fin S256x100352.rank)
  transposes_S256x256_S256x256_1_0 : S256x256.Transposes [1, 0] S256x256
  transposes_S256x100352_S100352x256_1_0 : S256x100352.Transposes [1, 0] S100352x256
  shapeCasts_S100352x256_S32x56x56x256 : S100352x256.ShapeCasts S32x56x56x256
  transposes_S32x56x56x256_S32x256x56x56_0_3_1_2 : S32x56x56x256.Transposes [0, 3, 1, 2] S32x256x56x56
  dot_S256x256_S256x100352_S256x100352_1_0_0_1_n_n_wf : DotDims.WF S256x256 S256x100352 S256x100352 [1] [0] [0] [1] [] []

variable [Facts₀]

def dot_S256x256_S256x100352_S256x100352_1_0_0_1_n_n : DotDims S256x256 S256x100352 S256x100352 where
  lhsContracting := [1]
  rhsContracting := [0]
  lhsNonContracting := [0]
  rhsNonContracting := [1]
  lhsBatch := []
  rhsBatch := []
  wf := dot_S256x256_S256x100352_S256x100352_1_0_0_1_n_n_wf

class Facts : Prop extends Facts₀ where

variable [Facts]
-- ==== Proof.KI.Reg0.lean ====
/-
  Region 0: the per-channel sum of relu(x), accumulated over the 32 batch blocks in a VMEM scratch.
  At grid point b the body adds the lane sums of relu of block b to the scratch (zeroed at point 0) and
  copies the scratch into the output window, whose one block is written back after the last point.
-/
import proofs.«103972_j30554397343924_1_alg».proof.Proof.Gen.KernelIdeal.Launch
import proofs.«103972_j30554397343924_1_alg».proof.Proof.Gen.KernelIdeal.Skeleton
import proofs.«103972_j30554397343924_1_alg».proof.Proof.Gen.KernelIdeal.Points
import Idealize.ShloMosaic.Lib.Pipeline.FrameBody
import Idealize.ShloMosaic.Lib.Pipeline.Value
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The scratch accumulator as a memref. -/
abbrev scM0 : Memref sig .tc .vmem S256x1 .f32 := Memref.whole cc0_scratch0

/-- The running sum after point `n`: the zero column plus the lane sums of relu of blocks 0..n, added in block order. -/
def sum0 (c : Dev nD) : (n : ℕ) → n < cfg0.N → FVec F S256x1 .f32
  | 0, h => k0_pay2 (iblk0 V c 0 ⟨0, h⟩) (k0_pay1 (F := F))
  | n + 1, h => k0_pay2 (iblk0 V c 0 ⟨n + 1, h⟩) (sum0 c n (Nat.lt_of_succ_lt h))

theorem sum0_zero (c : Dev nD) (h : 0 < cfg0.N) : sum0 V c 0 h = k0_pay2 (iblk0 V c 0 ⟨0, h⟩) (k0_pay1 (F := F)) := rfl
theorem sum0_succ (c : Dev nD) (n : ℕ) (h : n + 1 < cfg0.N) :
    sum0 V c (n + 1) h = k0_pay2 (iblk0 V c 0 ⟨n + 1, h⟩) (sum0 V c n (Nat.lt_of_succ_lt h)) := rfl

/-- The scoped buffers that are neither a staging buffer of this call nor its scratch, each at some contents. -/
abbrev rest0 (c : Dev nD) : sProp 𝕄 :=
  Pipeline.scopedRestBut (Ix := Unit) (Name := ℕ) (U := UR sig nD τ) (Lvl := ℕ) (Val := Elt F) spec0 c [cc0_scratch0]

/-- The invariant between points: before the first point the class's; afterwards the scratch at the running sum. -/
def Phi0 (c : Dev nD) : (n : ℕ) → n ≤ cfg0.N → sProp 𝕄
  | 0, _ => Pipeline.ΦA spec0 c
  | n + 1, h => iprop(owns (c : Thread nD τ) scM0 fullShare (sum0 V c n h) ∗ rest0 (F := F) c ∗ (∃ r, prngReg c r))

/-- The proof data of pipeline 0. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => sum0 V c t.val t.isLt
  Φ t := Phi0 V c t.val (Nat.le_of_lt_succ t.isLt)
  q _ := fullShare
  owed _ := 0

theorem A_eq0 (c : Dev nD) (w : Fin cfg0.W) : (dat0 V c).A w = V c (Pipeline.arrRef spec0 w) := by
  dsimp only [dat0]
theorem after0_0 (c : Dev nD) (t : Fin cfg0.N) : (dat0 V c).after 0 t = iblk0 V c 0 t := by dsimp only [dat0]
theorem after0_1 (c : Dev nD) (t : Fin cfg0.N) : (dat0 V c).after 1 t = sum0 V c t.val t.isLt := by dsimp only [dat0]

/-! ## The invariant, restated -/

/-- Separating conjunction reassociated, as an equality of propositions. -/
private theorem sep_assoc_eq0 (P Q R : sProp 𝕄) : iprop((P ∗ Q) ∗ R) = iprop(P ∗ Q ∗ R) :=
  equiv_iff.mp ⟨Idealize.SL.BI.sep_assoc, Idealize.SL.BI.sep_assoc'⟩

/-- The class's invariant with this call's scratch split off the scoped buffers: the scratch as a memref owned at some
    contents, every other scoped buffer left unopened, the generator register at some state. -/
private theorem PhiA0_split (c : Dev nD) :
    (Pipeline.ΦA spec0 c : sProp 𝕄)
      = iprop((∃ d, owns (c : Thread nD τ) scM0 fullShare d) ∗ rest0 (F := F) c ∗ (∃ r, prngReg c r)) := by
  unfold Pipeline.ΦA
  rw [Pipeline.scopedRest_split_of_list spec0 c [cc0_scratch0] (by decide) (by decide)]
  simp only [bigSepL_singleton, scM0, owns_whole]
  exact sep_assoc_eq0 _ _ _

private theorem Phi0_zero (c : Dev nD) (n : ℕ) (h : n ≤ cfg0.N) (hz : n = 0) : Phi0 V c n h = Pipeline.ΦA spec0 c := by
  subst hz; rfl

/-- After point `n`: the scratch at the running sum through `n`. -/
private theorem Phi0_succ (c : Dev nD) (n : ℕ) (hn : n < cfg0.N) :
    Phi0 V c (n + 1) hn
      = iprop(owns (c : Thread nD τ) scM0 fullShare (sum0 V c n hn) ∗ rest0 (F := F) c ∗ (∃ r, prngReg c r)) := rfl

/-- Before a point that is not the first: the scratch at the running sum through the point before. -/
private theorem Phi0_pos (c : Dev nD) (n : ℕ) (h : n ≤ cfg0.N) (hz : n ≠ 0) :
    Phi0 V c n h
      = iprop(owns (c : Thread nD τ) scM0 fullShare (sum0 V c (n - 1) (by omega)) ∗ rest0 (F := F) c ∗ (∃ r, prngReg c r)) := by
  cases n with
  | zero => exact absurd rfl hz
  | succ n => rfl

/-- After any point the invariant gives the class's back: the scratch's named contents are forgotten. -/
private theorem Phi0_out (c : Dev nD) (t : Fin (cfg0.N + 1)) (ht : t.val ≠ 0) : (dat0 V c).Φ t ⊢ Pipeline.ΦA spec0 c := by
  rw [show (dat0 V c).Φ t = Phi0 V c t.val (Nat.le_of_lt_succ t.isLt) from rfl, Phi0_pos V c _ _ ht, PhiA0_split]
  iintro ⟨HS, Hr, Hg⟩
  isplitl [HS]
  · iexists _; iexact HS
  isplitl [Hr]
  · iexact Hr
  iexact Hg

/-! ## The body's one condition -/

/-- The condition of the body's `scf.if` (first grid point), from the grid coordinate. -/
private abbrev cond0 (i : grid0.Coords) : Prop :=
  (Scalar.cmpi .ne (Scalar.extui (Scalar.cmpi .eq (BitVec.ofNat 32 (i 0).val) 0#32)) 0#32) = 1#1

/-- It holds at the first point only: decided over the 32 points. -/
private theorem hcond0 : ∀ t : Fin cfg0.N, cond0 (grid0.coords t) ↔ t.val = 0 :=
  (by decide +kernel : ∀ t : Fin grid0.N, cond0 (grid0.coords t) ↔ t.val = 0)

/-! ## Whole-buffer stores and loads

Every access of the body is through the rectangle that is all of its buffer, at zero offsets. -/

private theorem hz2 : (![0, 0] : Fin 2 → ℕ) = fun _ => 0 := funext fun a => by fin_cases a <;> rfl
private theorem hz3 : (![0, 0, 0] : Fin 3 → ℕ) = fun _ => 0 := funext fun a => by fin_cases a <;> rfl

local notation "rCol" => Rect.unit (s := S256x1) ![0, 0] S256x1.size inb_S256x1_S256x1_0_0
local notation "rBlk" => Rect.unit (s := S1x256x3136) ![0, 0, 0] S1x256x3136.size inb_S1x256x3136_S1x256x3136_0_0_0

/-- Every index of the column lies in that rectangle, -/
private theorem mem_col : ∀ y : S256x1.Idx, y ∈ (rCol).set :=
  View.mem_set_unit_zero (S := S256x1) (off := ![0, 0]) hz2 inb_S256x1_S256x1_0_0

/-- so a list of stores headed by a store through it covers the column. -/
private theorem cover_col (w : S256x1.Idx → Elt F .f32) (L : List (View.Piece (Elt F) S256x1 .f32)) :
    ∀ y : S256x1.Idx, ∃ p ∈ ((⟨rCol, w⟩ : View.Piece (Elt F) S256x1 .f32) :: L), y ∈ p.1.set :=
  fun y => ⟨⟨rCol, w⟩, List.mem_cons_self .., mem_col y⟩

/-- A store of the whole column, the last of the stores, is what the column then reads. -/
private theorem read_store_col {κ : Kind} {sp : Space} (v : View sig κ sp S256x1 .f32) (f : v.ty.Contents (Elt F))
    (w : S256x1.Idx → Elt F .f32) (L : List (View.Piece (Elt F) S256x1 .f32)) :
    v.read (Elt F) (v.writes (Elt F) f (⟨rCol, w⟩ :: L)) = w := by
  rw [View.read_writes_eq_canon v f _ (cover_col w L),
    View.canon_cons_unit_zero (S := S256x1) hz2 inb_S256x1_S256x1_0_0 w L]

/-- A load of the whole column after such a store reads the stored column. -/
private theorem load_store_col {κ : Kind} {sp : Space} (v : View sig κ sp S256x1 .f32)
    (w : S256x1.Idx → Elt F .f32) (L : List (View.Piece (Elt F) S256x1 .f32)) :
    v.readCov (⟨rCol, w⟩ :: L) (rCol).toLoadRect = w := by
  rw [View.readCov_eq_canon_ld v _ rCol (cover_col w L),
    View.canon_cons_unit_zero (S := S256x1) hz2 inb_S256x1_S256x1_0_0 w L,
    View.ld_unit_zero (S := S256x1) hz2 inb_S256x1_S256x1_0_0 w]

/-- A load of the whole column of a buffer nothing has stored into reads the column. -/
private theorem load_col {κ : Kind} {sp : Space} (v : View sig κ sp S256x1 .f32) (f : v.ty.Contents (Elt F)) :
    v.readAt (Elt F) (rCol).toLoadRect f = v.read (Elt F) f :=
  View.ld_unit_zero (S := S256x1) hz2 inb_S256x1_S256x1_0_0 (v.read (Elt F) f)

/-- A load of the whole input block reads the block. -/
private theorem load_blk {κ : Kind} {sp : Space} (v : View sig κ sp S1x256x3136 .f32) (f : v.ty.Contents (Elt F)) :
    v.readAt (Elt F) (rBlk).toLoadRect f = v.read (Elt F) f :=
  View.ld_unit_zero (S := S1x256x3136) hz3 inb_S1x256x3136_S1x256x3136_0_0_0 (v.read (Elt F) f)

/-! ## The body's triples, on whole memrefs at symbolic contents -/

set_option maxHeartbeats 1000000 in
/-- At the first point: the scratch is zeroed, so whatever it held the scratch and the output buffer end at the lane sums
    of relu of the block added to the zero column. -/
private theorem run0_first (c : Dev nD) (E : Set ℕ) (i : grid0.Coords) (hc : cond0 i)
    (arg1 : Memref sig .tc .vmem S1x256x3136 .f32) (harg1 : arg1.IsWhole)
    (arg2 : Memref sig .tc .vmem S256x1 .f32) (harg2 : arg2.IsWhole)
    (arg3 : Memref sig .tc .vmem S256x1 .f32) (harg3 : arg3.IsWhole)
    (x : Vec F S1x256x3136 .f32) (K : PUnit → sProp 𝕄) :
    iprop(owns (c : Thread nD τ) arg1 fullShare x ∗ (∃ d, owns (c : Thread nD τ) arg2 fullShare d)
        ∗ (∃ s, owns (c : Thread nD τ) arg3 fullShare s)
        ∗ (iprop(owns (c : Thread nD τ) arg1 fullShare x
              ∗ owns (c : Thread nD τ) arg2 fullShare (k0_pay2 x (k0_pay1 (F := F)))
              ∗ owns (c : Thread nD τ) arg3 fullShare (k0_pay2 x (k0_pay1 (F := F)))) -∗ K ⟨⟩))
      ⊢ wp frame (wpE (defs₀ (F := F)) Variants.none c none) E (cc0_kernel i arg1 harg1 arg2 harg2 arg3 harg3) K := by
  simp only [cc0_kernel_eq_skeleton]; unfold cc0_kernel_skel
  unfold owns
  iintro ⟨⟨%f1, %hf1, H1⟩, ⟨%d2, %f2, -, H2⟩, ⟨%s3, %f3, -, H3⟩, Hk⟩
  subst hf1
  sl_exec (disch := exact hc)
  sl_step
  iapply Hk
  isplitl [H1]
  · iexists f1; isplitr
    · ipureintro; rfl
    iexact H1
  isplitl [H2]
  · iexists _; isplitr
    swap
    · iexact H2
    ipureintro
    sl_unfold_run_names
    rw [read_store_col, load_store_col, load_store_col, load_blk]
  · iexists _; isplitr
    swap
    · iexact H3
    ipureintro
    sl_unfold_run_names
    rw [read_store_col, load_store_col, load_blk]

set_option maxHeartbeats 1000000 in
/-- At a later point: the scratch at `s` is kept, and the scratch and the output buffer end at the lane sums of relu of
    the block added to `s`. -/
private theorem run0_later (c : Dev nD) (E : Set ℕ) (i : grid0.Coords) (hc : ¬cond0 i)
    (arg1 : Memref sig .tc .vmem S1x256x3136 .f32) (harg1 : arg1.IsWhole)
    (arg2 : Memref sig .tc .vmem S256x1 .f32) (harg2 : arg2.IsWhole)
    (arg3 : Memref sig .tc .vmem S256x1 .f32) (harg3 : arg3.IsWhole)
    (x : Vec F S1x256x3136 .f32) (s : Vec F S256x1 .f32) (K : PUnit → sProp 𝕄) :
    iprop(owns (c : Thread nD τ) arg1 fullShare x ∗ (∃ d, owns (c : Thread nD τ) arg2 fullShare d)
        ∗ owns (c : Thread nD τ) arg3 fullShare s
        ∗ (iprop(owns (c : Thread nD τ) arg1 fullShare x
              ∗ owns (c : Thread nD τ) arg2 fullShare (k0_pay2 x s)
              ∗ owns (c : Thread nD τ) arg3 fullShare (k0_pay2 x s)) -∗ K ⟨⟩))
      ⊢ wp frame (wpE (defs₀ (F := F)) Variants.none c none) E (cc0_kernel i arg1 harg1 arg2 harg2 arg3 harg3) K := by
  simp only [cc0_kernel_eq_skeleton]; unfold cc0_kernel_skel
  unfold owns
  iintro ⟨⟨%f1, %hf1, H1⟩, ⟨%d2, %f2, -, H2⟩, ⟨%f3, %hf3, H3⟩, Hk⟩
  subst hf1; subst hf3
  sl_exec (disch := exact hc)
  sl_step
  iapply Hk
  isplitl [H1]
  · iexists f1; isplitr
    · ipureintro; rfl
    iexact H1
  isplitl [H2]
  · iexists _; isplitr
    swap
    · iexact H2
    ipureintro
    sl_unfold_run_names
    rw [read_store_col, load_store_col, load_blk, load_col]
  · iexists _; isplitr
    swap
    · iexact H3
    ipureintro
    sl_unfold_run_names
    rw [read_store_col, load_blk, load_col]

/-! ## The windows' buffers and the running sum at a point -/

/-- The input window's current buffer holds its block at every point, fetched there or not: the window is uncut and
    never idle, and the body leaves the block as it found it. -/
private theorem before0_0 (c : Dev nD) (t : Fin cfg0.N) (d) : (dat0 V c).before 0 t d = iblk0 V c 0 t :=
  ((dat0 V c).before_in_eq_fetched 0 rfl (fun _ => rfl) (fun _ _ _ => rfl)
      (fun t => by rw [after0_0]; unfold Dat.blockOf iblk0; rw [A_eq0]; try rfl) t d).trans
    (by unfold Dat.fetched Dat.blockOf iblk0; rw [A_eq0]; try rfl)

/-- The running sum at the first point: the lane sums of relu of the block, added to the zero column. -/
private theorem sum0_at_zero (c : Dev nD) (t : Fin cfg0.N) (hz : t.val = 0) :
    sum0 V c t.val t.isLt = k0_pay2 (iblk0 V c 0 t) (k0_pay1 (F := F)) := by
  obtain ⟨n, hn⟩ := t
  dsimp only at hz
  subst hz
  rfl

/-- The running sum at a later point: the lane sums of relu of the block, added to the sum through the point before. -/
private theorem sum0_at_pos (c : Dev nD) (t : Fin cfg0.N) (hz : t.val ≠ 0) :
    sum0 V c t.val t.isLt = k0_pay2 (iblk0 V c 0 t) (sum0 V c (t.val - 1) (by omega)) := by
  obtain ⟨n, hn⟩ := t
  cases n with
  | zero => exact absurd rfl hz
  | succ m => rfl

/-- The invariant at a point's start, restated at the point's number. -/
private theorem Phi0_castSucc (c : Dev nD) (t : Fin cfg0.N) :
    (dat0 V c).Φ t.castSucc = Phi0 V c t.val (Nat.le_of_lt t.isLt) := by
  dsimp only [dat0]; simp only [Fin.coe_castSucc]

/-! ## The body obligation, at a generic point -/

/-- What the body is called with at point `t`, the windows one by one, -/
private def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d)))

/-- and what it returns. -/
private def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t))

set_option maxHeartbeats 2000000 in
/-- The body at any point. The input's buffer holds its block; the output's buffer is overwritten whole, so it may hold
    anything. At the first point the invariant is the class's, which hands over the scratch at some contents, and the
    body zeroes it; at a later point the invariant hands it over at the running sum through the point before. Either way
    the scratch and the output buffer end at the running sum through this point; the other scoped buffers, the generator
    register and what the core owes pass through unread. -/
private theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0]
  rw [show (dat0 V c).owesAt () t.succ = (dat0 V c).owesAt () t.castSucc from rfl]
  rw [show (dat0 V c).Φ t.succ = Phi0 V c (t.val + 1) t.isLt from rfl, Phi0_succ]
  rw [after0_0, after0_1]
  by_cases hz : t.val = 0
  · rw [Phi0_castSucc V c t, Phi0_zero V c _ _ hz, PhiA0_split, sum0_at_zero V c t hz]
    iintro ⟨⟨⟨%s, HS⟩, Hr, Hg⟩, Ho, ⟨%d0, H0⟩, ⟨%d1, H1⟩⟩
    iapply (run0_first c Set.univ (grid0.coords t) ((hcond0 t).mpr hz) _ _ _ _ _ _ (iblk0 V c 0 t) _)
    isplitl [H0]
    · iexact H0
    isplitl [H1]
    · iexists _; iexact H1
    isplitl [HS]
    · iexists _; iexact HS
    iintro ⟨H0, H1, HS⟩
    isplitl [HS Hr Hg]
    · isplitl [HS]
      · iexact HS
      isplitl [Hr]
      · iexact Hr
      iexact Hg
    isplitl [Ho]
    · iexact Ho
    isplitl [H0]
    · iexact H0
    iexact H1
  · rw [Phi0_castSucc V c t, Phi0_pos V c _ _ hz, sum0_at_pos V c t hz]
    iintro ⟨⟨HS, Hr, Hg⟩, Ho, ⟨%d0, H0⟩, ⟨%d1, H1⟩⟩
    iapply (run0_later c Set.univ (grid0.coords t) (fun h => hz ((hcond0 t).mp h)) _ _ _ _ _ _ (iblk0 V c 0 t) _ _)
    isplitl [H0]
    · iexact H0
    isplitl [H1]
    · iexists _; iexact H1
    isplitl [HS]
    · iexact HS
    iintro ⟨H0, H1, HS⟩
    isplitl [HS Hr Hg]
    · isplitl [HS]
      · iexact HS
      isplitl [Hr]
      · iexact Hr
      iexact Hg
    isplitl [Ho]
    · iexact Ho
    isplitl [H0]
    · iexact H0
    iexact H1

/-- The body obligation at every point. -/
theorem body_obligation0 (c : Dev nD) : BodyObligation (dat0 (F := F) V c) (defs₀ (F := F)) Variants.none () Set.univ := by
  intro t
  rw [bigSep_W0, bigSep_W0]
  exact sound_body0 V c t

/-- What the launch hands the region is the invariant before the first point. -/
theorem hin0 (c : Dev nD) : Pipeline.ΦA spec0 c ⊢ (dat0 V c).Φ 0 := by
  rw [show (dat0 V c).Φ 0 = Phi0 V c 0 (Nat.zero_le _) from rfl, Phi0_zero V c 0 _ rfl]

/-- After the last point the invariant gives the class's back: the scratch's contents are forgotten. -/
theorem hout0 (c : Dev nD) : (dat0 V c).Φ (Fin.last cfg0.N) ⊢ Pipeline.ΦA spec0 c := by
  exact Phi0_out V c _ (by rw [Fin.val_last]; have : cfg0.N = 32 := N_0; omega)

end Cert.KernelIdeal.Hand

end
-- ==== Proof.KI.Reg1.lean ====
/-
  Region 1: the per-channel minimum and maximum of the clamped projection, carried over the 32 batch blocks in
  two VMEM scratch columns (set to +inf and -inf at point 0). At grid point b the body folds block b's lane
  minimum / maximum into them and copies each into its output window, written back after the last point.
-/
import proofs.«103972_j30554397343924_1_alg».proof.Proof.Gen.KernelIdeal.Launch
import proofs.«103972_j30554397343924_1_alg».proof.Proof.Gen.KernelIdeal.Skeleton
import proofs.«103972_j30554397343924_1_alg».proof.Proof.Gen.KernelIdeal.Points
import Idealize.ShloMosaic.Lib.Pipeline.FrameBody
import Idealize.ShloMosaic.Lib.Pipeline.Value
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The two scratch columns as memrefs: the running minimum and the running maximum. -/
abbrev scMin1 : Memref sig .tc .vmem S256x1 .f32 := Memref.whole cc1_scratch0
abbrev scMax1 : Memref sig .tc .vmem S256x1 .f32 := Memref.whole cc1_scratch1

/-- The running minimum after point `n`, from +inf. -/
def min1 (c : Dev nD) : (n : ℕ) → n < cfg1.N → FVec F S256x1 .f32
  | 0, h => k1_pay5 (iblk1 V c 0 ⟨0, h⟩) (iblk1 V c 1 ⟨0, h⟩) (iblk1 V c 2 ⟨0, h⟩) (iblk1 V c 3 ⟨0, h⟩) (k1_pay2 (F := F))
  | n + 1, h => k1_pay5 (iblk1 V c 0 ⟨n + 1, h⟩) (iblk1 V c 1 ⟨n + 1, h⟩) (iblk1 V c 2 ⟨n + 1, h⟩) (iblk1 V c 3 ⟨n + 1, h⟩) (min1 c n (Nat.lt_of_succ_lt h))

/-- The running maximum after point `n`, from -inf. -/
def max1 (c : Dev nD) : (n : ℕ) → n < cfg1.N → FVec F S256x1 .f32
  | 0, h => k1_pay1 (k1_pay6 (iblk1 V c 0 ⟨0, h⟩) (iblk1 V c 1 ⟨0, h⟩) (iblk1 V c 2 ⟨0, h⟩) (iblk1 V c 3 ⟨0, h⟩) (k1_pay3 (F := F)))
  | n + 1, h => k1_pay1 (k1_pay6 (iblk1 V c 0 ⟨n + 1, h⟩) (iblk1 V c 1 ⟨n + 1, h⟩) (iblk1 V c 2 ⟨n + 1, h⟩) (iblk1 V c 3 ⟨n + 1, h⟩) (max1 c n (Nat.lt_of_succ_lt h)))

theorem min1_zero (c : Dev nD) (h : 0 < cfg1.N) : min1 V c 0 h = k1_pay5 (iblk1 V c 0 ⟨0, h⟩) (iblk1 V c 1 ⟨0, h⟩) (iblk1 V c 2 ⟨0, h⟩) (iblk1 V c 3 ⟨0, h⟩) (k1_pay2 (F := F)) := rfl
theorem min1_succ (c : Dev nD) (n : ℕ) (h : n + 1 < cfg1.N) :
    min1 V c (n + 1) h = k1_pay5 (iblk1 V c 0 ⟨n + 1, h⟩) (iblk1 V c 1 ⟨n + 1, h⟩) (iblk1 V c 2 ⟨n + 1, h⟩) (iblk1 V c 3 ⟨n + 1, h⟩) (min1 V c n (Nat.lt_of_succ_lt h)) := rfl
theorem max1_zero (c : Dev nD) (h : 0 < cfg1.N) : max1 V c 0 h = k1_pay1 (k1_pay6 (iblk1 V c 0 ⟨0, h⟩) (iblk1 V c 1 ⟨0, h⟩) (iblk1 V c 2 ⟨0, h⟩) (iblk1 V c 3 ⟨0, h⟩) (k1_pay3 (F := F))) := rfl
theorem max1_succ (c : Dev nD) (n : ℕ) (h : n + 1 < cfg1.N) :
    max1 V c (n + 1) h = k1_pay1 (k1_pay6 (iblk1 V c 0 ⟨n + 1, h⟩) (iblk1 V c 1 ⟨n + 1, h⟩) (iblk1 V c 2 ⟨n + 1, h⟩) (iblk1 V c 3 ⟨n + 1, h⟩) (max1 V c n (Nat.lt_of_succ_lt h))) := rfl

/-- The scoped buffers that are neither a staging buffer of this call nor one of its two scratch columns. -/
abbrev rest1 (c : Dev nD) : sProp 𝕄 :=
  Pipeline.scopedRestBut (Ix := Unit) (Name := ℕ) (U := UR sig nD τ) (Lvl := ℕ) (Val := Elt F) spec1 c [cc1_scratch0, cc1_scratch1]

/-- The invariant between points: before the first point the class's; afterwards the two scratch columns at the running extrema. -/
def Phi1 (c : Dev nD) : (n : ℕ) → n ≤ cfg1.N → sProp 𝕄
  | 0, _ => Pipeline.ΦA spec1 c
  | n + 1, h => iprop(owns (c : Thread nD τ) scMin1 fullShare (min1 V c n h) ∗ owns (c : Thread nD τ) scMax1 fullShare (max1 V c n h)
      ∗ rest1 (F := F) c ∗ (∃ r, prngReg c r))

/-- The proof data of pipeline 1. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => min1 V c t.val t.isLt
    | ⟨5, _⟩ => max1 V c t.val t.isLt
  Φ t := Phi1 V c t.val (Nat.le_of_lt_succ t.isLt)
  q _ := fullShare
  owed _ := 0

theorem A_eq1 (c : Dev nD) (w : Fin cfg1.W) : (dat1 V c).A w = V c (Pipeline.arrRef spec1 w) := by
  dsimp only [dat1]
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = min1 V c t.val t.isLt := by dsimp only [dat1]
theorem after1_5 (c : Dev nD) (t : Fin cfg1.N) : (dat1 V c).after 5 t = max1 V c t.val t.isLt := by dsimp only [dat1]

/-! ## The invariant, opened at the two scratch columns -/

/-- The class invariant with the two scratch columns taken out of the scoped rest, each owned at some contents. -/
theorem PhiA1_split (c : Dev nD) :
    (Pipeline.ΦA spec1 c : sProp 𝕄)
      = iprop((((∃ d, owns (c : Thread nD τ) scMin1 fullShare d) ∗ (∃ d, owns (c : Thread nD τ) scMax1 fullShare d)) ∗ rest1 (F := F) c) ∗ (∃ r, prngReg c r)) := by
  unfold Pipeline.ΦA
  rw [Pipeline.scopedRest_split_of_list spec1 c [cc1_scratch0, cc1_scratch1] (by decide) (by decide)]
  simp only [bigSepL_cons_cons, bigSepL_singleton, scMin1, scMax1, owns_whole]
  rfl

theorem Phi1_zero (c : Dev nD) (n : ℕ) (h : n ≤ cfg1.N) (hz : n = 0) : Phi1 V c n h = Pipeline.ΦA spec1 c := by
  subst hz; rfl

/-- After point `n`: the two scratch columns at that point's running extrema. -/
theorem Phi1_succ (c : Dev nD) (n : ℕ) (h : n + 1 ≤ cfg1.N) :
    Phi1 V c (n + 1) h = iprop(owns (c : Thread nD τ) scMin1 fullShare (min1 V c n h) ∗ owns (c : Thread nD τ) scMax1 fullShare (max1 V c n h)
      ∗ rest1 (F := F) c ∗ (∃ r, prngReg c r)) := rfl

/-- Before a point that is not the first: the scratch columns at what the point before left. -/
theorem Phi1_pos (c : Dev nD) (n : ℕ) (h : n ≤ cfg1.N) (hz : n ≠ 0) :
    Phi1 V c n h = iprop(owns (c : Thread nD τ) scMin1 fullShare (min1 V c (n - 1) (by omega)) ∗ owns (c : Thread nD τ) scMax1 fullShare (max1 V c (n - 1) (by omega))
      ∗ rest1 (F := F) c ∗ (∃ r, prngReg c r)) := by
  cases n with
  | zero => exact absurd rfl hz
  | succ n => rfl

/-- The invariant at a point's start, restated at the point's position. -/
theorem Phi1_castSucc (c : Dev nD) (t : Fin cfg1.N) :
    (dat1 V c).Φ t.castSucc = Phi1 V c t.val (Nat.le_of_lt t.isLt) := by
  dsimp only [dat1]; simp only [Fin.coe_castSucc]

/-! ## The branch on the grid coordinate -/

/-- The condition of the body's one branch: the grid coordinate is 0 (the printed scalar chain, substituted). -/
abbrev cond1 (i : grid1.Coords) : Prop :=
  (Scalar.cmpi .ne (Scalar.extui (Scalar.cmpi .eq (BitVec.ofNat 32 (i 0).val) 0#32)) 0#32) = 1#1

/-- It holds at the first point only: decided over the 32 points. -/
theorem hcond1 : ∀ t : Fin cfg1.N, cond1 (grid1.coords t) ↔ t.val = 0 :=
  (by decide +kernel : ∀ t : Fin grid1.N, cond1 (grid1.coords t) ↔ t.val = 0)

/-! ## The body on whole memrefs -/

/-- The zero offsets of the whole-buffer rectangles, however spelt. -/
private theorem hz2 : (![0, 0] : Fin 2 → ℕ) = fun _ => 0 := by funext a; fin_cases a <;> rfl
private theorem hz3 : (![0, 0, 0] : Fin 3 → ℕ) = fun _ => 0 := by funext a; fin_cases a <;> rfl

/-- A whole-buffer store, last, leaves its payload in the buffer whatever was stored before it. -/
private theorem read_writes_cons_unit {κ : Kind} {sp : Space} {S : Shape} {e : EltTy} {v : View sig κ sp S e} {off : Fin S.rank → ℕ}
    (h : off = fun _ => 0) (inb : ∀ a, off a + S.size a ≤ S.size a) (f : v.ty.Contents (Elt F)) (w : S.Idx → Elt F e)
    (L : List (View.Piece (Elt F) S e)) :
    v.read (Elt F) (v.writes (Elt F) f ((⟨Rect.unit off S.size inb, w⟩ : View.Piece (Elt F) S e) :: L)) = w :=
  (View.read_writes_eq_canon v f _ (fun y => ⟨_, List.mem_cons_self, View.mem_set_unit_zero h inb y⟩)).trans
    (View.canon_cons_unit_zero h inb w L)

/-- A whole-buffer load after a whole-buffer store reads that store's payload. -/
private theorem readCov_cons_unit {κ : Kind} {sp : Space} {S : Shape} {e : EltTy} {v : View sig κ sp S e} {off : Fin S.rank → ℕ}
    (h : off = fun _ => 0) (inb : ∀ a, off a + S.size a ≤ S.size a) (w : S.Idx → Elt F e) (L : List (View.Piece (Elt F) S e)) :
    v.readCov ((⟨Rect.unit off S.size inb, w⟩ : View.Piece (Elt F) S e) :: L) (Rect.unit off S.size inb).toLoadRect = w := by
  rw [View.readCov_eq_canon_ld _ _ _ (fun y => ⟨_, List.mem_cons_self, View.mem_set_unit_zero h inb y⟩),
    View.canon_cons_unit_zero h inb, View.ld_unit_zero h inb]

set_option maxHeartbeats 1000000 in
/-- The first point: the scratch columns may hold anything; they are reset to +inf and -inf and block 0 is folded in. -/
theorem body1_first (c : Dev nD) (E : Set ℕ) (i : grid1.Coords) (hc : cond1 i)
    (arg1 : Memref sig .tc .vmem S1x256x3136 .f32) (harg1 : arg1.IsWhole) (arg2 : Memref sig .tc .vmem S256x256 .f32) (harg2 : arg2.IsWhole)
    (arg3 : Memref sig .tc .vmem S256x1 .f32) (harg3 : arg3.IsWhole) (arg4 : Memref sig .tc .vmem S256x1 .f32) (harg4 : arg4.IsWhole)
    (arg5 : Memref sig .tc .vmem S256x1 .f32) (harg5 : arg5.IsWhole) (arg6 : Memref sig .tc .vmem S256x1 .f32) (harg6 : arg6.IsWhole)
    (arg7 : Memref sig .tc .vmem S256x1 .f32) (harg7 : arg7.IsWhole) (arg8 : Memref sig .tc .vmem S256x1 .f32) (harg8 : arg8.IsWhole)
    (x0 : Vec F S1x256x3136 .f32) (x1 : Vec F S256x256 .f32) (x2 : Vec F S256x1 .f32) (x3 : Vec F S256x1 .f32)
    (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3
        ∗ (∃ d, owns (c : Thread nD τ) arg5 fullShare d) ∗ (∃ d, owns (c : Thread nD τ) arg6 fullShare d)
        ∗ (∃ d, owns (c : Thread nD τ) arg7 fullShare d) ∗ (∃ d, owns (c : Thread nD τ) arg8 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3
            ∗ owns (c : Thread nD τ) arg5 fullShare (k1_pay5 x0 x1 x2 x3 (k1_pay2 (F := F)))
            ∗ owns (c : Thread nD τ) arg6 fullShare (k1_pay1 (k1_pay6 x0 x1 x2 x3 (k1_pay3 (F := F))))
            ∗ owns (c : Thread nD τ) arg7 fullShare (k1_pay5 x0 x1 x2 x3 (k1_pay2 (F := F)))
            ∗ owns (c : Thread nD τ) arg8 fullShare (k1_pay1 (k1_pay6 x0 x1 x2 x3 (k1_pay3 (F := F))))) -∗ K ⟨⟩))
      ⊢ wp frame (wpE (defs₀ (F := F)) Variants.none c none) E
          (cc1_kernel i arg1 harg1 arg2 harg2 arg3 harg3 arg4 harg4 arg5 harg5 arg6 harg6 arg7 harg7 arg8 harg8) K := by
  simp only [cc1_kernel_eq_skeleton]; unfold cc1_kernel_skel
  simp only [k1_part1_eq_skeleton]
  unfold owns
  iintro ⟨⟨%f0, %hf0, H0⟩, ⟨%f1, %hf1, H1⟩, ⟨%f2, %hf2, H2⟩, ⟨%f3, %hf3, H3⟩, ⟨%d4, %f4, -, H4⟩, ⟨%d5, %f5, -, H5⟩, ⟨%d6, %f6, -, H6⟩, ⟨%d7, %f7, -, H7⟩, Hk⟩
  obtain rfl := harg1.eq_unread hf0; obtain rfl := harg2.eq_unread hf1; obtain rfl := harg3.eq_unread hf2; obtain rfl := harg4.eq_unread hf3
  sl_exec (disch := exact hc)
  sl_step
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr; · ipureintro; exact harg3.read_unread _
    iexact H2
  isplitl [H3]
  · iexists _; isplitr; · ipureintro; exact harg4.read_unread _
    iexact H3
  isplitl [H4]
  · iexists _; isplitr
    swap; · iexact H4
    ipureintro
    sl_unfold_run_names
    simp only [View.readAt_eq_ld, harg1.read_unread, harg2.read_unread, harg3.read_unread, harg4.read_unread,
      View.ld_unit_zero (S := S1x256x3136) hz3, View.ld_unit_zero (S := S256x256) hz2, View.ld_unit_zero (S := S256x1) hz2,
      read_writes_cons_unit (S := S256x1) hz2, readCov_cons_unit (S := S256x1) hz2]
  isplitl [H5]
  · iexists _; isplitr
    swap; · iexact H5
    ipureintro
    sl_unfold_run_names
    simp only [View.readAt_eq_ld, harg1.read_unread, harg2.read_unread, harg3.read_unread, harg4.read_unread,
      View.ld_unit_zero (S := S1x256x3136) hz3, View.ld_unit_zero (S := S256x256) hz2, View.ld_unit_zero (S := S256x1) hz2,
      read_writes_cons_unit (S := S256x1) hz2, readCov_cons_unit (S := S256x1) hz2]
  isplitl [H6]
  · iexists _; isplitr
    swap; · iexact H6
    ipureintro
    sl_unfold_run_names
    simp only [View.readAt_eq_ld, harg1.read_unread, harg2.read_unread, harg3.read_unread, harg4.read_unread,
      View.ld_unit_zero (S := S1x256x3136) hz3, View.ld_unit_zero (S := S256x256) hz2, View.ld_unit_zero (S := S256x1) hz2,
      read_writes_cons_unit (S := S256x1) hz2, readCov_cons_unit (S := S256x1) hz2]
  · iexists _; isplitr
    swap; · iexact H7
    ipureintro
    sl_unfold_run_names
    simp only [View.readAt_eq_ld, harg1.read_unread, harg2.read_unread, harg3.read_unread, harg4.read_unread,
      View.ld_unit_zero (S := S1x256x3136) hz3, View.ld_unit_zero (S := S256x256) hz2, View.ld_unit_zero (S := S256x1) hz2,
      read_writes_cons_unit (S := S256x1) hz2, readCov_cons_unit (S := S256x1) hz2]

set_option maxHeartbeats 1000000 in
/-- A later point: the scratch columns hold the running extrema `m0`, `M0` the point before left; the block is folded into them. -/
theorem body1_next (c : Dev nD) (E : Set ℕ) (i : grid1.Coords) (hc : ¬cond1 i)
    (arg1 : Memref sig .tc .vmem S1x256x3136 .f32) (harg1 : arg1.IsWhole) (arg2 : Memref sig .tc .vmem S256x256 .f32) (harg2 : arg2.IsWhole)
    (arg3 : Memref sig .tc .vmem S256x1 .f32) (harg3 : arg3.IsWhole) (arg4 : Memref sig .tc .vmem S256x1 .f32) (harg4 : arg4.IsWhole)
    (arg5 : Memref sig .tc .vmem S256x1 .f32) (harg5 : arg5.IsWhole) (arg6 : Memref sig .tc .vmem S256x1 .f32) (harg6 : arg6.IsWhole)
    (arg7 : Memref sig .tc .vmem S256x1 .f32) (harg7 : arg7.IsWhole) (arg8 : Memref sig .tc .vmem S256x1 .f32) (harg8 : arg8.IsWhole)
    (x0 : Vec F S1x256x3136 .f32) (x1 : Vec F S256x256 .f32) (x2 : Vec F S256x1 .f32) (x3 : Vec F S256x1 .f32)
    (m0 : Vec F S256x1 .f32) (M0 : Vec F S256x1 .f32)
    (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3
        ∗ (∃ d, owns (c : Thread nD τ) arg5 fullShare d) ∗ (∃ d, owns (c : Thread nD τ) arg6 fullShare d)
        ∗ owns (c : Thread nD τ) arg7 fullShare m0 ∗ owns (c : Thread nD τ) arg8 fullShare M0
        ∗ (iprop(owns (c : Thread nD τ) arg1 fullShare x0 ∗ owns (c : Thread nD τ) arg2 fullShare x1 ∗ owns (c : Thread nD τ) arg3 fullShare x2 ∗ owns (c : Thread nD τ) arg4 fullShare x3
            ∗ owns (c : Thread nD τ) arg5 fullShare (k1_pay5 x0 x1 x2 x3 m0)
            ∗ owns (c : Thread nD τ) arg6 fullShare (k1_pay1 (k1_pay6 x0 x1 x2 x3 M0))
            ∗ owns (c : Thread nD τ) arg7 fullShare (k1_pay5 x0 x1 x2 x3 m0)
            ∗ owns (c : Thread nD τ) arg8 fullShare (k1_pay1 (k1_pay6 x0 x1 x2 x3 M0))) -∗ K ⟨⟩))
      ⊢ wp frame (wpE (defs₀ (F := F)) Variants.none c none) E
          (cc1_kernel i arg1 harg1 arg2 harg2 arg3 harg3 arg4 harg4 arg5 harg5 arg6 harg6 arg7 harg7 arg8 harg8) K := by
  simp only [cc1_kernel_eq_skeleton]; unfold cc1_kernel_skel
  simp only [k1_part1_eq_skeleton]
  unfold owns
  iintro ⟨⟨%f0, %hf0, H0⟩, ⟨%f1, %hf1, H1⟩, ⟨%f2, %hf2, H2⟩, ⟨%f3, %hf3, H3⟩, ⟨%d4, %f4, -, H4⟩, ⟨%d5, %f5, -, H5⟩, ⟨%f6, %hf6, H6⟩, ⟨%f7, %hf7, H7⟩, Hk⟩
  obtain rfl := harg1.eq_unread hf0; obtain rfl := harg2.eq_unread hf1; obtain rfl := harg3.eq_unread hf2; obtain rfl := harg4.eq_unread hf3
  obtain rfl := harg7.eq_unread hf6; obtain rfl := harg8.eq_unread hf7
  sl_exec (disch := exact hc)
  sl_step
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr; · ipureintro; exact harg3.read_unread _
    iexact H2
  isplitl [H3]
  · iexists _; isplitr; · ipureintro; exact harg4.read_unread _
    iexact H3
  isplitl [H4]
  · iexists _; isplitr
    swap; · iexact H4
    ipureintro
    sl_unfold_run_names
    simp only [View.readAt_eq_ld, harg1.read_unread, harg2.read_unread, harg3.read_unread, harg4.read_unread,
      harg7.read_unread, harg8.read_unread,
      View.ld_unit_zero (S := S1x256x3136) hz3, View.ld_unit_zero (S := S256x256) hz2, View.ld_unit_zero (S := S256x1) hz2,
      read_writes_cons_unit (S := S256x1) hz2, readCov_cons_unit (S := S256x1) hz2]
  isplitl [H5]
  · iexists _; isplitr
    swap; · iexact H5
    ipureintro
    sl_unfold_run_names
    simp only [View.readAt_eq_ld, harg1.read_unread, harg2.read_unread, harg3.read_unread, harg4.read_unread,
      harg7.read_unread, harg8.read_unread,
      View.ld_unit_zero (S := S1x256x3136) hz3, View.ld_unit_zero (S := S256x256) hz2, View.ld_unit_zero (S := S256x1) hz2,
      read_writes_cons_unit (S := S256x1) hz2, readCov_cons_unit (S := S256x1) hz2]
  isplitl [H6]
  · iexists _; isplitr
    swap; · iexact H6
    ipureintro
    sl_unfold_run_names
    simp only [View.readAt_eq_ld, harg1.read_unread, harg2.read_unread, harg3.read_unread, harg4.read_unread,
      harg7.read_unread, harg8.read_unread,
      View.ld_unit_zero (S := S1x256x3136) hz3, View.ld_unit_zero (S := S256x256) hz2, View.ld_unit_zero (S := S256x1) hz2,
      read_writes_cons_unit (S := S256x1) hz2, readCov_cons_unit (S := S256x1) hz2]
  · iexists _; isplitr
    swap; · iexact H7
    ipureintro
    sl_unfold_run_names
    simp only [View.readAt_eq_ld, harg1.read_unread, harg2.read_unread, harg3.read_unread, harg4.read_unread,
      harg7.read_unread, harg8.read_unread,
      View.ld_unit_zero (S := S1x256x3136) hz3, View.ld_unit_zero (S := S256x256) hz2, View.ld_unit_zero (S := S256x1) hz2,
      read_writes_cons_unit (S := S256x1) hz2, readCov_cons_unit (S := S256x1) hz2]

/-! ## The running extrema at a point, by the point's place -/

theorem min1_first (c : Dev nD) (t : Fin cfg1.N) (hz : t.val = 0) :
    min1 V c t.val t.isLt = k1_pay5 (iblk1 V c 0 t) (iblk1 V c 1 t) (iblk1 V c 2 t) (iblk1 V c 3 t) (k1_pay2 (F := F)) := by
  obtain ⟨n, hn⟩ := t
  cases n with
  | zero => rfl
  | succ n => exact absurd hz (Nat.succ_ne_zero n)

theorem max1_first (c : Dev nD) (t : Fin cfg1.N) (hz : t.val = 0) :
    max1 V c t.val t.isLt = k1_pay1 (k1_pay6 (iblk1 V c 0 t) (iblk1 V c 1 t) (iblk1 V c 2 t) (iblk1 V c 3 t) (k1_pay3 (F := F))) := by
  obtain ⟨n, hn⟩ := t
  cases n with
  | zero => rfl
  | succ n => exact absurd hz (Nat.succ_ne_zero n)

theorem min1_next (c : Dev nD) (t : Fin cfg1.N) (hz : t.val ≠ 0) :
    min1 V c t.val t.isLt = k1_pay5 (iblk1 V c 0 t) (iblk1 V c 1 t) (iblk1 V c 2 t) (iblk1 V c 3 t)
      (min1 V c (t.val - 1) (Nat.lt_of_le_of_lt (Nat.sub_le _ _) t.isLt)) := by
  obtain ⟨n, hn⟩ := t
  cases n with
  | zero => exact absurd rfl hz
  | succ n => rfl

theorem max1_next (c : Dev nD) (t : Fin cfg1.N) (hz : t.val ≠ 0) :
    max1 V c t.val t.isLt = k1_pay1 (k1_pay6 (iblk1 V c 0 t) (iblk1 V c 1 t) (iblk1 V c 2 t) (iblk1 V c 3 t)
      (max1 V c (t.val - 1) (Nat.lt_of_le_of_lt (Nat.sub_le _ _) t.isLt))) := by
  obtain ⟨n, hn⟩ := t
  cases n with
  | zero => exact absurd rfl hz
  | succ n => rfl

/-! ## The inputs' staging buffers hold their blocks at every point -/

theorem before1_0 (c : Dev nD) (t : Fin cfg1.N) (d) : (dat1 V c).before 0 t d = iblk1 V c 0 t :=
  ((dat1 V c).before_in_eq_fetched 0 rfl (fun _ => rfl) (fun _ _ _ => rfl)
      (fun t => by rw [after1_0]; unfold Dat.blockOf iblk1; rw [A_eq1]; try rfl) t d).trans
    (by unfold Dat.fetched Dat.blockOf iblk1; rw [A_eq1]; try rfl)

theorem before1_1 (c : Dev nD) (t : Fin cfg1.N) (d) : (dat1 V c).before 1 t d = iblk1 V c 1 t :=
  ((dat1 V c).before_in_eq_fetched 1 rfl (fun _ => rfl) (fun _ _ _ => rfl)
      (fun t => by rw [after1_1]; unfold Dat.blockOf iblk1; rw [A_eq1]; try rfl) t d).trans
    (by unfold Dat.fetched Dat.blockOf iblk1; rw [A_eq1]; try rfl)

theorem before1_2 (c : Dev nD) (t : Fin cfg1.N) (d) : (dat1 V c).before 2 t d = iblk1 V c 2 t :=
  ((dat1 V c).before_in_eq_fetched 2 rfl (fun _ => rfl) (fun _ _ _ => rfl)
      (fun t => by rw [after1_2]; unfold Dat.blockOf iblk1; rw [A_eq1]; try rfl) t d).trans
    (by unfold Dat.fetched Dat.blockOf iblk1; rw [A_eq1]; try rfl)

theorem before1_3 (c : Dev nD) (t : Fin cfg1.N) (d) : (dat1 V c).before 3 t d = iblk1 V c 3 t :=
  ((dat1 V c).before_in_eq_fetched 3 rfl (fun _ => rfl) (fun _ _ _ => rfl)
      (fun t => by rw [after1_3]; unfold Dat.blockOf iblk1; rw [A_eq1]; try rfl) t d).trans
    (by unfold Dat.fetched Dat.blockOf iblk1; rw [A_eq1]; try rfl)

/-! ## The body at a point of the grid -/

set_option maxHeartbeats 4000000 in
/-- The body at any point: the four inputs' staging buffers hold their blocks; the two outputs' hold anything and are
    overwritten whole; at the first point the invariant hands over the scratch columns at anything, at a later point
    at the running extrema the point before left; either way it takes them back at this point's. -/
theorem sound_body1 (c : Dev nD) (t : Fin cfg1.N) :
    iprop((dat1 V c).Φ t.castSucc ∗ (dat1 V c).owesAt () t.castSucc
      ∗ (∃ d, owns (c : Thread nD τ) (st1_0 t) fullShare ((dat1 V c).before 0 t d))
      ∗ (∃ d, owns (c : Thread nD τ) (st1_1 t) fullShare ((dat1 V c).before 1 t d))
      ∗ (∃ d, owns (c : Thread nD τ) (st1_2 t) fullShare ((dat1 V c).before 2 t d))
      ∗ (∃ d, owns (c : Thread nD τ) (st1_3 t) fullShare ((dat1 V c).before 3 t d))
      ∗ (∃ d, owns (c : Thread nD τ) (st1_4 t) fullShare ((dat1 V c).before 4 t d))
      ∗ (∃ d, owns (c : Thread nD τ) (st1_5 t) fullShare ((dat1 V c).before 5 t d)))
    ⊢ wp frame (wpE (defs₀ (F := F)) Variants.none c none) Set.univ (bodyAt1 t) (fun _ =>
      iprop((dat1 V c).Φ t.succ ∗ (dat1 V c).owesAt () t.succ
        ∗ owns (c : Thread nD τ) (st1_0 t) fullShare ((dat1 V c).after 0 t)
        ∗ owns (c : Thread nD τ) (st1_1 t) fullShare ((dat1 V c).after 1 t)
        ∗ owns (c : Thread nD τ) (st1_2 t) fullShare ((dat1 V c).after 2 t)
        ∗ owns (c : Thread nD τ) (st1_3 t) fullShare ((dat1 V c).after 3 t)
        ∗ owns (c : Thread nD τ) (st1_4 t) fullShare ((dat1 V c).after 4 t)
        ∗ owns (c : Thread nD τ) (st1_5 t) fullShare ((dat1 V c).after 5 t))) := by
  simp only [before1_0, before1_1, before1_2, before1_3]
  rw [show (dat1 V c).owesAt () t.succ = (dat1 V c).owesAt () t.castSucc from rfl,
    show (dat1 V c).Φ t.succ = Phi1 V c (t.val + 1) t.isLt from rfl, Phi1_succ,
    after1_0, after1_1, after1_2, after1_3, after1_4, after1_5, Phi1_castSucc]
  by_cases hz : t.val = 0
  · rw [Phi1_zero V c _ _ hz, PhiA1_split, min1_first V c t hz, max1_first V c t hz]
    iintro ⟨⟨⟨⟨Hm, HM⟩, Hr⟩, Hg⟩, Ho, ⟨%d0, H0⟩, ⟨%d1, H1⟩, ⟨%d2, H2⟩, ⟨%d3, H3⟩, ⟨%d4, H4⟩, ⟨%d5, H5⟩⟩
    iapply (body1_first c Set.univ (grid1.coords t) ((hcond1 t).mpr hz) _ _ _ _ _ _ _ _ _ _ _ _ _ _ _ _
      (iblk1 V c 0 t) (iblk1 V c 1 t) (iblk1 V c 2 t) (iblk1 V c 3 t) _)
    isplitl [H0]; · iexact H0
    isplitl [H1]; · iexact H1
    isplitl [H2]; · iexact H2
    isplitl [H3]; · iexact H3
    isplitl [H4]; · iexists _; iexact H4
    isplitl [H5]; · iexists _; iexact H5
    isplitl [Hm]; · iexact Hm
    isplitl [HM]; · iexact HM
    iintro ⟨H0, H1, H2, H3, H4, H5, Hm, HM⟩
    isplitl [Hm HM Hr Hg]
    · isplitl [Hm]; · iexact Hm
      isplitl [HM]; · iexact HM
      isplitl [Hr]; · iexact Hr
      iexact Hg
    isplitl [Ho]; · iexact Ho
    isplitl [H0]; · iexact H0
    isplitl [H1]; · iexact H1
    isplitl [H2]; · iexact H2
    isplitl [H3]; · iexact H3
    isplitl [H4]; · iexact H4
    iexact H5
  · rw [Phi1_pos V c _ _ hz, min1_next V c t hz, max1_next V c t hz]
    iintro ⟨⟨Hm, HM, Hr, Hg⟩, Ho, ⟨%d0, H0⟩, ⟨%d1, H1⟩, ⟨%d2, H2⟩, ⟨%d3, H3⟩, ⟨%d4, H4⟩, ⟨%d5, H5⟩⟩
    iapply (body1_next c Set.univ (grid1.coords t) (fun h => hz ((hcond1 t).mp h)) _ _ _ _ _ _ _ _ _ _ _ _ _ _ _ _
      (iblk1 V c 0 t) (iblk1 V c 1 t) (iblk1 V c 2 t) (iblk1 V c 3 t)
      (min1 V c (t.val - 1) (Nat.lt_of_le_of_lt (Nat.sub_le _ _) t.isLt))
      (max1 V c (t.val - 1) (Nat.lt_of_le_of_lt (Nat.sub_le _ _) t.isLt)) _)
    isplitl [H0]; · iexact H0
    isplitl [H1]; · iexact H1
    isplitl [H2]; · iexact H2
    isplitl [H3]; · iexact H3
    isplitl [H4]; · iexists _; iexact H4
    isplitl [H5]; · iexists _; iexact H5
    isplitl [Hm]; · iexact Hm
    isplitl [HM]; · iexact HM
    iintro ⟨H0, H1, H2, H3, H4, H5, Hm, HM⟩
    isplitl [Hm HM Hr Hg]
    · isplitl [Hm]; · iexact Hm
      isplitl [HM]; · iexact HM
      isplitl [Hr]; · iexact Hr
      iexact Hg
    isplitl [Ho]; · iexact Ho
    isplitl [H0]; · iexact H0
    isplitl [H1]; · iexact H1
    isplitl [H2]; · iexact H2
    isplitl [H3]; · iexact H3
    isplitl [H4]; · iexact H4
    iexact H5

/-- The body obligation at every point. -/
theorem body_obligation1 (c : Dev nD) : BodyObligation (dat1 (F := F) V c) (defs₀ (F := F)) Variants.none () Set.univ := by
  intro t
  rw [bigSep_W1, bigSep_W1]
  exact sound_body1 V c t

/-- What the launch hands the region is the invariant before the first point. -/
theorem hin1 (c : Dev nD) : Pipeline.ΦA spec1 c ⊢ (dat1 V c).Φ 0 := by
  rw [show (dat1 V c).Φ 0 = Phi1 V c 0 (Nat.zero_le _) from rfl, Phi1_zero V c 0 _ rfl]
  try exact Idealize.SL.BI.Entails.refl _

/-- After the last point the invariant gives the class's back: the scratch contents are forgotten. -/
theorem hout1 (c : Dev nD) : (dat1 V c).Φ (Fin.last cfg1.N) ⊢ Pipeline.ΦA spec1 c := by
  have hN : cfg1.N = 32 := N_1
  rw [show (dat1 V c).Φ (Fin.last cfg1.N) = Phi1 V c (Fin.last cfg1.N).val (Nat.le_of_lt_succ (Fin.last cfg1.N).isLt) from rfl,
    Phi1_pos V c _ _ (by rw [Fin.val_last]; omega), PhiA1_split]
  iintro ⟨Hm, HM, Hr, Hg⟩
  isplitr [Hg]
  · isplitr [Hr]
    · isplitl [Hm]
      · iexists _; iexact Hm
      · iexists _; iexact HM
    · iexact Hr
  · iexact Hg

end Cert.KernelIdeal.Hand

end
-- ==== Proof.KI.Reg2.lean ====
/-
  Region 2: the reconstruction. At grid point b the body recomputes block b's clamped projection, quantizes it
  with the finished per-channel minimum and scale, unprojects with u and adds the mean back; the result is the
  output window's block b, written back at every point. Nothing is carried between points.
-/
import proofs.«103972_j30554397343924_1_alg».proof.Proof.Gen.KernelIdeal.Launch
import proofs.«103972_j30554397343924_1_alg».proof.Proof.Gen.KernelIdeal.Skeleton
import proofs.«103972_j30554397343924_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-- Window `w`'s block at point `t`, read off its array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- What the body stores into the output block, from the eight input blocks (x, uᵀ, u, the projected mean, the mean,
    the clamp column, the minimum column, the scale column). -/
def out2 (x : Vec F S1x256x3136 .f32) (ut u : Vec F S256x256 .f32) (mc mean cv dmin sc : Vec F S256x1 .f32) : FVec F S1x256x3136 .f32 :=
  k2_pay1 (k2_pay2 x ut mc cv dmin sc u) mean

/-- The output block at point `t`. -/
def outAt2 (c : Dev nD) (t : Fin cfg2.N) : FVec F S1x256x3136 .f32 :=
  out2 (iblk2 V c 0 t) (iblk2 V c 1 t) (iblk2 V c 2 t) (iblk2 V c 3 t) (iblk2 V c 4 t) (iblk2 V c 5 t) (iblk2 V c 6 t) (iblk2 V c 7 t)

/-! ## The input windows' staging buffers

Every input window is whole and live at every point. Window 0 (the block of x) is fetched at each point; windows
1 to 7 have a constant block index and are fetched once, after which the body leaves them as they are. Either way
the current staging buffer holds the window's block of the entry contents. -/

theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)
theorem before2_3_of {c : Dev nD} (dat : Dat τ (Elt F) Unit ℕ (UR sig nD τ) ℕ cfg2 c) (hA : dat.A 3 = V c (Pipeline.arrRef spec2 3))
    (hafter : ∀ t, dat.after 3 t = iblk2 V c 3 t) (t : Fin cfg2.N) (d) : dat.before 3 t d = iblk2 V c 3 t :=
  (dat.before_in_eq_fetched 3 rfl (fun _ => rfl) (fun _ _ _ => rfl) (fun t => by rw [hafter]; unfold Dat.blockOf iblk2; rw [hA]; try rfl) t d).trans
    (by unfold Dat.fetched Dat.blockOf iblk2; rw [hA]; try rfl)
theorem before2_4_of {c : Dev nD} (dat : Dat τ (Elt F) Unit ℕ (UR sig nD τ) ℕ cfg2 c) (hA : dat.A 4 = V c (Pipeline.arrRef spec2 4))
    (hafter : ∀ t, dat.after 4 t = iblk2 V c 4 t) (t : Fin cfg2.N) (d) : dat.before 4 t d = iblk2 V c 4 t :=
  (dat.before_in_eq_fetched 4 rfl (fun _ => rfl) (fun _ _ _ => rfl) (fun t => by rw [hafter]; unfold Dat.blockOf iblk2; rw [hA]; try rfl) t d).trans
    (by unfold Dat.fetched Dat.blockOf iblk2; rw [hA]; try rfl)
theorem before2_5_of {c : Dev nD} (dat : Dat τ (Elt F) Unit ℕ (UR sig nD τ) ℕ cfg2 c) (hA : dat.A 5 = V c (Pipeline.arrRef spec2 5))
    (hafter : ∀ t, dat.after 5 t = iblk2 V c 5 t) (t : Fin cfg2.N) (d) : dat.before 5 t d = iblk2 V c 5 t :=
  (dat.before_in_eq_fetched 5 rfl (fun _ => rfl) (fun _ _ _ => rfl) (fun t => by rw [hafter]; unfold Dat.blockOf iblk2; rw [hA]; try rfl) t d).trans
    (by unfold Dat.fetched Dat.blockOf iblk2; rw [hA]; try rfl)
theorem before2_6_of {c : Dev nD} (dat : Dat τ (Elt F) Unit ℕ (UR sig nD τ) ℕ cfg2 c) (hA : dat.A 6 = V c (Pipeline.arrRef spec2 6))
    (hafter : ∀ t, dat.after 6 t = iblk2 V c 6 t) (t : Fin cfg2.N) (d) : dat.before 6 t d = iblk2 V c 6 t :=
  (dat.before_in_eq_fetched 6 rfl (fun _ => rfl) (fun _ _ _ => rfl) (fun t => by rw [hafter]; unfold Dat.blockOf iblk2; rw [hA]; try rfl) t d).trans
    (by unfold Dat.fetched Dat.blockOf iblk2; rw [hA]; try rfl)
theorem before2_7_of {c : Dev nD} (dat : Dat τ (Elt F) Unit ℕ (UR sig nD τ) ℕ cfg2 c) (hA : dat.A 7 = V c (Pipeline.arrRef spec2 7))
    (hafter : ∀ t, dat.after 7 t = iblk2 V c 7 t) (t : Fin cfg2.N) (d) : dat.before 7 t d = iblk2 V c 7 t :=
  (dat.before_in_eq_fetched 7 rfl (fun _ => rfl) (fun _ _ _ => rfl) (fun t => by rw [hafter]; unfold Dat.blockOf iblk2; rw [hA]; try rfl) t d).trans
    (by unfold Dat.fetched Dat.blockOf iblk2; rw [hA]; try rfl)

/-! ## The body on whole staging buffers

The body reads each of its eight inputs through the rectangle that spans the whole buffer, and stores one payload
into the output through the rectangle that spans the whole output buffer: so the output buffer ends at that payload
of the inputs' contents, whatever it held, and the inputs are unchanged. -/

private theorem zero2 : (![0, 0] : Fin 2 → Nat) = fun _ => 0 := funext fun a => by fin_cases a <;> rfl
private theorem zero3 : (![0, 0, 0] : Fin 3 → Nat) = fun _ => 0 := funext fun a => by fin_cases a <;> rfl

/-- The rectangle of the output store: all of the 1 × 256 × 3136 buffer. -/
abbrev rOut2 : Rect S1x256x3136 := Rect.unit (s := S1x256x3136) ![0, 0, 0] S1x256x3136.size inb_S1x256x3136_S1x256x3136_0_0_0

/-- The one store covers the output buffer. -/
theorem cover2_8 (p0 : Vec F S1x256x3136 .f32) (y : S1x256x3136.Idx) :
    ∃ pc ∈ ([⟨rOut2, p0⟩] : List (View.Piece (Elt F) S1x256x3136 .f32)), y ∈ pc.1.set :=
  ⟨⟨rOut2, p0⟩, List.mem_singleton_self _, View.mem_set_unit_zero (S := S1x256x3136) zero3 inb_S1x256x3136_S1x256x3136_0_0_0 y⟩

set_option maxHeartbeats 1000000 in
/-- The body on whole memrefs, the inputs' at read contents x0, …, x7 and the output's at anything, runs to the
    continuation holding the inputs' as they were and the output's at out2 of them. -/
theorem sound_kernel2 (c : Dev nD) (E : Set ℕ) (i : grid2.Coords)
    (arg1 : Memref sig .tc .vmem S1x256x3136 .f32) (harg1 : arg1.IsWhole)
    (arg2 : Memref sig .tc .vmem S256x256 .f32) (harg2 : arg2.IsWhole)
    (arg3 : Memref sig .tc .vmem S256x256 .f32) (harg3 : arg3.IsWhole)
    (arg4 : Memref sig .tc .vmem S256x1 .f32) (harg4 : arg4.IsWhole)
    (arg5 : Memref sig .tc .vmem S256x1 .f32) (harg5 : arg5.IsWhole)
    (arg6 : Memref sig .tc .vmem S256x1 .f32) (harg6 : arg6.IsWhole)
    (arg7 : Memref sig .tc .vmem S256x1 .f32) (harg7 : arg7.IsWhole)
    (arg8 : Memref sig .tc .vmem S256x1 .f32) (harg8 : arg8.IsWhole)
    (arg9 : Memref sig .tc .vmem S1x256x3136 .f32) (harg9 : arg9.IsWhole)
    (x0 : Vec F S1x256x3136 .f32) (x1 x2 : Vec F S256x256 .f32) (x3 x4 x5 x6 x7 : Vec F S256x1 .f32)
    (K : PUnit → sProp 𝕄) :
    iprop(owns (c : Thread nD τ) arg1 fullShare x0 ∗ owns (c : Thread nD τ) arg2 fullShare x1
        ∗ owns (c : Thread nD τ) arg3 fullShare x2 ∗ owns (c : Thread nD τ) arg4 fullShare x3
        ∗ owns (c : Thread nD τ) arg5 fullShare x4 ∗ owns (c : Thread nD τ) arg6 fullShare x5
        ∗ owns (c : Thread nD τ) arg7 fullShare x6 ∗ owns (c : Thread nD τ) arg8 fullShare x7
        ∗ (∃ d, owns (c : Thread nD τ) arg9 fullShare d)
        ∗ (iprop(owns (c : Thread nD τ) arg1 fullShare x0 ∗ owns (c : Thread nD τ) arg2 fullShare x1
            ∗ owns (c : Thread nD τ) arg3 fullShare x2 ∗ owns (c : Thread nD τ) arg4 fullShare x3
            ∗ owns (c : Thread nD τ) arg5 fullShare x4 ∗ owns (c : Thread nD τ) arg6 fullShare x5
            ∗ owns (c : Thread nD τ) arg7 fullShare x6 ∗ owns (c : Thread nD τ) arg8 fullShare x7
            ∗ owns (c : Thread nD τ) arg9 fullShare (out2 x0 x1 x2 x3 x4 x5 x6 x7)) -∗ K ⟨⟩))
      ⊢ wp frame (wpE (defs₀ (F := F)) Variants.none c none) E
          (cc2_kernel i arg1 harg1 arg2 harg2 arg3 harg3 arg4 harg4 arg5 harg5 arg6 harg6 arg7 harg7 arg8 harg8 arg9 harg9) K := by
  simp only [cc2_kernel_eq_skeleton]; unfold cc2_kernel_skel
  simp only [k2_part1_eq_skeleton]; unfold k2_part1_skel
  unfold owns out2
  iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, H9⟩, Hk⟩
  subst hf1 hf2 hf3 hf4 hf5 hf6 hf7 hf8
  sl_exec
  sl_step
  iapply Hk
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  iexists _; isplitr
  swap; · iexact H9
  ipureintro
  -- the buffer after the one covering store reads as its payload, and each load read its buffer's contents
  refine (View.read_writes_eq_canon _ _ _ (cover2_8 _)).trans ?_
  refine (View.canon_unit_zero (S := S1x256x3136) zero3 inb_S1x256x3136_S1x256x3136_0_0_0 _).trans ?_
  simp only [View.readAt_eq_ld, View.ld_unit_zero (S := S1x256x3136) zero3, View.ld_unit_zero (S := S256x256) zero2,
    View.ld_unit_zero (S := S256x1) zero2]

/-- The proof data of pipeline 2: the invariant is the class's throughout. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => iblk2 V c 4 t
    | ⟨5, _⟩ => iblk2 V c 5 t
    | ⟨6, _⟩ => iblk2 V c 6 t
    | ⟨7, _⟩ => iblk2 V c 7 t
    | ⟨8, _⟩ => outAt2 V c t
  Φ _ := Pipeline.ΦA spec2 c
  q _ := fullShare
  owed _ := 0

theorem A_eq2 (c : Dev nD) (w : Fin cfg2.W) : (dat2 V c).A w = V c (Pipeline.arrRef spec2 w) := by
  dsimp only [dat2]
theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) : (dat2 V c).after 4 t = iblk2 V c 4 t := by dsimp only [dat2]
theorem after2_5 (c : Dev nD) (t : Fin cfg2.N) : (dat2 V c).after 5 t = iblk2 V c 5 t := by dsimp only [dat2]
theorem after2_6 (c : Dev nD) (t : Fin cfg2.N) : (dat2 V c).after 6 t = iblk2 V c 6 t := by dsimp only [dat2]
theorem after2_7 (c : Dev nD) (t : Fin cfg2.N) : (dat2 V c).after 7 t = iblk2 V c 7 t := by dsimp only [dat2]
theorem after2_8 (c : Dev nD) (t : Fin cfg2.N) : (dat2 V c).after 8 t = outAt2 V c t := by dsimp only [dat2]

/-- Each input's current staging buffer holds its block at every point, fetched there or not. -/
theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d
theorem before2_3 (c : Dev nD) (t : Fin cfg2.N) (d) : (dat2 V c).before 3 t d = iblk2 V c 3 t :=
  before2_3_of V (dat2 V c) (A_eq2 V c 3) (after2_3 V c) t d
theorem before2_4 (c : Dev nD) (t : Fin cfg2.N) (d) : (dat2 V c).before 4 t d = iblk2 V c 4 t :=
  before2_4_of V (dat2 V c) (A_eq2 V c 4) (after2_4 V c) t d
theorem before2_5 (c : Dev nD) (t : Fin cfg2.N) (d) : (dat2 V c).before 5 t d = iblk2 V c 5 t :=
  before2_5_of V (dat2 V c) (A_eq2 V c 5) (after2_5 V c) t d
theorem before2_6 (c : Dev nD) (t : Fin cfg2.N) (d) : (dat2 V c).before 6 t d = iblk2 V c 6 t :=
  before2_6_of V (dat2 V c) (A_eq2 V c 6) (after2_6 V c) t d
theorem before2_7 (c : Dev nD) (t : Fin cfg2.N) (d) : (dat2 V c).before 7 t d = iblk2 V c 7 t :=
  before2_7_of V (dat2 V c) (A_eq2 V c 7) (after2_7 V c) t d

/-! ## The body obligation, at a generic point -/

/-- What the body is called with at point t, the windows one by one, -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d))
    ∗ (∃ d, owns (c : Thread nD τ) (st2_4 t) fullShare ((dat2 V c).before 4 t d))
    ∗ (∃ d, owns (c : Thread nD τ) (st2_5 t) fullShare ((dat2 V c).before 5 t d))
    ∗ (∃ d, owns (c : Thread nD τ) (st2_6 t) fullShare ((dat2 V c).before 6 t d))
    ∗ (∃ d, owns (c : Thread nD τ) (st2_7 t) fullShare ((dat2 V c).before 7 t d))
    ∗ (∃ d, owns (c : Thread nD τ) (st2_8 t) fullShare ((dat2 V c).before 8 t d)))

/-- and what it returns. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t)
    ∗ owns (c : Thread nD τ) (st2_4 t) fullShare ((dat2 V c).after 4 t)
    ∗ owns (c : Thread nD τ) (st2_5 t) fullShare ((dat2 V c).after 5 t)
    ∗ owns (c : Thread nD τ) (st2_6 t) fullShare ((dat2 V c).after 6 t)
    ∗ owns (c : Thread nD τ) (st2_7 t) fullShare ((dat2 V c).after 7 t)
    ∗ owns (c : Thread nD τ) (st2_8 t) fullShare ((dat2 V c).after 8 t))

/-- The body at any point: the inputs' buffers hold their blocks, so the triple above applies; the invariant and
    what the core owes pass through unread. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3, before2_4, before2_5, before2_6, before2_7]
  rw [show (dat2 V c).Φ t.succ = (dat2 V c).Φ t.castSucc from rfl,
    show (dat2 V c).owesAt () t.succ = (dat2 V c).owesAt () t.castSucc from rfl,
    after2_0, after2_1, after2_2, after2_3, after2_4, after2_5, after2_6, after2_7, after2_8]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
  iapply (sound_kernel2 c Set.univ _ _ _ _ _ _ _ _ _ _ _ _ _ _ _ _ _ _ _
    (iblk2 V c 0 t) (iblk2 V c 1 t) (iblk2 V c 2 t) (iblk2 V c 3 t) (iblk2 V c 4 t) (iblk2 V c 5 t) (iblk2 V c 6 t) (iblk2 V c 7 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexists _; iexact H8
  iintro ⟨H0, H1, H2, H3, H4, H5, H6, H7, H8⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  unfold outAt2
  iexact H8

/-- The body obligation at every point. -/
theorem body_obligation2 (c : Dev nD) : BodyObligation (dat2 (F := F) V c) (defs₀ (F := F)) Variants.none () Set.univ := fun t => by
  rw [bigSep_W2, bigSep_W2]
  exact sound_body2 V c t

theorem hin2 (c : Dev nD) : Pipeline.ΦA spec2 c ⊢ (dat2 V c).Φ 0 := .rfl
theorem hout2 (c : Dev nD) : (dat2 V c).Φ (Fin.last cfg2.N) ⊢ Pipeline.ΦA spec2 c := .rfl

end Cert.KernelIdeal.Hand

end
-- ==== Proof.KI.Fold.lean ====
/-
  The buffers' contents at each boundary of @main, as a fold from the launch memory: a host stretch applies its
  operations; a region leaves each of its arrays at what its write-backs fold to and every other buffer as entered.
  And every pipeline's proof data, each at its region's entry contents.
-/
import proofs.«103972_j30554397343924_1_alg».proof.Proof.KI.Reg0
import proofs.«103972_j30554397343924_1_alg».proof.Proof.KI.Reg1
import proofs.«103972_j30554397343924_1_alg».proof.Proof.KI.Reg2
import proofs.«103972_j30554397343924_1_alg».proof.Proof.Gen.KernelIdeal.Regions

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ)

/-- Core `c`'s buffers at launch. -/
abbrev W0 (c : Dev nD) : Valuation τ sig (Elt F) := fun b => m (c, b)
/-- After the first host stretch (region 0's entry). -/
abbrev W1 (c : Dev nD) : Valuation τ sig (Elt F) := StableHlo.after hostOps0 (W0 m c)
abbrev V1 : (c : Dev nD) → (b : Ref sig .tc) → Buf (Elt F) ((c : Thread nD τ).loc b) := fun c b => W1 m c b
/-- At region 0's exit. -/
def W2 (c : Dev nD) : Valuation τ sig (Elt F) :=
  Pipeline.withArrays spec0 c (W1 m c) fun w => (dat0 (V1 m) c).arrAt w cfg0.N
abbrev V2 : (c : Dev nD) → (b : Ref sig .tc) → Buf (Elt F) ((c : Thread nD τ).loc b) := fun c b => W2 m c b
/-- After the second host stretch (region 1's entry). -/
abbrev W3 (c : Dev nD) : Valuation τ sig (Elt F) := StableHlo.after hostOps1 (W2 m c)
abbrev V3 : (c : Dev nD) → (b : Ref sig .tc) → Buf (Elt F) ((c : Thread nD τ).loc b) := fun c b => W3 m c b
/-- At region 1's exit. -/
def W4 (c : Dev nD) : Valuation τ sig (Elt F) :=
  Pipeline.withArrays spec1 c (W3 m c) fun w => (dat1 (V3 m) c).arrAt w cfg1.N
abbrev V4 : (c : Dev nD) → (b : Ref sig .tc) → Buf (Elt F) ((c : Thread nD τ).loc b) := fun c b => W4 m c b
/-- After the third host stretch (region 2's entry). -/
abbrev W5 (c : Dev nD) : Valuation τ sig (Elt F) := StableHlo.after hostOps2 (W4 m c)
abbrev V5 : (c : Dev nD) → (b : Ref sig .tc) → Buf (Elt F) ((c : Thread nD τ).loc b) := fun c b => W5 m c b
/-- At region 2's exit. -/
def W6 (c : Dev nD) : Valuation τ sig (Elt F) :=
  Pipeline.withArrays spec2 c (W5 m c) fun w => (dat2 (V5 m) c).arrAt w cfg2.N
abbrev V6 : (c : Dev nD) → (b : Ref sig .tc) → Buf (Elt F) ((c : Thread nD τ).loc b) := fun c b => W6 m c b
/-- After the last host stretch: the end of @main. -/
abbrev W7 (c : Dev nD) : Valuation τ sig (Elt F) := StableHlo.after hostOps3 (W6 m c)

theorem W2_arr (c : Dev nD) (w : Fin cfg0.W) :
    W2 m c (Proc.devRef .tc (Pipeline.arrRef spec0 w)) = (dat0 (V1 m) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m c (Proc.devRef .tc b) = W1 m c (Proc.devRef .tc b) := by
  unfold W2; exact Pipeline.withArrays_of_ne spec0 c _ _ b hb
theorem W4_arr (c : Dev nD) (w : Fin cfg1.W) :
    W4 m c (Proc.devRef .tc (Pipeline.arrRef spec1 w)) = (dat1 (V3 m) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m c (Proc.devRef .tc b) = W3 m c (Proc.devRef .tc b) := by
  unfold W4; exact Pipeline.withArrays_of_ne spec1 c _ _ b hb
theorem W6_arr (c : Dev nD) (w : Fin cfg2.W) :
    W6 m c (Proc.devRef .tc (Pipeline.arrRef spec2 w)) = (dat2 (V5 m) c).arrAt w cfg2.N := by
  unfold W6; exact Pipeline.withArrays_arr spec2 launch2.win.arr_inj c _ _ w
theorem W6_of_ne (c : Dev nD) (b : Ref sig .tc) (hb : ∀ w, Pipeline.arrRef spec2 w ≠ b) :
    W6 m c (Proc.devRef .tc b) = W5 m c (Proc.devRef .tc b) := by
  unfold W6; exact Pipeline.withArrays_of_ne spec2 c _ _ b hb

/-- Every pipeline's proof data, each at its region's entry contents. -/
def pdats : (p : Fin 3) → (c : Dev nD) → Dat τ (Elt F) Unit ℕ (UR sig nD τ) ℕ (Pipeline.pin (pcfgs (F := F)) adm p) c
  | ⟨0, _⟩ => fun c => dat0 (V1 m) c
  | ⟨1, _⟩ => fun c => dat1 (V3 m) c
  | ⟨2, _⟩ => fun c => dat2 (V5 m) c

end Cert.KernelIdeal.Hand

end
-- ==== Proof.KI.Run.lean ====
/-
  The launch: @main as host stretches and the three kernel regions over the fold of Fold.lean, every weakly fair
  execution terminating with each unscoped buffer at the fold's last contents; the arguments read back unchanged.
-/
import proofs.«103972_j30554397343924_1_alg».proof.Proof.KI.Fold

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- No host stretch writes an argument and no region changes one: the fold at an argument is the launch memory. -/
theorem W7_main_arg0 (c : Dev nD) : W7 m c (Proc.devRef .tc main_arg0) = m ((c : Thread nD τ).loc main_arg0) :=
  calc W7 m c (Proc.devRef .tc main_arg0)
    _ = W6 m c (Proc.devRef .tc main_arg0) := StableHlo.after_of_writes_sub hostOps3 _ hostOps3_writes (by decide)
    _ = W5 m c (Proc.devRef .tc main_arg0) := W6_of_ne m c main_arg0 (by decide)
    _ = W4 m c (Proc.devRef .tc main_arg0) := StableHlo.after_of_writes_sub hostOps2 _ hostOps2_writes (by decide)
    _ = W3 m c (Proc.devRef .tc main_arg0) := W4_of_ne m c main_arg0 (by decide)
    _ = W2 m c (Proc.devRef .tc main_arg0) := StableHlo.after_of_writes_sub hostOps1 _ hostOps1_writes (by decide)
    _ = W1 m c (Proc.devRef .tc main_arg0) := W2_of_ne m c main_arg0 (by decide)
    _ = W0 m c (Proc.devRef .tc main_arg0) := StableHlo.after_of_writes_sub hostOps0 _ hostOps0_writes (by decide)
    _ = m ((c : Thread nD τ).loc main_arg0) := rfl
theorem W7_main_arg1 (c : Dev nD) : W7 m c (Proc.devRef .tc main_arg1) = m ((c : Thread nD τ).loc main_arg1) :=
  calc W7 m c (Proc.devRef .tc main_arg1)
    _ = W6 m c (Proc.devRef .tc main_arg1) := StableHlo.after_of_writes_sub hostOps3 _ hostOps3_writes (by decide)
    _ = W5 m c (Proc.devRef .tc main_arg1) := (W6_arr m c 2).trans (((dat2 (V5 m) c).arrAt_in 2 rfl _).trans (A_eq2 (V5 m) c 2))
    _ = W4 m c (Proc.devRef .tc main_arg1) := StableHlo.after_of_writes_sub hostOps2 _ hostOps2_writes (by decide)
    _ = W3 m c (Proc.devRef .tc main_arg1) := W4_of_ne m c main_arg1 (by decide)
    _ = W2 m c (Proc.devRef .tc main_arg1) := StableHlo.after_of_writes_sub hostOps1 _ hostOps1_writes (by decide)
    _ = W1 m c (Proc.devRef .tc main_arg1) := W2_of_ne m c main_arg1 (by decide)
    _ = W0 m c (Proc.devRef .tc main_arg1) := StableHlo.after_of_writes_sub hostOps0 _ hostOps0_writes (by decide)
    _ = m ((c : Thread nD τ).loc main_arg1) := rfl
theorem W7_main_arg2 (c : Dev nD) : W7 m c (Proc.devRef .tc main_arg2) = m ((c : Thread nD τ).loc main_arg2) :=
  calc W7 m c (Proc.devRef .tc main_arg2)
    _ = W6 m c (Proc.devRef .tc main_arg2) := StableHlo.after_of_writes_sub hostOps3 _ hostOps3_writes (by decide)
    _ = W5 m c (Proc.devRef .tc main_arg2) := W6_of_ne m c main_arg2 (by decide)
    _ = W4 m c (Proc.devRef .tc main_arg2) := StableHlo.after_of_writes_sub hostOps2 _ hostOps2_writes (by decide)
    _ = W3 m c (Proc.devRef .tc main_arg2) := W4_of_ne m c main_arg2 (by decide)
    _ = W2 m c (Proc.devRef .tc main_arg2) := StableHlo.after_of_writes_sub hostOps1 _ hostOps1_writes (by decide)
    _ = W1 m c (Proc.devRef .tc main_arg2) := W2_of_ne m c main_arg2 (by decide)
    _ = W0 m c (Proc.devRef .tc main_arg2) := StableHlo.after_of_writes_sub hostOps0 _ hostOps0_writes (by decide)
    _ = m ((c : Thread nD τ).loc main_arg2) := rfl

/-! ## What a region leaves: its arrays at the write-backs' fold, every other buffer as entered -/

theorem hF0 (c : Dev nD) (w : Fin cfg0.W) : (dat0 (V1 m) c).arrAt w cfg0.N = V2 m c (Pipeline.arrRef spec0 w) :=
  (W2_arr m c w).symm
theorem hrest0 (c : Dev nD) : ∀ b, b ∉ Finset.univ.image (Pipeline.arrRef spec0) → V2 m c b = V1 m c b :=
  fun b hb => W2_of_ne m c b fun w e => hb (Finset.mem_image.mpr ⟨w, Finset.mem_univ _, e⟩)
theorem hF1 (c : Dev nD) (w : Fin cfg1.W) : (dat1 (V3 m) c).arrAt w cfg1.N = V4 m c (Pipeline.arrRef spec1 w) :=
  (W4_arr m c w).symm
theorem hrest1 (c : Dev nD) : ∀ b, b ∉ Finset.univ.image (Pipeline.arrRef spec1) → V4 m c b = V3 m c b :=
  fun b hb => W4_of_ne m c b fun w e => hb (Finset.mem_image.mpr ⟨w, Finset.mem_univ _, e⟩)
theorem hF2 (c : Dev nD) (w : Fin cfg2.W) : (dat2 (V5 m) c).arrAt w cfg2.N = V6 m c (Pipeline.arrRef spec2 w) :=
  (W6_arr m c w).symm
theorem hrest2 (c : Dev nD) : ∀ b, b ∉ Finset.univ.image (Pipeline.arrRef spec2) → V6 m c b = V5 m c b :=
  fun b hb => W6_of_ne m c b fun w e => hb (Finset.mem_image.mpr ⟨w, Finset.mem_univ _, e⟩)

/-! ## The thread state between segments -/

abbrev 𝒱₀ : Variants := Variants.none
/-- No core owes another anything: no level is assigned. -/
abbrev L : GSem nD τ sig → Finset Unit := fun _ => ∅
abbrev lv : GSem nD τ sig → Unit → ℕ := fun _ _ => 0
/-- What rides beside the unscoped buffers through every segment: the core's generator register at some state and
    the core owing nothing. -/
abbrev R (c : Dev nD) : sProp 𝕄 := iprop((∃ r, prngReg c r) ∗ ∃ W, owes (c : Thread nD τ) (0 : CellTallies nD τ sig Unit) W)
/-- A host stretch as a segment over the unscoped references from the contents `W`, `R` riding along; it leaves them at
    `StableHlo.after ops (W c)`. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
/-- The last thread state without what the core owes: every unscoped buffer at the fold's last contents, the generator
    register at some state. -/
abbrev Tₙ (c : Dev nD) : sProp 𝕄 := iprop(StableHlo.held (c : Thread nD τ) (Pipeline.ucRefs τ sig) (W7 m c) ∗ ∃ r, prngReg c r)

/-! ## The regions as segments -/

set_option backward.isDefEq.respectTransparency.types false in
/-- Region 0 over the thread state: entered with every unscoped buffer at `W1`, left with them at `W2`. Its windows'
    arrays are split out of the unscoped buffers and put back at the exit contents; the generator register and the
    scoped rest make the class invariant, which the region's own invariant is entered from and gives back. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m) c).loose
  hwaits := Pipeline.hwaits_of_owed_zero _ _ _ _ L lv 0 fun _ _ => rfl
  pre c := iprop(StableHlo.held (c : Thread nD τ) (Pipeline.ucRefs τ sig) (W1 m c) ∗ R c)
  post c := iprop(StableHlo.held (c : Thread nD τ) (Pipeline.ucRefs τ sig) (W2 m c) ∗ R c)
  X c := iprop(∃ r, prngReg c r)
  Y c := iprop(∃ r, prngReg c r)
  Z c := Pipeline.unscopedRest (Ix := Unit) (Name := ℕ) (U := UR sig nD τ) (Lvl := ℕ) spec0 c (V1 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (V1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    have hA : iprop((∃ r, prngReg c r) ∗ Pipeline.prefHeld (pcfgs (F := F) 0).pre c (fun _ => fullShare) (adm (F := F) 0).1
          ∗ Pipeline.scopedRest (Pipeline.pin (pcfgs (F := F)) adm 0).spec c)
        ⊢ (Pipeline.ΦA spec0 c : sProp 𝕄) := by
      unfold Pipeline.ΦA
      iintro ⟨Hp, -, Hr⟩
      isplitl [Hr]; · iexact Hr
      iexact Hp
    exact hA.trans (hin0 (V1 m) c)
  hout c := by
    rw [Pipeline.ownSems0_none]
    have hA : (Pipeline.ΦA spec0 c : sProp 𝕄)
        ⊢ iprop((∃ r, prngReg c r) ∗ BI.emp ∗ Pipeline.scopedRest (Pipeline.pin (pcfgs (F := F)) adm 0).spec c) := by
      unfold Pipeline.ΦA
      iintro ⟨Hr, Hp⟩
      isplitl [Hp]; · iexact Hp
      isplitr; · iempintro
      iexact Hr
    exact (hout0 (V1 m) c).trans hA
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (V1 m c) (V2 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 over the thread state: entered with every unscoped buffer at `W3`, left with them at `W4`. Its windows'
    arrays are split out of the unscoped buffers and put back at the exit contents; the generator register and the
    scoped rest make the class invariant, which the region's own invariant is entered from and gives back. -/
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V3 m) c).loose
  hwaits := Pipeline.hwaits_of_owed_zero _ _ _ _ L lv 1 fun _ _ => rfl
  pre c := iprop(StableHlo.held (c : Thread nD τ) (Pipeline.ucRefs τ sig) (W3 m c) ∗ R c)
  post c := iprop(StableHlo.held (c : Thread nD τ) (Pipeline.ucRefs τ sig) (W4 m c) ∗ R c)
  X c := iprop(∃ r, prngReg c r)
  Y c := iprop(∃ r, prngReg c r)
  Z c := Pipeline.unscopedRest (Ix := Unit) (Name := ℕ) (U := UR sig nD τ) (Lvl := ℕ) spec1 c (V3 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (V3 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    have hA : iprop((∃ r, prngReg c r) ∗ Pipeline.prefHeld (pcfgs (F := F) 1).pre c (fun _ => fullShare) (adm (F := F) 1).1
          ∗ Pipeline.scopedRest (Pipeline.pin (pcfgs (F := F)) adm 1).spec c)
        ⊢ (Pipeline.ΦA spec1 c : sProp 𝕄) := by
      unfold Pipeline.ΦA
      iintro ⟨Hp, -, Hr⟩
      isplitl [Hr]; · iexact Hr
      iexact Hp
    exact hA.trans (hin1 (V3 m) c)
  hout c := by
    rw [Pipeline.ownSems0_none]
    have hA : (Pipeline.ΦA spec1 c : sProp 𝕄)
        ⊢ iprop((∃ r, prngReg c r) ∗ BI.emp ∗ Pipeline.scopedRest (Pipeline.pin (pcfgs (F := F)) adm 1).spec c) := by
      unfold Pipeline.ΦA
      iintro ⟨Hr, Hp⟩
      isplitl [Hp]; · iexact Hp
      isplitr; · iempintro
      iexact Hr
    exact (hout1 (V3 m) c).trans hA
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (V3 m c) (V4 m c) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 2 over the thread state: entered with every unscoped buffer at `W5`, left with them at `W6`. Its windows'
    arrays are split out of the unscoped buffers and put back at the exit contents; the generator register and the
    scoped rest make the class invariant, which the region's own invariant is entered from and gives back. -/
def reg2 : Pipeline.RegionSeg (pcfgs (F := F)) adm (pdats m) () defs₀ 𝒱₀ L lv 2 where
  win := launch2.win.to₀
  block_pos := launch2.block_pos
  stage_whole := launch2.stage_whole
  K := PEmpty
  osem k := k.elim
  ho := Pipeline.OwnSemFacts.none _
  hbody c := (body_obligation2 (V5 m) c).loose
  hwaits := Pipeline.hwaits_of_owed_zero _ _ _ _ L lv 2 fun _ _ => rfl
  pre c := iprop(StableHlo.held (c : Thread nD τ) (Pipeline.ucRefs τ sig) (W5 m c) ∗ R c)
  post c := iprop(StableHlo.held (c : Thread nD τ) (Pipeline.ucRefs τ sig) (W6 m c) ∗ R c)
  X c := iprop(∃ r, prngReg c r)
  Y c := iprop(∃ r, prngReg c r)
  Z c := Pipeline.unscopedRest (Ix := Unit) (Name := ℕ) (U := UR sig nD τ) (Lvl := ℕ) spec2 c (V5 m c)
  hentry c := by
    rw [Pipeline.ownSems0_none]
    have hsplit := Pipeline.arrays_of_unscopedBufs (p := 2) (pcfgs (F := F)) adm (pdats m) launch2.win launch2.arr_whole c
      ((pdats m 2 c).share_full fun _ => rfl) (V5 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    have hA : iprop((∃ r, prngReg c r) ∗ Pipeline.prefHeld (pcfgs (F := F) 2).pre c (fun _ => fullShare) (adm (F := F) 2).1
          ∗ Pipeline.scopedRest (Pipeline.pin (pcfgs (F := F)) adm 2).spec c)
        ⊢ (Pipeline.ΦA spec2 c : sProp 𝕄) := by
      unfold Pipeline.ΦA
      iintro ⟨Hp, -, Hr⟩
      isplitl [Hr]; · iexact Hr
      iexact Hp
    exact hA.trans (hin2 (V5 m) c)
  hout c := by
    rw [Pipeline.ownSems0_none]
    have hA : (Pipeline.ΦA spec2 c : sProp 𝕄)
        ⊢ iprop((∃ r, prngReg c r) ∗ BI.emp ∗ Pipeline.scopedRest (Pipeline.pin (pcfgs (F := F)) adm 2).spec c) := by
      unfold Pipeline.ΦA
      iintro ⟨Hr, Hp⟩
      isplitl [Hp]; · iexact Hp
      isplitr; · iempintro
      iexact Hr
    exact (hout2 (V5 m) c).trans hA
  hexit c := by
    have hjoin := Pipeline.unscopedBufs_of_arrays (p := 2) (pcfgs (F := F)) adm (Ix := Unit) (Name := ℕ) (U := UR sig nD τ) (Lvl := ℕ)
      launch2.win launch2.arr_whole c (pdats m) ((pdats m 2 c).share_full fun _ => rfl)
      (V5 m c) (V6 m c) ((pdats m 2 c).arrAt · cfg2.N) (hF2 m c) (hrest2 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## @main as segments, and the launch -/

/-- @main's seven segments in order: a host segment per stretch from its boundary's contents, a region per kernel call. -/
abbrev segs : List (Pipeline.Seg (pcfgs (F := F)) adm (pdats m) () defs₀ 𝒱₀ L lv) :=
  [ .host (hseg hostOps0 hostOps0_sub hostOps0_fresh (W0 m)),
    .region (reg0 m),
    .host (hseg hostOps1 hostOps1_sub hostOps1_fresh (W2 m)),
    .region (reg1 m),
    .host (hseg hostOps2 hostOps2_sub hostOps2_fresh (W4 m)),
    .region (reg2 m),
    .host (hseg hostOps3 hostOps3_sub hostOps3_fresh (W6 m)) ]
/-- @main is the run of the segments: it is the chain of its items, and the segments' run unfolds to that chain. -/
theorem main_run (c : Dev nD) : main (F := F) c = Pipeline.Seg.run (segs m) := (main_chain c).trans (by chain_rfl)

set_option backward.isDefEq.respectTransparency.types false in
/-- Every weakly fair execution of @main terminates, nothing faulting, with every unscoped buffer of every core at the
    fold's last contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W7 m c b) :=
  Pipeline.θ_run_regions_kit (pcfgs (F := F)) adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := ⟨fun _ => .rfl, fun _ => .rfl, fun _ => .rfl, fun _ => .rfl, fun _ => .rfl, fun _ => .rfl, fun _ => .rfl,
      fun _ => sep_assoc'⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W7 m c b)
    (hfin := fun c s' => by
      iintro ⟨⟨Hh, -⟩, HSI⟩
      unfold StableHlo.held
      imodintro
      iapply (pointsTo_read_all (Pipeline.ucRefs τ sig) (fun b => (((c : Thread nD τ)).1, b)) (W7 m c) s')
      isplitl [Hh] <;> iassumption)
    (hQ := fun s h => h)

/-- An unscoped TensorCore reference is among those the launch reads back. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

/-- The frame: the argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c =>
    ⟨(h c _ (mem_uc main_arg0 (by decide))).trans (W7_main_arg0 m c),
     (h c _ (mem_uc main_arg1 (by decide))).trans (W7_main_arg1 m c),
     (h c _ (mem_uc main_arg2 (by decide))).trans (W7_main_arg2 m c)⟩) (run_all m ρ)

/-- The run with the result named: the result array ends at the fold's last contents, the arguments as launched. -/
theorem run_result : θ_run defs (onTc (τ := τ) (main (F := F))) ⟨m, fun _ => 0, ρ⟩ (fun r => ∀ c : Dev nD,
      r.2.mem ((c.tc : Thread nD τ).loc main_v12) = W7 m c (Proc.devRef .tc main_v12)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c =>
    ⟨h c _ (mem_uc main_v12 (by decide)),
     (h c _ (mem_uc main_arg0 (by decide))).trans (W7_main_arg0 m c),
     (h c _ (mem_uc main_arg1 (by decide))).trans (W7_main_arg1 m c),
     (h c _ (mem_uc main_arg2 (by decide))).trans (W7_main_arg2 m c)⟩) (run_all m ρ)

end Cert.KernelIdeal.Hand

end
-- ==== Proof.Spec.lean ====
/-
  The two closed forms of the result, index by index on the extended reals, and nothing else: no program is imported.

  Inputs: x[b, c, p] (32 batch blocks, 256 channels, 3136 = 56·56 positions), the basis u[c, k], the clamp column cv[k].
  r = max(x, 0).  Both programs compute, per channel, the mean of r over all 100352 = 32·3136 positions; project
  with uᵀ; clamp to [-cv, cv]; take the per-channel minimum and maximum of the clamped projection over all
  positions; quantize to 255 levels between them and back; unproject with u and add the mean.

  They differ in three places only:
   * the mean's sum: the kernel adds 32 lane sums one block at a time, the reference sums 100352 terms at once;
   * the projection: the kernel forms uᵀ·r − uᵀ·mean, the reference uᵀ·(r − mean);
   * the extrema: the kernel folds 32 per-block extrema, the reference folds over all positions at once;
  and the kernel spells −cv as 0 − cv.
-/
import Idealize.ShloMosaic.PureOps.Ideal
import Idealize.ShloMosaic.PureOps.Ideal.Laws
import Idealize.ShloMosaic.Lib.ValueIdx

noncomputable section

namespace Cert.Spec

open Idealize.ShloMosaic

/-! ## The literals, as the words both programs print (the same word on both sides is never evaluated) -/

abbrev zeroW : EReal := Ideal.ofBits .f32 0x00000000#32
abbrev countW : EReal := Ideal.ofBits .f32 0x47C40000#32   -- 100352.0
abbrev levelsW : EReal := Ideal.ofBits .f32 0x437F0000#32  -- 255.0
abbrev pinfW : EReal := Ideal.ofBits .f32 0x7F800000#32
abbrev ninfW : EReal := Ideal.ofBits .f32 0xFF800000#32

/-- Round half to even, as both programs' rounding reads on the extended reals. -/
abbrev rnd (a : EReal) : EReal := Ideal.liftRound Ideal.roundHalfEven a

/-- Position n of the flattened (batch, position) axis. -/
abbrev posOf (b : Fin 32) (p : Fin 3136) : Fin 100352 := ⟨b.val * 3136 + p.val, by have := b.isLt; have := p.isLt; omega⟩
abbrev batchOf (n : Fin 100352) : Fin 32 := ⟨n.val / 3136, by have := n.isLt; omega⟩
abbrev withinOf (n : Fin 100352) : Fin 3136 := ⟨n.val % 3136, Nat.mod_lt _ (by decide)⟩

section
variable (x : Fin 32 → Fin 256 → Fin 3136 → EReal) (u : Fin 256 → Fin 256 → EReal) (cv : Fin 256 → EReal)

/-- relu of the input. -/
def relu (b : Fin 32) (c : Fin 256) (p : Fin 3136) : EReal := max (x b c p) zeroW

/-! ## What the two programs share once the clamped projection, its extrema and the mean are given -/

/-- Quantize to 255 levels between `lo` and `hi` and back. -/
def quant (cl lo hi : EReal) : EReal :=
  Ideal.div (rnd ((cl - lo) * Ideal.div levelsW (hi - lo))) (Ideal.div levelsW (hi - lo)) + lo

/-- Unproject with u and add the mean back. -/
def recon (q : Fin 256 → EReal) (mean : EReal) (c : Fin 256) : EReal := (∑ k : Fin 256, u c k * q k) + mean

/-! ## The kernel's form -/

/-- The running per-channel sum after block n: from the zero word, one block's lane sum at a time. -/
def ksum (c : Fin 256) : ℕ → EReal
  | 0 => zeroW + ∑ p : Fin 3136, relu x 0 c p
  | n + 1 => ksum c n + ∑ p : Fin 3136, relu x ⟨(n + 1) % 32, Nat.mod_lt _ (by decide)⟩ c p

def kmean (c : Fin 256) : EReal := Ideal.div (ksum x c 31) countW
/-- uᵀ · mean. -/
def kmeanProj (k : Fin 256) : EReal := ∑ c : Fin 256, u c k * kmean x c
def kproj (k : Fin 256) (b : Fin 32) (p : Fin 3136) : EReal := (∑ c : Fin 256, u c k * relu x b c p) - kmeanProj x u k
def kclamp (k : Fin 256) (b : Fin 32) (p : Fin 3136) : EReal := min (cv k) (max (zeroW - cv k) (kproj x u k b p))

/-- The running per-channel minimum after block n: from +inf, one block's lane minimum at a time. -/
def kmin (k : Fin 256) : ℕ → EReal
  | 0 => min pinfW ((Finset.univ : Finset (Fin 3136)).fold min pinfW fun p => kclamp x u cv k 0 p)
  | n + 1 => min (kmin k n) ((Finset.univ : Finset (Fin 3136)).fold min pinfW fun p => kclamp x u cv k ⟨(n + 1) % 32, Nat.mod_lt _ (by decide)⟩ p)
/-- The running per-channel maximum after block n: from -inf. -/
def kmax (k : Fin 256) : ℕ → EReal
  | 0 => max ninfW ((Finset.univ : Finset (Fin 3136)).fold max ninfW fun p => kclamp x u cv k 0 p)
  | n + 1 => max (kmax k n) ((Finset.univ : Finset (Fin 3136)).fold max ninfW fun p => kclamp x u cv k ⟨(n + 1) % 32, Nat.mod_lt _ (by decide)⟩ p)

/-- The kernel's result. -/
def kout (b : Fin 32) (c : Fin 256) (p : Fin 3136) : EReal :=
  recon u (fun k => quant (kclamp x u cv k b p) (kmin x u cv k 31) (kmax x u cv k 31)) (kmean x c) c

/-! ## The reference's form -/

def rsum (c : Fin 256) : EReal := zeroW + ∑ n : Fin 100352, relu x (batchOf n) c (withinOf n)
def rmean (c : Fin 256) : EReal := Ideal.div (rsum x c) countW
def rproj (k : Fin 256) (n : Fin 100352) : EReal := ∑ c : Fin 256, u c k * (relu x (batchOf n) c (withinOf n) - rmean x c)
def rclamp (k : Fin 256) (n : Fin 100352) : EReal := min (cv k) (max (-(cv k)) (rproj x u k n))
def rmin (k : Fin 256) : EReal := (Finset.univ : Finset (Fin 100352)).fold min pinfW fun n => rclamp x u cv k n
def rmax (k : Fin 256) : EReal := (Finset.univ : Finset (Fin 100352)).fold max ninfW fun n => rclamp x u cv k n

/-- The reference's result. -/
def rout (b : Fin 32) (c : Fin 256) (p : Fin 3136) : EReal :=
  recon u (fun k => quant (rclamp x u cv k (posOf b p)) (rmin x u cv k) (rmax x u cv k)) (rmean x c) c

end

/-! ## From the argument arrays to the inputs, and from a result to the result array -/

abbrev S4 : Shape := ⟨4, ![32, 256, 56, 56]⟩
abbrev S2 : Shape := ⟨2, ![256, 256]⟩
abbrev S1 : Shape := ⟨1, ![256]⟩

/-- x[b, c, p] off the [32, 256, 56, 56] array: p = 56·h + w. -/
def xOf (a : S4.Idx → EReal) (b : Fin 32) (c : Fin 256) (p : Fin 3136) : EReal :=
  a (ValueIdx.ix4 b c ⟨p.val / 56, by have := p.isLt; omega⟩ ⟨p.val % 56, Nat.mod_lt _ (by decide)⟩)
def uOf (a : S2.Idx → EReal) (c k : Fin 256) : EReal := a (ValueIdx.ix2 c k)
def cvOf (a : S1.Idx → EReal) (k : Fin 256) : EReal := a (ValueIdx.ix1 k)

/-- A result g[b, c, p] as the [32, 256, 56, 56] array. -/
def toArr (g : Fin 32 → Fin 256 → Fin 3136 → EReal) : S4.Idx → EReal := fun i =>
  g ⟨(i 0).val, (i 0).isLt⟩ ⟨(i 1).val, (i 1).isLt⟩
    ⟨(i 2).val * 56 + (i 3).val, by
      have h2 : (i 2).val < 56 := (i 2).isLt
      have h3 : (i 3).val < 56 := (i 3).isLt
      omega⟩

/-- The kernel's result array and the reference's, as functions of the three argument arrays. -/
def Gk (a0 : S4.Idx → EReal) (a1 : S2.Idx → EReal) (a2 : S1.Idx → EReal) : S4.Idx → EReal :=
  toArr (kout (xOf a0) (uOf a1) (cvOf a2))
def Gr (a0 : S4.Idx → EReal) (a1 : S2.Idx → EReal) (a2 : S1.Idx → EReal) : S4.Idx → EReal :=
  toArr (rout (xOf a0) (uOf a1) (cvOf a2))

end Cert.Spec

end
-- ==== Proof.KI.Val0.lean ====
/-
  The kernel's value, first stage (at the ideal instance): the three host-made operands of the regions as plain
  re-indexings of the arguments; what region 0 leaves — the per-channel sum of relu(x), added block by block —;
  and the mean and its projection that the second host stretch makes of it.
-/
import proofs.«103972_j30554397343924_1_alg».proof.Proof.KI.Fold
import proofs.«103972_j30554397343924_1_alg».proof.Proof.Spec
import Idealize.ShloMosaic.Lib.Pipeline.Value
import Idealize.ShloMosaic.Lib.ValueIdx
import Idealize.ShloMosaic.Lib.ValueLayout
import Idealize.ShloMosaic.Lib.StableHlo.Run
import Idealize.ShloMosaic.PureOps.Ideal.Laws

set_option maxRecDepth 16384

noncomputable section

namespace Cert.KernelIdeal.HandValue

open Idealize.ShloMosaic Idealize.ShloMosaic.TcCoe Idealize.SL.Sem
open Idealize.ShloMosaic.Pipeline (Dat Cfg Window)
open Idealize.ShloMosaic.ValueIdx Idealize.ShloMosaic.StableHlo
open Cert.KernelIdeal Cert.KernelIdeal.Gen Cert.KernelIdeal.Hand

variable (m : (ℓ : Loc nD τ sig) → Buf (Elt Ideal) ℓ) (c : Dev nD)

/-- The inputs as the specification takes them. -/
abbrev xin : Fin 32 → Fin 256 → Fin 3136 → EReal := Cert.Spec.xOf (m ((c : Thread nD τ).loc main_arg0))
abbrev uin : Fin 256 → Fin 256 → EReal := Cert.Spec.uOf (m ((c : Thread nD τ).loc main_arg1))
abbrev cvin : Fin 256 → EReal := Cert.Spec.cvOf (m ((c : Thread nD τ).loc main_arg2))

/-! ## The first host stretch: x with its two spatial axes merged, uᵀ, the clamp values as a column -/

/-- Merging the two spatial axes keeps the row-major position: position p of the merged axis is (p / 56, p % 56). -/
private theorem merge_read (a : Cert.Spec.S4.Idx → EReal) (i : S32x256x3136.Idx) :
    shapeCast S32x256x3136 a shapeCasts_S32x256x56x56_S32x256x3136 i
      = Cert.Spec.xOf a ⟨(i 0).val, (i 0).isLt⟩ ⟨(i 1).val, (i 1).isLt⟩ ⟨(i 2).val, (i 2).isLt⟩ := by
  unfold Cert.Spec.xOf
  refine shapeCast_apply a _ i _ ?_
  rw [Shape.rowMajor_val_four, Shape.rowMajor_val_three]
  have h2 : (i 2).val < 3136 := (i 2).isLt
  show (((i 0).val * 256 + (i 1).val) * 56 + (i 2).val / 56) * 56 + (i 2).val % 56 = ((i 0).val * 256 + (i 1).val) * 3136 + (i 2).val
  omega

/-- The transpose reads the operand with its two coordinates exchanged. -/
private theorem swap_read (a : Cert.Spec.S2.Idx → EReal) (i : S256x256.Idx) :
    transpose S256x256 [1, 0] a transposes_S256x256_S256x256_1_0 i
      = Cert.Spec.uOf a ⟨(i 1).val, (i 1).isLt⟩ ⟨(i 0).val, (i 0).isLt⟩ := by
  unfold Cert.Spec.uOf
  refine transpose_apply _ a _ i _ ?_
  intro b
  match b with
  | ⟨0, _⟩ => rfl
  | ⟨1, _⟩ => rfl

/-- A vector seen as a one-column matrix: entry (k, 0) is entry k. -/
private theorem column_read (a : Cert.Spec.S1.Idx → EReal) (i : S256x1.Idx) :
    shapeCast S256x1 a shapeCasts_S256_S256x1 i = Cert.Spec.cvOf a ⟨(i 0).val, (i 0).isLt⟩ := by
  unfold Cert.Spec.cvOf
  refine shapeCast_apply a _ i _ ?_
  rw [Shape.rowMajor_val_one, Shape.rowMajor_val_two]
  have h1 : (i 1).val < 1 := (i 1).isLt
  show (i 0).val = (i 0).val * 1 + (i 1).val
  omega

theorem x_entry : (Hand.V1 m c main_v0 : S32x256x3136.Idx → EReal)
    = fun i => xin m c ⟨(i 0).val, (i 0).isLt⟩ ⟨(i 1).val, (i 1).isLt⟩ ⟨(i 2).val, (i 2).isLt⟩ := by
  show StableHlo.after hostOps0 _ (Proc.devRef .tc main_v0) = _
  after_results
  funext i
  exact merge_read (m ((c : Thread nD τ).loc main_arg0)) i
theorem ut_entry : (Hand.V1 m c main_v1 : S256x256.Idx → EReal)
    = fun i => uin m c ⟨(i 1).val, (i 1).isLt⟩ ⟨(i 0).val, (i 0).isLt⟩ := by
  show StableHlo.after hostOps0 _ (Proc.devRef .tc main_v1) = _
  after_results
  funext i
  exact swap_read (m ((c : Thread nD τ).loc main_arg1)) i
theorem cv_entry : (Hand.V1 m c main_v2 : S256x1.Idx → EReal) = fun i => cvin m c ⟨(i 0).val, (i 0).isLt⟩ := by
  show StableHlo.after hostOps0 _ (Proc.devRef .tc main_v2) = _
  after_results
  funext i
  exact column_read (m ((c : Thread nD τ).loc main_arg2)) i
theorem u_entry : (Hand.V1 m c main_arg1 : S256x256.Idx → EReal)
    = fun i => uin m c ⟨(i 0).val, (i 0).isLt⟩ ⟨(i 1).val, (i 1).isLt⟩ := by
  -- no operation of the stretch writes the argument
  have e : Hand.V1 m c main_arg1 = m ((c : Thread nD τ).loc main_arg1) :=
    StableHlo.after_of_writes_sub hostOps0 _ hostOps0_writes (by decide)
  rw [e]
  funext i
  show _ = Cert.Spec.uOf _ _ _
  unfold Cert.Spec.uOf
  exact congrArg _ (eq_ix2 i)

/-! ## Region 0 -/

/-- One step of the accumulation at channel k: the previous value plus the sum over the 3136 positions of relu of the
    block's row k. -/
private theorem step_at (v3 : Vec Ideal S1x256x3136 .f32) (v9 : Vec Ideal S256x1 .f32) (k : Fin 256) (q : Fin 1) :
    (k0_pay2 v3 v9 : S256x1.Idx → EReal) (ix2 k q)
      = v9 (ix2 k q) + ∑ p : Fin 3136, max (v3 (ix3 (0 : Fin 1) k p)) Cert.Spec.zeroW := by
  unfold k0_pay2
  dsimp only
  refine (congrFun (shapeCast_self _ shapeCasts_S256x1_S256x1) (ix2 k q)).trans ?_
  refine (addf_apply _ _ _).trans ?_
  refine congrArg (v9 (ix2 k q) + ·) ?_
  -- the lane sums as a column: entry (k, 0) is lane sum k
  refine (shapeCast_apply _ shapeCasts_S256_S256x1 (ix2 k q) (ix1 k) ?_).trans ?_
  · rw [Shape.rowMajor_val_one, Shape.rowMajor_val_two]
    have hq : q.val < 1 := q.isLt
    show k.val = k.val * 1 + q.val
    omega
  refine (Ideal.multiReduction_add_single _ _ reduces_S256x3136_S256 _ _ (ix1 k)).trans ?_
  refine Finset.sum_congr rfl fun p _ => ?_
  refine (maximumf_apply _ _ _).trans ?_
  refine congrArg (max · Cert.Spec.zeroW) ?_
  -- the block without its unit batch axis: entry (k, p) is entry (0, k, p)
  refine shapeCast_apply v3 shapeCasts_S1x256x3136_S256x3136 _ (ix3 (0 : Fin 1) k p) ?_
  rw [Shape.rowMajor_val_three, Shape.rowMajor_val_two]
  show ((0 : ℕ) * 256 + k.val) * 3136 + p.val = k.val * 3136 + p.val
  omega

/-- The column the accumulator starts from holds the zero word everywhere. -/
private theorem start_at (j : S256x1.Idx) : (k0_pay1 (F := Ideal) : S256x1.Idx → EReal) j = Cert.Spec.zeroW := by
  unfold k0_pay1
  exact congrFun (shapeCast_self _ shapeCasts_S256x1_S256x1) j

/-- The input window's block at point t is batch block t, whole in the other two axes. -/
private theorem in_index : ∀ t : Fin cfg0.N, win0_0.index t (0 : Fin 3) = t.val ∧ win0_0.index t (1 : Fin 3) = 0 ∧ win0_0.index t (2 : Fin 3) = 0 :=
  (by decide +kernel : ∀ t : Fin grid0.N, win0_0.index t (0 : Fin 3) = t.val ∧ win0_0.index t (1 : Fin 3) = 0 ∧ win0_0.index t (2 : Fin 3) = 0)

/-- The block of x that region 0 reads at point t. -/
private abbrev xblk (t : Fin cfg0.N) : Vec Ideal S1x256x3136 .f32 := iblk0 (Hand.V1 m) c 0 t

/-- Its entry (0, k, p) is x at batch block t, channel k, position p. -/
private theorem xblk_at (t : Fin cfg0.N) (k : Fin 256) (p : Fin 3136) :
    xblk m c t (ix3 (0 : Fin 1) k p) = xin m c ⟨t.val, t.isLt⟩ k p := by
  refine Eq.trans ?_ (congrFun (x_entry m c) (ix3 (⟨t.val, t.isLt⟩ : Fin 32) k p))
  show Hand.V1 m c main_v0 (((cfg0.win 0).blk t).view.emb (ix3 (0 : Fin 1) k p)) = Hand.V1 m c main_v0 (ix3 (⟨t.val, t.isLt⟩ : Fin 32) k p)
  obtain ⟨e0, e1, e2⟩ := in_index t
  refine congrArg _ (funext fun a => Fin.ext ?_)
  match a with
  | ⟨0, _⟩ => show win0_0.index t (0 : Fin 3) * 1 + 1 * 0 = t.val; omega
  | ⟨1, _⟩ => show win0_0.index t (1 : Fin 3) * 256 + 1 * k.val = k.val; omega
  | ⟨2, _⟩ => show win0_0.index t (2 : Fin 3) * 3136 + 1 * p.val = p.val; omega

/-- After point n the scratch holds, at channel k, the specification's running sum: by induction on the point, each
    step adding the lane sum of relu of the block the point reads. -/
private theorem sum0_at (k : Fin 256) (q : Fin 1) : ∀ (n : ℕ) (h : n < cfg0.N),
    (sum0 (Hand.V1 m) c n h : S256x1.Idx → EReal) (ix2 k q) = Cert.Spec.ksum (xin m c) k n
  | 0, h => by
    rw [sum0_zero]
    refine (step_at (xblk m c ⟨0, h⟩) (k0_pay1 (F := Ideal)) k q).trans ?_
    show _ = Cert.Spec.zeroW + ∑ p : Fin 3136, Cert.Spec.relu (xin m c) 0 k p
    rw [start_at]
    refine congrArg (Cert.Spec.zeroW + ·) (Finset.sum_congr rfl fun p _ => ?_)
    unfold Cert.Spec.relu
    rw [xblk_at]
    rfl
  | n + 1, h => by
    rw [sum0_succ]
    refine (step_at (xblk m c ⟨n + 1, h⟩) (sum0 (Hand.V1 m) c n (Nat.lt_of_succ_lt h)) k q).trans ?_
    show _ = Cert.Spec.ksum (xin m c) k n + ∑ p : Fin 3136, Cert.Spec.relu (xin m c) ⟨(n + 1) % 32, Nat.mod_lt _ (by decide)⟩ k p
    rw [sum0_at k q n (Nat.lt_of_succ_lt h)]
    refine congrArg (Cert.Spec.ksum (xin m c) k n + ·) (Finset.sum_congr rfl fun p _ => ?_)
    unfold Cert.Spec.relu
    rw [xblk_at]
    -- below 32 the remainder is the number itself
    have e : (⟨n + 1, h⟩ : Fin 32) = ⟨(n + 1) % 32, Nat.mod_lt _ (by decide)⟩ := Fin.ext (Nat.mod_eq_of_lt h).symm
    exact congrArg (fun b => max (xin m c b k p) Cert.Spec.zeroW) e

/-- The running sum depends on the point's number only. -/
private theorem sum0_congr (V : (c : Dev nD) → (b : Ref sig .tc) → Buf (Elt Ideal) ((c : Thread nD τ).loc b)) {a b : ℕ} (h : a = b) (ha : a < cfg0.N) (hb : b < cfg0.N) :
    sum0 V c a ha = sum0 V c b hb := by subst h; rfl

/-- The result window's one block sits at the origin at every point. -/
private theorem out_index : ∀ t : Fin cfg0.N, win0_1.index t (0 : Fin 2) = 0 ∧ win0_1.index t (1 : Fin 2) = 0 :=
  (by decide +kernel : ∀ t : Fin grid0.N, win0_1.index t (0 : Fin 2) = 0 ∧ win0_1.index t (1 : Fin 2) = 0)

/-- An index of the result array is in point t's block iff each coordinate is in the block's range on its axis. -/
private theorem mem_out_blk (t : Fin cfg0.N) (i : S256x1.Idx) :
    i ∈ ((cfg0.win 1).blk t).view.set ↔ ∀ a : Fin 2, win0_1.index t a * S256x1.size a ≤ (i a).val ∧ (i a).val < win0_1.index t a * S256x1.size a + S256x1.size a := by
  show i ∈ ((View.whole main_v3).slice (win0_1.rect t)).set ↔ _
  rw [View.set_slice_whole, Rect.mem_set_unit]
  exact Iff.rfl

/-- The result array after the region: only the last point writes back, and its block is the whole array, so the array
    ends at the running sum after the last point. -/
private theorem arr_last : (dat0 (Hand.V1 m) c).arrAt 1 cfg0.N = sum0 (Hand.V1 m) c 31 (by decide) := by
  refine (dat0 (Hand.V1 m) c).arrAt_eq_of_cover 1 _ (fun t hf => ?_) (fun i => ?_)
  · -- a point that writes back is the last one, and its block read back is the whole array
    have ht : t.val % 32 = 31 := (flush0_1 t).mp hf
    have hlt : t.val < 32 := t.isLt
    show (cfg0.win 1).cut (grid0.coords t) ((dat0 (Hand.V1 m) c).after 1 t) = _
    rw [after0_1, sum0_congr c (Hand.V1 m) (show t.val = 31 by omega) t.isLt (by decide)]
    funext y
    show sum0 (Hand.V1 m) c 31 (by decide) y = sum0 (Hand.V1 m) c 31 (by decide) (((cfg0.win 1).blk t).view.emb y)
    obtain ⟨e0, e1⟩ := out_index t
    refine congrArg _ (funext fun a => Fin.ext ?_)
    match a with
    | ⟨0, _⟩ => show (y 0).val = win0_1.index t (0 : Fin 2) * 256 + 1 * (y 0).val; omega
    | ⟨1, _⟩ => show (y 1).val = win0_1.index t (1 : Fin 2) * 1 + 1 * (y 1).val; omega
  · -- every index is in the last point's block
    refine ⟨⟨31, by decide⟩, (flush0_1 _).mpr rfl, ?_⟩
    rw [mem_out_blk]
    obtain ⟨e0, e1⟩ := out_index ⟨31, by decide⟩
    have h0 : (i 0).val < 256 := (i 0).isLt
    have h1 : (i 1).val < 1 := (i 1).isLt
    intro a
    match a with
    | ⟨0, _⟩ => show win0_1.index _ (0 : Fin 2) * 256 ≤ (i 0).val ∧ (i 0).val < win0_1.index _ (0 : Fin 2) * 256 + 256; omega
    | ⟨1, _⟩ => show win0_1.index _ (1 : Fin 2) * 1 ≤ (i 1).val ∧ (i 1).val < win0_1.index _ (1 : Fin 2) * 1 + 1; omega

/-- What region 0 leaves in its result: the running sum after the last block. -/
theorem sum_val : (Hand.V2 m c main_v3 : S256x1.Idx → EReal) = fun i => Cert.Spec.ksum (xin m c) ⟨(i 0).val, (i 0).isLt⟩ 31 := by
  have e : Hand.V2 m c main_v3 = (dat0 (Hand.V1 m) c).arrAt 1 cfg0.N := W2_arr m c 1
  refine (e.trans (arr_last m c)).trans ?_
  funext i
  obtain ⟨k, q, rfl⟩ : ∃ (k : Fin 256) (q : Fin 1), i = ix2 k q := ⟨i 0, i 1, eq_ix2 i⟩
  exact sum0_at m c k q 31 (by decide)

/-! ## The second host stretch -/

/-- A scalar constant spread over the column reads its word everywhere. -/
private theorem splat_read (w : BitVec 32) (i : S256x1.Idx) :
    broadcastInDim S256x1 ![] bcast_S_S256x1 (constant (F := Ideal) S_ .f32 w) i = Ideal.ofBits .f32 w :=
  (broadcastInDim_apply _ bcast_S_S256x1 (constant (F := Ideal) S_ .f32 w) i ix0 (fun a => a.elim0)).trans rfl

theorem mean_val : (Hand.V3 m c main_v5 : S256x1.Idx → EReal) = fun i => Cert.Spec.kmean (xin m c) ⟨(i 0).val, (i 0).isLt⟩ := by
  -- the stretch divides region 0's result by the count, spread over the column
  have e : (Hand.V3 m c main_v5 : S256x1.Idx → EReal)
      = Host.divf (F := Ideal) (Hand.V2 m c main_v3) (broadcastInDim S256x1 ![] bcast_S_S256x1 (constant (F := Ideal) S_ .f32 0x47C40000#32)) := by
    show StableHlo.after hostOps1 _ (Proc.devRef .tc main_v5) = _
    after_results
  rw [e, sum_val]
  funext i
  show Ideal.div _ _ = Ideal.div _ _
  rw [splat_read]

/-- The projection's dimension numbers: the left operand's row is the result's row … -/
private theorem lhs_proj_0 (i : S256x1.Idx) (q : dot_S256x256_S256x1_S256x1_1_0_0_1_n_n.contr.Idx) :
    (dot_S256x256_S256x1_S256x1_1_0_0_1_n_n.lhsIdx i q 0).val = (i 0).val := by
  unfold DotDims.lhsIdx
  rw [dif_neg (show ¬(0 : Fin S256x256.rank) ∈ dot_S256x256_S256x1_S256x1_1_0_0_1_n_n.lhsBatch by decide), dif_pos (show (0 : Fin S256x256.rank) ∈ dot_S256x256_S256x1_S256x1_1_0_0_1_n_n.lhsNonContracting by decide)]
  rfl
/-- … its column the contraction position … -/
private theorem lhs_proj_1 (i : S256x1.Idx) (q : dot_S256x256_S256x1_S256x1_1_0_0_1_n_n.contr.Idx) :
    (dot_S256x256_S256x1_S256x1_1_0_0_1_n_n.lhsIdx i q 1).val = (q ⟨0, by decide⟩).val :=
  dot_S256x256_S256x1_S256x1_1_0_0_1_n_n.lhsIdx_val_of_single rfl i q
/-- … the right operand's row the contraction position … -/
private theorem rhs_proj_0 (i : S256x1.Idx) (q : dot_S256x256_S256x1_S256x1_1_0_0_1_n_n.contr.Idx) :
    (dot_S256x256_S256x1_S256x1_1_0_0_1_n_n.rhsIdx i q 0).val = (q ⟨0, by decide⟩).val :=
  dot_S256x256_S256x1_S256x1_1_0_0_1_n_n.rhsIdx_val_of_single rfl i q
/-- … and its column the result's column. -/
private theorem rhs_proj_1 (i : S256x1.Idx) (q : dot_S256x256_S256x1_S256x1_1_0_0_1_n_n.contr.Idx) :
    (dot_S256x256_S256x1_S256x1_1_0_0_1_n_n.rhsIdx i q 1).val = (i 1).val := by
  unfold DotDims.rhsIdx
  rw [dif_neg (show ¬(1 : Fin S256x1.rank) ∈ dot_S256x256_S256x1_S256x1_1_0_0_1_n_n.rhsBatch by decide), dif_pos (show (1 : Fin S256x1.rank) ∈ dot_S256x256_S256x1_S256x1_1_0_0_1_n_n.rhsNonContracting by decide)]
  rfl

/-- The matrix–column product at row r: the sum over k of the matrix's (r, k) times the column's (k, 0). -/
private theorem proj_read (l : FVec Ideal S256x256 .f32) (r : FVec Ideal S256x1 .f32) (i : S256x1.Idx) :
    Host.dotGeneral (F := Ideal) dot_S256x256_S256x1_S256x1_1_0_0_1_n_n none l r i
      = ∑ k : Fin 256, l (ix2 (⟨(i 0).val, (i 0).isLt⟩ : Fin 256) k) * r (ix2 k (⟨(i 1).val, (i 1).isLt⟩ : Fin 1)) := by
  simp only [Host.dotGeneral]
  rw [Ideal.dotGeneral_apply, ← Equiv.sum_comp (contrEquiv1 dot_S256x256_S256x1_S256x1_1_0_0_1_n_n 256 rfl rfl).symm]
  refine Finset.sum_congr rfl fun k _ => ?_
  have hk := contrEquiv1_symm_val dot_S256x256_S256x1_S256x1_1_0_0_1_n_n 256 rfl rfl k
  have el : dot_S256x256_S256x1_S256x1_1_0_0_1_n_n.lhsIdx i ((contrEquiv1 dot_S256x256_S256x1_S256x1_1_0_0_1_n_n 256 rfl rfl).symm k)
      = ix2 (⟨(i 0).val, (i 0).isLt⟩ : Fin 256) k := funext fun a => Fin.ext (by
    match a with
    | ⟨0, _⟩ => exact lhs_proj_0 _ _
    | ⟨1, _⟩ => exact (lhs_proj_1 _ _).trans hk)
  have er : dot_S256x256_S256x1_S256x1_1_0_0_1_n_n.rhsIdx i ((contrEquiv1 dot_S256x256_S256x1_S256x1_1_0_0_1_n_n 256 rfl rfl).symm k)
      = ix2 k (⟨(i 1).val, (i 1).isLt⟩ : Fin 1) := funext fun a => Fin.ext (by
    match a with
    | ⟨0, _⟩ => exact (rhs_proj_0 _ _).trans hk
    | ⟨1, _⟩ => exact rhs_proj_1 _ _)
  rw [el, er]

theorem V3_ut : Hand.V3 m c main_v1 = Hand.V1 m c main_v1 :=
  (StableHlo.after_of_writes_sub hostOps1 _ hostOps1_writes (by decide)).trans (W2_of_ne m c main_v1 (by decide))

theorem meanProj_val : (Hand.V3 m c main_v6 : S256x1.Idx → EReal)
    = fun i => Cert.Spec.kmeanProj (xin m c) (uin m c) ⟨(i 0).val, (i 0).isLt⟩ := by
  -- the stretch multiplies uᵀ, as it stands after the stretch, by the mean it has just made
  have e6 : (Hand.V3 m c main_v6 : S256x1.Idx → EReal)
      = Host.dotGeneral (F := Ideal) (φ₁ := .f32) (φ₂ := .f32) dot_S256x256_S256x1_S256x1_1_0_0_1_n_n none (Hand.V3 m c main_v1) (Hand.V3 m c main_v5) := by
    show StableHlo.after hostOps1 (Hand.W2 m c) (Proc.devRef .tc main_v6)
      = Host.dotGeneral (F := Ideal) (φ₁ := .f32) (φ₂ := .f32) dot_S256x256_S256x1_S256x1_1_0_0_1_n_n none
          (StableHlo.after hostOps1 (Hand.W2 m c) (Proc.devRef .tc main_v1)) (StableHlo.after hostOps1 (Hand.W2 m c) (Proc.devRef .tc main_v5))
    after_results
  have e1 : (Hand.V3 m c main_v1 : S256x256.Idx → EReal) = fun i => uin m c ⟨(i 1).val, (i 1).isLt⟩ ⟨(i 0).val, (i 0).isLt⟩ :=
    (V3_ut m c).trans (ut_entry m c)
  rw [e6, e1, mean_val]
  funext i
  refine (proj_read _ _ i).trans ?_
  rfl

/-! ## What regions 0 and the second host stretch leave untouched -/

theorem V3_x : Hand.V3 m c main_v0 = Hand.V1 m c main_v0 := by
  -- region 0 only reads x: an input window's array is never written back
  have e3 : Hand.V3 m c main_v0 = Hand.W2 m c (Proc.devRef .tc main_v0) :=
    StableHlo.after_of_writes_sub hostOps1 _ hostOps1_writes (by decide)
  have e2 : Hand.W2 m c (Proc.devRef .tc main_v0) = (dat0 (Hand.V1 m) c).arrAt 0 cfg0.N := W2_arr m c 0
  rw [e3, e2, (dat0 (Hand.V1 m) c).arrAt_in 0 rfl cfg0.N, A_eq0]
theorem V3_cv : Hand.V3 m c main_v2 = Hand.V1 m c main_v2 :=
  (StableHlo.after_of_writes_sub hostOps1 _ hostOps1_writes (by decide)).trans (W2_of_ne m c main_v2 (by decide))
theorem V3_u : Hand.V3 m c main_arg1 = Hand.V1 m c main_arg1 :=
  (StableHlo.after_of_writes_sub hostOps1 _ hostOps1_writes (by decide)).trans (W2_of_ne m c main_arg1 (by decide))

end Cert.KernelIdeal.HandValue

end
-- ==== Proof.KI.Val1.lean ====
/-
  The kernel's value, second stage: what region 1 leaves — the per-channel minimum and maximum of the clamped
  projection, folded block by block — and the scale the third host stretch makes of them.
-/
import proofs.«103972_j30554397343924_1_alg».proof.Proof.KI.Val0

set_option maxRecDepth 16384

noncomputable section

namespace Cert.KernelIdeal.HandValue

open Idealize.ShloMosaic Idealize.ShloMosaic.TcCoe Idealize.SL.Sem
open Idealize.ShloMosaic.Pipeline (Dat Cfg Window)
open Cert.KernelIdeal Cert.KernelIdeal.Gen Cert.KernelIdeal.Hand

variable (m : (ℓ : Loc nD τ sig) → Buf (Elt Ideal) ℓ) (c : Dev nD)

open Idealize.ShloMosaic.ValueIdx

/-! ## The clamped projection of one block, at an index -/

/-- The product's operand indices, coordinate by coordinate: at output (k, p) and contraction index q the left operand
    is read at (k, q), the right at (q, p). -/
private theorem r1_mm_lhs0 (i : S256x3136.Idx) (q : dot_S256x256_S256x3136_S256x3136_1_0_0_1_n_n.contr.Idx) :
    (dot_S256x256_S256x3136_S256x3136_1_0_0_1_n_n.lhsIdx i q 0).val = (i 0).val := by
  unfold DotDims.lhsIdx
  rw [dif_neg (show ¬(0 : Fin S256x256.rank) ∈ dot_S256x256_S256x3136_S256x3136_1_0_0_1_n_n.lhsBatch by decide), dif_pos (show (0 : Fin S256x256.rank) ∈ dot_S256x256_S256x3136_S256x3136_1_0_0_1_n_n.lhsNonContracting by decide)]
  rfl
private theorem r1_mm_lhs1 (i : S256x3136.Idx) (q : dot_S256x256_S256x3136_S256x3136_1_0_0_1_n_n.contr.Idx) :
    (dot_S256x256_S256x3136_S256x3136_1_0_0_1_n_n.lhsIdx i q 1).val = (q ⟨0, by decide⟩).val :=
  dot_S256x256_S256x3136_S256x3136_1_0_0_1_n_n.lhsIdx_val_of_single rfl i q
private theorem r1_mm_rhs0 (i : S256x3136.Idx) (q : dot_S256x256_S256x3136_S256x3136_1_0_0_1_n_n.contr.Idx) :
    (dot_S256x256_S256x3136_S256x3136_1_0_0_1_n_n.rhsIdx i q 0).val = (q ⟨0, by decide⟩).val :=
  dot_S256x256_S256x3136_S256x3136_1_0_0_1_n_n.rhsIdx_val_of_single rfl i q
private theorem r1_mm_rhs1 (i : S256x3136.Idx) (q : dot_S256x256_S256x3136_S256x3136_1_0_0_1_n_n.contr.Idx) :
    (dot_S256x256_S256x3136_S256x3136_1_0_0_1_n_n.rhsIdx i q 1).val = (i 1).val := by
  unfold DotDims.rhsIdx
  rw [dif_neg (show ¬(1 : Fin S256x3136.rank) ∈ dot_S256x256_S256x3136_S256x3136_1_0_0_1_n_n.rhsBatch by decide), dif_pos (show (1 : Fin S256x3136.rank) ∈ dot_S256x256_S256x3136_S256x3136_1_0_0_1_n_n.rhsNonContracting by decide)]
  rfl

/-- The product into the zero accumulator, at (k, p): the sum over the contracted channel. -/
private theorem r1_mm_apply (l : FVec Ideal S256x256 .bf16) (r : FVec Ideal S256x3136 .bf16) (k : Fin 256) (p : Fin 3136) :
    matmul (F := Ideal) dot_S256x256_S256x3136_S256x3136_1_0_0_1_n_n none l r (constant (F := Ideal) S256x3136 .f32 0x00000000#32) (ix2 k p)
      = ∑ ch : Fin 256, l (ix2 k ch) * r (ix2 ch p) := by
  refine (Ideal.matmul_constant_zero_apply dot_S256x256_S256x3136_S256x3136_1_0_0_1_n_n none l r (ix2 k p)).trans ?_
  rw [← Equiv.sum_comp (contrEquiv1 dot_S256x256_S256x3136_S256x3136_1_0_0_1_n_n 256 rfl rfl).symm]
  refine Finset.sum_congr rfl fun ch _ => ?_
  have hk := contrEquiv1_symm_val dot_S256x256_S256x3136_S256x3136_1_0_0_1_n_n 256 rfl rfl ch
  have el : dot_S256x256_S256x3136_S256x3136_1_0_0_1_n_n.lhsIdx (ix2 k p) ((contrEquiv1 dot_S256x256_S256x3136_S256x3136_1_0_0_1_n_n 256 rfl rfl).symm ch) = ix2 k ch := funext fun a => Fin.ext (by
    match a with
    | ⟨0, _⟩ => exact r1_mm_lhs0 _ _
    | ⟨1, _⟩ => exact (r1_mm_lhs1 _ _).trans hk)
  have er : dot_S256x256_S256x3136_S256x3136_1_0_0_1_n_n.rhsIdx (ix2 k p) ((contrEquiv1 dot_S256x256_S256x3136_S256x3136_1_0_0_1_n_n 256 rfl rfl).symm ch) = ix2 ch p := funext fun a => Fin.ext (by
    match a with
    | ⟨0, _⟩ => exact (r1_mm_rhs0 _ _).trans hk
    | ⟨1, _⟩ => exact r1_mm_rhs1 _ _)
  rw [el, er]

/-- A column broadcast along the lanes reads its row. -/
private theorem r1_col_bcast (v : FVec Ideal S256x1 .f32) (k : Fin 256) (p : Fin 3136) :
    broadcastTo S256x3136 v broadcasts_S256x1_S256x3136 (ix2 k p) = v (ix2 k 0) :=
  broadcastTo_apply v broadcasts_S256x1_S256x3136 (ix2 k p) (ix2 k 0) fun a => by
    match a with
    | ⟨0, _⟩ => rfl
    | ⟨1, _⟩ => rfl

/-- The clamped projection of a block at (k, p): min(cv k, max(0 − cv k, Σ_ch uᵀ[k, ch] · max(x[ch, p], 0) − mc k)).
    The format changes around the product are the identity on the extended reals. -/
private theorem r1_pay4_apply (x : Vec Ideal S1x256x3136 .f32) (ut : Vec Ideal S256x256 .f32) (mc cv : Vec Ideal S256x1 .f32)
    (k : Fin 256) (p : Fin 3136) :
    k1_pay4 x ut mc cv (ix2 k p)
      = min (cv (ix2 k 0)) (max (Cert.Spec.zeroW - cv (ix2 k 0))
          ((∑ ch : Fin 256, ut (ix2 k ch) * max (x (ix3 0 ch p)) Cert.Spec.zeroW) - mc (ix2 k 0))) := by
  unfold k1_pay4
  rw [minimumf_apply, maximumf_apply, subf_apply, r1_col_bcast, r1_col_bcast, r1_col_bcast]
  simp only [shapeCast_self]
  rw [r1_mm_apply]
  refine congrArg₂ min rfl (congrArg₂ max rfl (congrArg₂ (fun a b : EReal => a - b) ?_ rfl))
  refine Finset.sum_congr rfl fun ch _ => ?_
  show ut (ix2 k ch) * max (shapeCast S256x3136 x shapeCasts_S1x256x3136_S256x3136 (ix2 ch p)) Cert.Spec.zeroW = _
  rw [shapeCast_1ab_ab_apply]

/-- The lane minimum of a [256, 3136] block as a column, at row k: the fold of min over the 3136 lanes. -/
private theorem r1_lane_min {s t : Shape} {a : Fin s.rank} {φ : FTy} (src : FVec Ideal s φ) (acc : BitVec φ.bits)
    (h : s.Reduces [a] t) (hφ : FKind.Formats φ) (hacc : acc = FKind.minimumf.neutral φ hφ) (j : t.Idx) :
    multiReduction .minimumf [a] t src acc h hφ hacc j
      = (Finset.univ : Finset (Fin (s.size a))).fold min (FloatOps.ofBits φ acc) (src ∘ h.lift j) := by
  rw [multiReduction_minimumf_eq_fold]; exact h.fold_filter_drop_single _ _ src j

/-- The index over row k with lane p put back is (k, p). -/
private theorem r1_lift_lane (k : Fin 256) (p : Fin 3136) :
    reduces_S256x3136_S256.lift (ix1 k) p = ix2 k p :=
  funext fun a => Fin.ext (by
    match a with
    | ⟨0, _⟩ => rfl
    | ⟨1, _⟩ => rfl)

/-- A length-256 vector viewed as a column reads, at (k, 0), its entry k. -/
private theorem r1_col_of_vec (v : FVec Ideal S256 .f32) (k : Fin 256) :
    shapeCast S256x1 v shapeCasts_S256_S256x1 (ix2 k 0) = v (ix1 k) :=
  shapeCast_apply v shapeCasts_S256_S256x1 (ix2 k 0) (ix1 k) (by
    rw [Shape.rowMajor_val_two, Shape.rowMajor_val_one]
    show k.val = k.val * 1 + 0
    omega)

/-- One step of the running minimum at row k: the carried value against the lane minimum of the block's clamped projection. -/
private theorem r1_pay5_apply (x : Vec Ideal S1x256x3136 .f32) (ut : Vec Ideal S256x256 .f32) (mc cv s : Vec Ideal S256x1 .f32)
    (k : Fin 256) :
    k1_pay5 x ut mc cv s (ix2 k 0)
      = min (s (ix2 k 0)) ((Finset.univ : Finset (Fin 3136)).fold min Cert.Spec.pinfW fun p => k1_pay4 x ut mc cv (ix2 k p)) := by
  unfold k1_pay5
  rw [shapeCast_self, minimumf_apply, r1_col_of_vec]
  refine congrArg (min (s (ix2 k 0))) ?_
  refine (r1_lane_min (k1_pay4 x ut mc cv) 0x7F800000#32 reduces_S256x3136_S256 (.inl rfl) rfl (ix1 k)).trans ?_
  refine congrArg₂ (fun (b : EReal) (f : Fin 3136 → EReal) => Finset.fold min b f Finset.univ) rfl (funext fun p => ?_)
  exact congrArg (k1_pay4 x ut mc cv) (r1_lift_lane k p)

/-- One step of the running maximum at row k: the carried value against the lane maximum of the block's clamped projection. -/
private theorem r1_pay6_apply (x : Vec Ideal S1x256x3136 .f32) (ut : Vec Ideal S256x256 .f32) (mc cv s : Vec Ideal S256x1 .f32)
    (k : Fin 256) :
    k1_pay1 (k1_pay6 x ut mc cv s) (ix2 k 0)
      = max (s (ix2 k 0)) ((Finset.univ : Finset (Fin 3136)).fold max Cert.Spec.ninfW fun p => k1_pay4 x ut mc cv (ix2 k p)) := by
  unfold k1_pay1 k1_pay6
  rw [shapeCast_self, maximumf_apply, r1_col_of_vec]
  refine congrArg (max (s (ix2 k 0))) ?_
  refine (Ideal.multiReduction_maximumf_single (k1_pay4 x ut mc cv) 0xFF800000#32 reduces_S256x3136_S256 (.inl rfl) rfl (ix1 k)).trans ?_
  refine congrArg₂ (fun (b : EReal) (f : Fin 3136 → EReal) => Finset.fold max b f Finset.univ) rfl (funext fun p => ?_)
  exact congrArg (k1_pay4 x ut mc cv) (r1_lift_lane k p)

/-! ## The blocks region 1 reads, at an index -/

private theorem r1_hN1 : cfg1.N = 32 := N_1

/-- The block index maps over the grid: x's block moves along the batch axis; the other three windows stay. -/
private theorem r1_idx1_facts : ∀ t : Fin cfg1.N,
    win1_0.index t (0 : Fin 3) = t.val ∧ win1_0.index t (1 : Fin 3) = 0 ∧ win1_0.index t (2 : Fin 3) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0 :=
  (by decide +kernel : ∀ t : Fin grid1.N, _)

private abbrev r1_xblk (t : Fin cfg1.N) : Vec Ideal S1x256x3136 .f32 := iblk1 (Hand.V3 m) c 0 t
private abbrev r1_utblk (t : Fin cfg1.N) : Vec Ideal S256x256 .f32 := iblk1 (Hand.V3 m) c 1 t
private abbrev r1_mcblk (t : Fin cfg1.N) : Vec Ideal S256x1 .f32 := iblk1 (Hand.V3 m) c 2 t
private abbrev r1_cvblk (t : Fin cfg1.N) : Vec Ideal S256x1 .f32 := iblk1 (Hand.V3 m) c 3 t

/-- Block t of x is batch t of the input; uᵀ, the projected mean and the clamp column are read whole at every point. -/
private theorem r1_xblk_apply (t : Fin cfg1.N) (b : Fin 32) (hb : b.val = t.val) (ch : Fin 256) (p : Fin 3136) :
    r1_xblk m c t (ix3 0 ch p) = xin m c b ch p := by
  obtain ⟨e0, e1, e2, -⟩ := r1_idx1_facts t
  unfold r1_xblk iblk1
  rw [View.read_apply]
  show Hand.V3 m c main_v0 (((cfg1.win 0).blk t).view.emb (ix3 0 ch p)) = _
  rw [V3_x, x_entry]
  have h0 : ((((cfg1.win 0).blk t).view.emb (ix3 0 ch p)) 0).val = b.val := by
    show win1_0.index t (0 : Fin 3) * 1 + 1 * 0 = b.val
    rw [e0, hb]; omega
  have h1 : ((((cfg1.win 0).blk t).view.emb (ix3 0 ch p)) 1).val = ch.val := by
    show win1_0.index t (1 : Fin 3) * 256 + 1 * ch.val = ch.val
    rw [e1]; omega
  have h2 : ((((cfg1.win 0).blk t).view.emb (ix3 0 ch p)) 2).val = p.val := by
    show win1_0.index t (2 : Fin 3) * 3136 + 1 * p.val = p.val
    rw [e2]; omega
  exact congr (congr (congrArg (xin m c) (Fin.ext h0)) (Fin.ext h1)) (Fin.ext h2)

private theorem r1_utblk_apply (t : Fin cfg1.N) (k ch : Fin 256) :
    r1_utblk m c t (ix2 k ch) = uin m c ch k := by
  obtain ⟨-, -, -, e0, e1, -⟩ := r1_idx1_facts t
  unfold r1_utblk iblk1
  rw [View.read_apply]
  show Hand.V3 m c main_v1 (((cfg1.win 1).blk t).view.emb (ix2 k ch)) = _
  rw [V3_ut, ut_entry]
  have h0 : ((((cfg1.win 1).blk t).view.emb (ix2 k ch)) 0).val = k.val := by
    show win1_1.index t (0 : Fin 2) * 256 + 1 * k.val = k.val
    rw [e0]; omega
  have h1 : ((((cfg1.win 1).blk t).view.emb (ix2 k ch)) 1).val = ch.val := by
    show win1_1.index t (1 : Fin 2) * 256 + 1 * ch.val = ch.val
    rw [e1]; omega
  exact congr (congrArg (uin m c) (Fin.ext h1)) (Fin.ext h0)

private theorem r1_mcblk_apply (t : Fin cfg1.N) (k : Fin 256) :
    r1_mcblk m c t (ix2 k 0) = Cert.Spec.kmeanProj (xin m c) (uin m c) k := by
  obtain ⟨-, -, -, -, -, e0, e1, -⟩ := r1_idx1_facts t
  unfold r1_mcblk iblk1
  rw [View.read_apply]
  show Hand.V3 m c main_v6 (((cfg1.win 2).blk t).view.emb (ix2 k 0)) = _
  rw [meanProj_val]
  have h0 : ((((cfg1.win 2).blk t).view.emb (ix2 k (0 : Fin 1))) 0).val = k.val := by
    show win1_2.index t (0 : Fin 2) * 256 + 1 * k.val = k.val
    rw [e0]; omega
  exact congrArg (Cert.Spec.kmeanProj (xin m c) (uin m c)) (Fin.ext h0)

private theorem r1_cvblk_apply (t : Fin cfg1.N) (k : Fin 256) :
    r1_cvblk m c t (ix2 k 0) = cvin m c k := by
  obtain ⟨-, -, -, -, -, -, -, e0, e1⟩ := r1_idx1_facts t
  unfold r1_cvblk iblk1
  rw [View.read_apply]
  show Hand.V3 m c main_v2 (((cfg1.win 3).blk t).view.emb (ix2 k 0)) = _
  rw [V3_cv, cv_entry]
  have h0 : ((((cfg1.win 3).blk t).view.emb (ix2 k (0 : Fin 1))) 0).val = k.val := by
    show win1_3.index t (0 : Fin 2) * 256 + 1 * k.val = k.val
    rw [e0]; omega
  exact congrArg (cvin m c) (Fin.ext h0)

/-- One block's clamped projection, at (k, p): the specification's. -/
private theorem r1_clamp_blk (t : Fin cfg1.N) (b : Fin 32) (hb : b.val = t.val) (k : Fin 256) (p : Fin 3136) :
    k1_pay4 (r1_xblk m c t) (r1_utblk m c t) (r1_mcblk m c t) (r1_cvblk m c t) (ix2 k p)
      = Cert.Spec.kclamp (xin m c) (uin m c) (cvin m c) k b p := by
  refine (r1_pay4_apply (r1_xblk m c t) (r1_utblk m c t) (r1_mcblk m c t) (r1_cvblk m c t) k p).trans ?_
  rw [r1_cvblk_apply, r1_mcblk_apply]
  unfold Cert.Spec.kclamp Cert.Spec.kproj
  refine congrArg (fun s : EReal => min (cvin m c k) (max (Cert.Spec.zeroW - cvin m c k) (s - Cert.Spec.kmeanProj (xin m c) (uin m c) k))) ?_
  refine Finset.sum_congr rfl fun ch _ => ?_
  rw [r1_utblk_apply, r1_xblk_apply m c t b hb]
  rfl

/-! ## The running extrema are the specification's -/

private theorem r1_mod32 (n : ℕ) (h : n + 1 < cfg1.N) : (n + 1) % 32 = n + 1 :=
  Nat.mod_eq_of_lt (by have := h; rw [r1_hN1] at this; exact this)

private theorem r1_kmin_succ (x : Fin 32 → Fin 256 → Fin 3136 → EReal) (u : Fin 256 → Fin 256 → EReal) (cv : Fin 256 → EReal) (k : Fin 256) (n : ℕ) :
    Cert.Spec.kmin x u cv k (n + 1) = min (Cert.Spec.kmin x u cv k n)
      ((Finset.univ : Finset (Fin 3136)).fold min Cert.Spec.pinfW fun p => Cert.Spec.kclamp x u cv k ⟨(n + 1) % 32, Nat.mod_lt _ (by decide)⟩ p) := rfl
private theorem r1_kmax_succ (x : Fin 32 → Fin 256 → Fin 3136 → EReal) (u : Fin 256 → Fin 256 → EReal) (cv : Fin 256 → EReal) (k : Fin 256) (n : ℕ) :
    Cert.Spec.kmax x u cv k (n + 1) = max (Cert.Spec.kmax x u cv k n)
      ((Finset.univ : Finset (Fin 3136)).fold max Cert.Spec.ninfW fun p => Cert.Spec.kclamp x u cv k ⟨(n + 1) % 32, Nat.mod_lt _ (by decide)⟩ p) := rfl

/-- By induction on the block: the running minimum after block n is the specification's. -/
private theorem r1_min1_eq : ∀ (n : ℕ) (h : n < cfg1.N) (k : Fin 256),
    min1 (Hand.V3 m) c n h (ix2 k 0) = Cert.Spec.kmin (xin m c) (uin m c) (cvin m c) k n
  | 0, h, k => by
    rw [min1_zero]
    refine (r1_pay5_apply (r1_xblk m c ⟨0, h⟩) (r1_utblk m c ⟨0, h⟩) (r1_mcblk m c ⟨0, h⟩) (r1_cvblk m c ⟨0, h⟩) (k1_pay2 (F := Ideal)) k).trans ?_
    unfold Cert.Spec.kmin
    exact congrArg₂ min rfl (congrArg (fun f : Fin 3136 → EReal => Finset.fold min Cert.Spec.pinfW f Finset.univ)
      (funext fun p => r1_clamp_blk m c ⟨0, h⟩ 0 rfl k p))
  | n + 1, h, k => by
    rw [min1_succ]
    refine (r1_pay5_apply (r1_xblk m c ⟨n + 1, h⟩) (r1_utblk m c ⟨n + 1, h⟩) (r1_mcblk m c ⟨n + 1, h⟩) (r1_cvblk m c ⟨n + 1, h⟩)
      (min1 (Hand.V3 m) c n (Nat.lt_of_succ_lt h)) k).trans ?_
    rw [r1_min1_eq n (Nat.lt_of_succ_lt h) k, r1_kmin_succ]
    exact congrArg₂ min rfl (congrArg (fun f : Fin 3136 → EReal => Finset.fold min Cert.Spec.pinfW f Finset.univ)
      (funext fun p => r1_clamp_blk m c ⟨n + 1, h⟩ ⟨(n + 1) % 32, Nat.mod_lt _ (by decide)⟩ (r1_mod32 n h) k p))

/-- Likewise the running maximum. -/
private theorem r1_max1_eq : ∀ (n : ℕ) (h : n < cfg1.N) (k : Fin 256),
    max1 (Hand.V3 m) c n h (ix2 k 0) = Cert.Spec.kmax (xin m c) (uin m c) (cvin m c) k n
  | 0, h, k => by
    rw [max1_zero]
    refine (r1_pay6_apply (r1_xblk m c ⟨0, h⟩) (r1_utblk m c ⟨0, h⟩) (r1_mcblk m c ⟨0, h⟩) (r1_cvblk m c ⟨0, h⟩) (k1_pay3 (F := Ideal)) k).trans ?_
    unfold Cert.Spec.kmax
    exact congrArg₂ max rfl (congrArg (fun f : Fin 3136 → EReal => Finset.fold max Cert.Spec.ninfW f Finset.univ)
      (funext fun p => r1_clamp_blk m c ⟨0, h⟩ 0 rfl k p))
  | n + 1, h, k => by
    rw [max1_succ]
    refine (r1_pay6_apply (r1_xblk m c ⟨n + 1, h⟩) (r1_utblk m c ⟨n + 1, h⟩) (r1_mcblk m c ⟨n + 1, h⟩) (r1_cvblk m c ⟨n + 1, h⟩)
      (max1 (Hand.V3 m) c n (Nat.lt_of_succ_lt h)) k).trans ?_
    rw [r1_max1_eq n (Nat.lt_of_succ_lt h) k, r1_kmax_succ]
    exact congrArg₂ max rfl (congrArg (fun f : Fin 3136 → EReal => Finset.fold max Cert.Spec.ninfW f Finset.univ)
      (funext fun p => r1_clamp_blk m c ⟨n + 1, h⟩ ⟨(n + 1) % 32, Nat.mod_lt _ (by decide)⟩ (r1_mod32 n h) k p))

/-! ## What region 1 leaves in its two result arrays -/

private theorem r1_h31 : 31 < cfg1.N := by rw [r1_hN1]; decide

/-- The running minimum after the last block, as the contents of the result array (its one block is the array). -/
private abbrev r1_minRes : Buf (Elt Ideal) ((c : Thread nD τ).loc main_v7_0) := min1 (Hand.V3 m) c 31 r1_h31
private abbrev r1_maxRes : Buf (Elt Ideal) ((c : Thread nD τ).loc main_v7_1) := max1 (Hand.V3 m) c 31 r1_h31

/-- The one write-back, after the last block, writes the whole column: block (0, 0) of the [256, 1] array at zero offsets is the array. -/
private theorem r1_flushed_min (t : Fin cfg1.N) (hf : (cfg1.win 4).flush t = true) :
    (dat1 (Hand.V3 m) c).flushed 4 t = ((cfg1.win 4).blk t).view.read (Elt Ideal) (r1_minRes m c) := by
  have ht : t.val = 31 := by have := (flush1_4 t).mp hf; have h2 : t.val < 32 := lt_of_lt_of_eq t.isLt r1_hN1; omega
  obtain rfl : t = ⟨31, r1_h31⟩ := Fin.ext ht
  show (cfg1.win 4).cut (grid1.coords ⟨31, r1_h31⟩) ((dat1 (Hand.V3 m) c).after 4 ⟨31, r1_h31⟩) = _
  rw [after1_4]
  have hz' : (fun a => win1_4.index ⟨31, r1_h31⟩ a * main_v7_0.ty.shape.size a) = fun _ => 0 := funext fun a => by fin_cases a <;> decide +kernel
  exact (Memref.read_access_unit_zero (Elt Ideal) main_v7_0 hz' (fun a => by rw [congrFun hz' a]; simp) (r1_minRes m c)).symm

private theorem r1_arr_min : Hand.V4 m c main_v7_0 = r1_minRes m c := by
  refine (W4_arr m c 4).trans ?_
  exact (dat1 (Hand.V3 m) c).arrAt_eq_of_cover 4 (r1_minRes m c) (r1_flushed_min m c) fun i =>
    ⟨⟨31, r1_h31⟩, (flush1_4 ⟨31, r1_h31⟩).mpr rfl, by
      show i ∈ ((View.whole main_v7_0).slice (win1_4.rect ⟨31, r1_h31⟩)).set
      rw [View.set_slice_whole, Rect.mem_set_unit]
      intro a
      have h0 : (i 0 : Nat) < 256 := (i 0).isLt
      have h1 : (i 1 : Nat) < 1 := (i 1).isLt
      match a with
      | ⟨0, _⟩ => show win1_4.index ⟨31, r1_h31⟩ 0 * win1_4.size 0 ≤ (i 0 : Nat) ∧ (i 0 : Nat) < win1_4.index ⟨31, r1_h31⟩ 0 * win1_4.size 0 + win1_4.xsize (grid1.coords ⟨31, r1_h31⟩) 0
                  rw [show win1_4.index ⟨31, r1_h31⟩ 0 * win1_4.size 0 = 0 from by decide +kernel, show win1_4.xsize (grid1.coords ⟨31, r1_h31⟩) 0 = 256 from by decide +kernel]; omega
      | ⟨1, _⟩ => show win1_4.index ⟨31, r1_h31⟩ 1 * win1_4.size 1 ≤ (i 1 : Nat) ∧ (i 1 : Nat) < win1_4.index ⟨31, r1_h31⟩ 1 * win1_4.size 1 + win1_4.xsize (grid1.coords ⟨31, r1_h31⟩) 1
                  rw [show win1_4.index ⟨31, r1_h31⟩ 1 * win1_4.size 1 = 0 from by decide +kernel, show win1_4.xsize (grid1.coords ⟨31, r1_h31⟩) 1 = 1 from by decide +kernel]; omega⟩

private theorem r1_flushed_max (t : Fin cfg1.N) (hf : (cfg1.win 5).flush t = true) :
    (dat1 (Hand.V3 m) c).flushed 5 t = ((cfg1.win 5).blk t).view.read (Elt Ideal) (r1_maxRes m c) := by
  have ht : t.val = 31 := by have := (flush1_5 t).mp hf; have h2 : t.val < 32 := lt_of_lt_of_eq t.isLt r1_hN1; omega
  obtain rfl : t = ⟨31, r1_h31⟩ := Fin.ext ht
  show (cfg1.win 5).cut (grid1.coords ⟨31, r1_h31⟩) ((dat1 (Hand.V3 m) c).after 5 ⟨31, r1_h31⟩) = _
  rw [after1_5]
  have hz' : (fun a => win1_5.index ⟨31, r1_h31⟩ a * main_v7_1.ty.shape.size a) = fun _ => 0 := funext fun a => by fin_cases a <;> decide +kernel
  exact (Memref.read_access_unit_zero (Elt Ideal) main_v7_1 hz' (fun a => by rw [congrFun hz' a]; simp) (r1_maxRes m c)).symm

private theorem r1_arr_max : Hand.V4 m c main_v7_1 = r1_maxRes m c := by
  refine (W4_arr m c 5).trans ?_
  exact (dat1 (Hand.V3 m) c).arrAt_eq_of_cover 5 (r1_maxRes m c) (r1_flushed_max m c) fun i =>
    ⟨⟨31, r1_h31⟩, (flush1_5 ⟨31, r1_h31⟩).mpr rfl, by
      show i ∈ ((View.whole main_v7_1).slice (win1_5.rect ⟨31, r1_h31⟩)).set
      rw [View.set_slice_whole, Rect.mem_set_unit]
      intro a
      have h0 : (i 0 : Nat) < 256 := (i 0).isLt
      have h1 : (i 1 : Nat) < 1 := (i 1).isLt
      match a with
      | ⟨0, _⟩ => show win1_5.index ⟨31, r1_h31⟩ 0 * win1_5.size 0 ≤ (i 0 : Nat) ∧ (i 0 : Nat) < win1_5.index ⟨31, r1_h31⟩ 0 * win1_5.size 0 + win1_5.xsize (grid1.coords ⟨31, r1_h31⟩) 0
                  rw [show win1_5.index ⟨31, r1_h31⟩ 0 * win1_5.size 0 = 0 from by decide +kernel, show win1_5.xsize (grid1.coords ⟨31, r1_h31⟩) 0 = 256 from by decide +kernel]; omega
      | ⟨1, _⟩ => show win1_5.index ⟨31, r1_h31⟩ 1 * win1_5.size 1 ≤ (i 1 : Nat) ∧ (i 1 : Nat) < win1_5.index ⟨31, r1_h31⟩ 1 * win1_5.size 1 + win1_5.xsize (grid1.coords ⟨31, r1_h31⟩) 1
                  rw [show win1_5.index ⟨31, r1_h31⟩ 1 * win1_5.size 1 = 0 from by decide +kernel, show win1_5.xsize (grid1.coords ⟨31, r1_h31⟩) 1 = 1 from by decide +kernel]; omega⟩

/-! ## Region 1 -/

theorem min_val : (Hand.V4 m c main_v7_0 : S256x1.Idx → EReal)
    = fun i => Cert.Spec.kmin (xin m c) (uin m c) (cvin m c) ⟨(i 0).val, (i 0).isLt⟩ 31 := by
  rw [r1_arr_min]
  funext i
  obtain ⟨k, q, rfl⟩ : ∃ (k : Fin 256) (q : Fin 1), i = ix2 k q := ⟨i 0, i 1, eq_ix2 i⟩
  obtain rfl : q = 0 := Subsingleton.elim _ _
  exact r1_min1_eq m c 31 r1_h31 k
theorem max_val : (Hand.V4 m c main_v7_1 : S256x1.Idx → EReal)
    = fun i => Cert.Spec.kmax (xin m c) (uin m c) (cvin m c) ⟨(i 0).val, (i 0).isLt⟩ 31 := by
  rw [r1_arr_max]
  funext i
  obtain ⟨k, q, rfl⟩ : ∃ (k : Fin 256) (q : Fin 1), i = ix2 k q := ⟨i 0, i 1, eq_ix2 i⟩
  obtain rfl : q = 0 := Subsingleton.elim _ _
  exact r1_max1_eq m c 31 r1_h31 k

/-! ## The third host stretch -/

/-- The scale as the third host stretch computes it: the 255 word, broadcast, over (maximum − minimum). -/
private theorem r1_scale_term : Hand.V5 m c main_v10
    = Host.divf (F := Ideal) (broadcastInDim S256x1 ![] bcast_S_S256x1 (constant (F := Ideal) S_ .f32 0x437F0000#32))
        (subf (F := Ideal) (Hand.V4 m c main_v7_1 : S256x1.Idx → EReal) (Hand.V4 m c main_v7_0 : S256x1.Idx → EReal)) := by
  show StableHlo.after hostOps2 _ (Proc.devRef .tc main_v10) = _
  after_results

private theorem r1_scale_pure (a b : FVec Ideal S256x1 .f32) (i : S256x1.Idx) :
    Host.divf (F := Ideal) (broadcastInDim S256x1 ![] bcast_S_S256x1 (constant (F := Ideal) S_ .f32 0x437F0000#32)) (subf (F := Ideal) a b) i
      = Ideal.div Cert.Spec.levelsW (a i - b i) := rfl

theorem scale_val : (Hand.V5 m c main_v10 : S256x1.Idx → EReal)
    = fun i => Ideal.div Cert.Spec.levelsW
        (Cert.Spec.kmax (xin m c) (uin m c) (cvin m c) ⟨(i 0).val, (i 0).isLt⟩ 31
          - Cert.Spec.kmin (xin m c) (uin m c) (cvin m c) ⟨(i 0).val, (i 0).isLt⟩ 31) := by
  rw [r1_scale_term]
  funext i
  refine (r1_scale_pure _ _ i).trans ?_
  exact congrArg₂ (fun a b : EReal => Ideal.div Cert.Spec.levelsW (a - b)) (congrFun (max_val m c) i) (congrFun (min_val m c) i)

/-! ## What region 1 and the third host stretch leave untouched -/

theorem V5_x : Hand.V5 m c main_v0 = Hand.V1 m c main_v0 :=
  calc Hand.V5 m c main_v0
    _ = Hand.W4 m c (Proc.devRef .tc main_v0) := StableHlo.after_of_writes_sub hostOps2 _ hostOps2_writes (by decide)
    _ = Hand.W3 m c (Proc.devRef .tc main_v0) := (W4_arr m c 0).trans (((dat1 (Hand.V3 m) c).arrAt_in 0 rfl _).trans (A_eq1 (Hand.V3 m) c 0))
    _ = Hand.V1 m c main_v0 := V3_x m c
theorem V5_ut : Hand.V5 m c main_v1 = Hand.V1 m c main_v1 :=
  calc Hand.V5 m c main_v1
    _ = Hand.W4 m c (Proc.devRef .tc main_v1) := StableHlo.after_of_writes_sub hostOps2 _ hostOps2_writes (by decide)
    _ = Hand.W3 m c (Proc.devRef .tc main_v1) := (W4_arr m c 1).trans (((dat1 (Hand.V3 m) c).arrAt_in 1 rfl _).trans (A_eq1 (Hand.V3 m) c 1))
    _ = Hand.V1 m c main_v1 := V3_ut m c
theorem V5_cv : Hand.V5 m c main_v2 = Hand.V1 m c main_v2 :=
  calc Hand.V5 m c main_v2
    _ = Hand.W4 m c (Proc.devRef .tc main_v2) := StableHlo.after_of_writes_sub hostOps2 _ hostOps2_writes (by decide)
    _ = Hand.W3 m c (Proc.devRef .tc main_v2) := (W4_arr m c 3).trans (((dat1 (Hand.V3 m) c).arrAt_in 3 rfl _).trans (A_eq1 (Hand.V3 m) c 3))
    _ = Hand.V1 m c main_v2 := V3_cv m c
theorem V5_u : Hand.V5 m c main_arg1 = Hand.V1 m c main_arg1 :=
  calc Hand.V5 m c main_arg1
    _ = Hand.W4 m c (Proc.devRef .tc main_arg1) := StableHlo.after_of_writes_sub hostOps2 _ hostOps2_writes (by decide)
    _ = Hand.W3 m c (Proc.devRef .tc main_arg1) := W4_of_ne m c main_arg1 (by decide)
    _ = Hand.V1 m c main_arg1 := V3_u m c
theorem V5_mean : Hand.V5 m c main_v5 = Hand.V3 m c main_v5 :=
  calc Hand.V5 m c main_v5
    _ = Hand.W4 m c (Proc.devRef .tc main_v5) := StableHlo.after_of_writes_sub hostOps2 _ hostOps2_writes (by decide)
    _ = Hand.V3 m c main_v5 := W4_of_ne m c main_v5 (by decide)
theorem V5_meanProj : Hand.V5 m c main_v6 = Hand.V3 m c main_v6 :=
  calc Hand.V5 m c main_v6
    _ = Hand.W4 m c (Proc.devRef .tc main_v6) := StableHlo.after_of_writes_sub hostOps2 _ hostOps2_writes (by decide)
    _ = Hand.V3 m c main_v6 := (W4_arr m c 2).trans (((dat1 (Hand.V3 m) c).arrAt_in 2 rfl _).trans (A_eq1 (Hand.V3 m) c 2))
theorem V5_min : Hand.V5 m c main_v7_0 = Hand.V4 m c main_v7_0 :=
  StableHlo.after_of_writes_sub hostOps2 _ hostOps2_writes (by decide)

end Cert.KernelIdeal.HandValue

end
-- ==== Proof.KI.Val2.lean ====
/-
  The kernel's value, last stage: what region 2 writes — block b of its result is the reconstruction of block b —
  and the result array, its position axis split back into two.

  Region 2 at point b reads block b of x and, whole, uᵀ, u, the projected mean, the mean, the clamp column, the
  finished minimum column and the scale column. Its body forms the clamped projection of the block exactly as
  region 1 did, quantizes it entry by entry — round((cl − min)·scale)/scale + min —, multiplies by u and adds the
  mean: entry (0, r, p) of what it stores is Σ_k u[r,k]·q[k,p] + mean[r], the specification's reconstruction at
  (b, r, p). The 32 blocks tile the result array, so the array is the reconstruction everywhere; the last host
  stretch only splits p = 56·h + w.
-/
import proofs.«103972_j30554397343924_1_alg».proof.Proof.KI.Val1

set_option maxRecDepth 16384

noncomputable section

namespace Cert.KernelIdeal.HandValue

open Idealize.ShloMosaic Idealize.ShloMosaic.TcCoe Idealize.SL.Sem Idealize.ShloMosaic.ValueIdx
open Idealize.ShloMosaic.Pipeline (Dat Cfg Window)
open Cert.KernelIdeal Cert.KernelIdeal.Gen Cert.KernelIdeal.Hand

variable (m : (ℓ : Loc nD τ sig) → Buf (Elt Ideal) ℓ) (c : Dev nD)

/-! ## Layout operations of the body at an index -/

/-- A column broadcast along the lanes reads its row's one entry. -/
private theorem col_apply {α : Type} (v : S256x1.Idx → α) (r : Fin 256) (p : Fin 3136) :
    broadcastTo S256x3136 v broadcasts_S256x1_S256x3136 (ix2 r p) = v (ix2 r (0 : Fin 1)) :=
  broadcastTo_apply v broadcasts_S256x1_S256x3136 (ix2 r p) (ix2 r (0 : Fin 1)) (fun a => match a with
    | ⟨0, _⟩ => by show r.val = if (256 : Nat) = 1 then 0 else r.val; rw [if_neg (by decide)]
    | ⟨1, _⟩ => by show (0 : Nat) = if (1 : Nat) = 1 then 0 else p.val; rw [if_pos rfl])

/-- The block with its unit axis dropped. -/
private theorem drop_apply {α : Type} (x : S1x256x3136.Idx → α) (r : Fin 256) (p : Fin 3136) :
    shapeCast S256x3136 x shapeCasts_S1x256x3136_S256x3136 (ix2 r p) = x (ix3 (0 : Fin 1) r p) :=
  shapeCast_apply x shapeCasts_S1x256x3136_S256x3136 (ix2 r p) (ix3 (0 : Fin 1) r p) (by
    rw [Shape.rowMajor_val_three, Shape.rowMajor_val_two]
    show (0 * 256 + r.val) * 3136 + p.val = r.val * 3136 + p.val
    omega)

/-- The result with a unit axis put in front. -/
private theorem lift_apply {α : Type} (v : S256x3136.Idx → α) (r : Fin 256) (p : Fin 3136) :
    shapeCast S1x256x3136 v shapeCasts_S256x3136_S1x256x3136 (ix3 (0 : Fin 1) r p) = v (ix2 r p) :=
  shapeCast_apply v shapeCasts_S256x3136_S1x256x3136 (ix3 (0 : Fin 1) r p) (ix2 r p) (by
    rw [Shape.rowMajor_val_three, Shape.rowMajor_val_two]
    show r.val * 3136 + p.val = (0 * 256 + r.val) * 3136 + p.val
    omega)

/-! ## The body's matrix product at an index -/

private theorem mm_lhs_0 (i : S256x3136.Idx) (q : dot_S256x256_S256x3136_S256x3136_1_0_0_1_n_n.contr.Idx) :
    (dot_S256x256_S256x3136_S256x3136_1_0_0_1_n_n.lhsIdx i q 0).val = (i 0).val := by
  unfold DotDims.lhsIdx
  rw [dif_neg (show ¬(0 : Fin S256x256.rank) ∈ dot_S256x256_S256x3136_S256x3136_1_0_0_1_n_n.lhsBatch by decide), dif_pos (show (0 : Fin S256x256.rank) ∈ dot_S256x256_S256x3136_S256x3136_1_0_0_1_n_n.lhsNonContracting by decide)]
  rfl
private theorem mm_lhs_1 (i : S256x3136.Idx) (q : dot_S256x256_S256x3136_S256x3136_1_0_0_1_n_n.contr.Idx) :
    (dot_S256x256_S256x3136_S256x3136_1_0_0_1_n_n.lhsIdx i q 1).val = (q ⟨0, by decide⟩).val :=
  dot_S256x256_S256x3136_S256x3136_1_0_0_1_n_n.lhsIdx_val_of_single rfl i q
private theorem mm_rhs_0 (i : S256x3136.Idx) (q : dot_S256x256_S256x3136_S256x3136_1_0_0_1_n_n.contr.Idx) :
    (dot_S256x256_S256x3136_S256x3136_1_0_0_1_n_n.rhsIdx i q 0).val = (q ⟨0, by decide⟩).val :=
  dot_S256x256_S256x3136_S256x3136_1_0_0_1_n_n.rhsIdx_val_of_single rfl i q
private theorem mm_rhs_1 (i : S256x3136.Idx) (q : dot_S256x256_S256x3136_S256x3136_1_0_0_1_n_n.contr.Idx) :
    (dot_S256x256_S256x3136_S256x3136_1_0_0_1_n_n.rhsIdx i q 1).val = (i 1).val := by
  unfold DotDims.rhsIdx
  rw [dif_neg (show ¬(1 : Fin S256x3136.rank) ∈ dot_S256x256_S256x3136_S256x3136_1_0_0_1_n_n.rhsBatch by decide), dif_pos (show (1 : Fin S256x3136.rank) ∈ dot_S256x256_S256x3136_S256x3136_1_0_0_1_n_n.rhsNonContracting by decide)]
  rfl

/-- A [256,256] by [256,3136] product into the zero accumulator: entry (r, p) is the sum over the shared axis. -/
private theorem mm_apply {φ₁ φ₂ : FTy} (A : FVec Ideal S256x256 φ₁) (B : FVec Ideal S256x3136 φ₂) (r : Fin 256) (p : Fin 3136) :
    matmul dot_S256x256_S256x3136_S256x3136_1_0_0_1_n_n none A B (constant S256x3136 .f32 0x00000000#32) (ix2 r p)
      = ∑ k : Fin 256, A (ix2 r k) * B (ix2 k p) := by
  simp only [matmul]
  rw [Ideal.matmul_constant_zero_apply, ← Equiv.sum_comp (contrEquiv1 dot_S256x256_S256x3136_S256x3136_1_0_0_1_n_n 256 rfl rfl).symm]
  refine Finset.sum_congr rfl fun k _ => ?_
  have hk := contrEquiv1_symm_val dot_S256x256_S256x3136_S256x3136_1_0_0_1_n_n 256 rfl rfl k
  have el : dot_S256x256_S256x3136_S256x3136_1_0_0_1_n_n.lhsIdx (ix2 r p) ((contrEquiv1 dot_S256x256_S256x3136_S256x3136_1_0_0_1_n_n 256 rfl rfl).symm k) = ix2 r k := funext fun a => Fin.ext (by
    match a with
    | ⟨0, _⟩ => exact mm_lhs_0 _ _
    | ⟨1, _⟩ => exact (mm_lhs_1 _ _).trans hk)
  have er : dot_S256x256_S256x3136_S256x3136_1_0_0_1_n_n.rhsIdx (ix2 r p) ((contrEquiv1 dot_S256x256_S256x3136_S256x3136_1_0_0_1_n_n 256 rfl rfl).symm k) = ix2 k p := funext fun a => Fin.ext (by
    match a with
    | ⟨0, _⟩ => exact (mm_rhs_0 _ _).trans hk
    | ⟨1, _⟩ => exact mm_rhs_1 _ _)
  rw [el, er]

/-! ## The body's arithmetic at an index -/

/-- The clamped projection of one block at channel k and position p, from the block's entries: uᵀ·relu(x) less the
    projected mean, clamped between 0 − cv and cv. -/
private def clampAt (x : S1x256x3136.Idx → EReal) (ut : S256x256.Idx → EReal) (mc cv : S256x1.Idx → EReal)
    (k : Fin 256) (p : Fin 3136) : EReal :=
  min (cv (ix2 k (0 : Fin 1))) (max (Cert.Spec.zeroW - cv (ix2 k (0 : Fin 1)))
    ((∑ c : Fin 256, ut (ix2 k c) * max (x (ix3 (0 : Fin 1) c p)) Cert.Spec.zeroW) - mc (ix2 k (0 : Fin 1))))

/-- The clamped projection quantized with the minimum column and the scale column, and back. -/
private def quantAt (x : S1x256x3136.Idx → EReal) (ut : S256x256.Idx → EReal) (mc cv dmin sc : S256x1.Idx → EReal)
    (k : Fin 256) (p : Fin 3136) : EReal :=
  Ideal.div (Cert.Spec.rnd ((clampAt x ut mc cv k p - dmin (ix2 k (0 : Fin 1))) * sc (ix2 k (0 : Fin 1)))) (sc (ix2 k (0 : Fin 1)))
    + dmin (ix2 k (0 : Fin 1))

/-- The body's clamped projection, entry (k, p). -/
private theorem clamp_apply (x : FVec Ideal S1x256x3136 .f32) (ut : FVec Ideal S256x256 .f32) (mc cv : FVec Ideal S256x1 .f32)
    (k : Fin 256) (p : Fin 3136) :
    minimumf (broadcastTo S256x3136 (shapeCast S256x1 cv shapeCasts_S256x1_S256x1) broadcasts_S256x1_S256x3136)
      (maximumf
        (broadcastTo S256x3136 (subf (broadcast S256x1 (FloatOps.ofBits (F := Ideal) FTy.f32 0x00000000#32)) (shapeCast S256x1 cv shapeCasts_S256x1_S256x1))
          broadcasts_S256x1_S256x3136)
        (subf
          (matmul dot_S256x256_S256x3136_S256x3136_1_0_0_1_n_n none
            (truncf FTy.bf16 (shapeCast S256x256 ut shapeCasts_S256x256_S256x256) bitsLt_bf16_f32)
            (truncf FTy.bf16 (maximumf (shapeCast S256x3136 x shapeCasts_S1x256x3136_S256x3136) (broadcast S256x3136 (FloatOps.ofBits (F := Ideal) FTy.f32 0x00000000#32))) bitsLt_bf16_f32)
            (constant S256x3136 FTy.f32 0x00000000#32))
          (broadcastTo S256x3136 (shapeCast S256x1 mc shapeCasts_S256x1_S256x1) broadcasts_S256x1_S256x3136))) (ix2 k p)
      = clampAt x ut mc cv k p := by
  rw [minimumf_apply, maximumf_apply, subf_apply, col_apply, col_apply, col_apply, mm_apply, subf_apply,
    shapeCast_self, shapeCast_self, shapeCast_self, broadcast_apply]
  unfold clampAt
  refine congrArg (fun s => min (cv (ix2 k (0 : Fin 1))) (max (Cert.Spec.zeroW - cv (ix2 k (0 : Fin 1))) (s - mc (ix2 k (0 : Fin 1))))) ?_
  refine Finset.sum_congr rfl fun c _ => ?_
  rw [truncf_apply, truncf_apply, maximumf_apply, drop_apply, broadcast_apply]
  rfl

/-- Rounding to even, entry by entry, is the specification's rounding. -/
private theorem rnd_apply {s : Shape} {φ : FTy} (a : FVec Ideal s φ) (i : s.Idx) : roundeven a i = Cert.Spec.rnd (a i) := rfl

/-- The quantization's tail after the clamp, entry (k, p). -/
private theorem quant_apply (cl : FVec Ideal S256x3136 .f32) (dmin sc : FVec Ideal S256x1 .f32) (k : Fin 256) (p : Fin 3136) :
    truncf FTy.bf16
      (addf
        (divf
          (roundeven
            (mulf
              (subf cl (broadcastTo S256x3136 (shapeCast S256x1 dmin shapeCasts_S256x1_S256x1) broadcasts_S256x1_S256x3136))
              (broadcastTo S256x3136 (shapeCast S256x1 sc shapeCasts_S256x1_S256x1) broadcasts_S256x1_S256x3136)))
          (broadcastTo S256x3136 (shapeCast S256x1 sc shapeCasts_S256x1_S256x1) broadcasts_S256x1_S256x3136))
        (broadcastTo S256x3136 (shapeCast S256x1 dmin shapeCasts_S256x1_S256x1) broadcasts_S256x1_S256x3136))
      bitsLt_bf16_f32 (ix2 k p)
      = Ideal.div (Cert.Spec.rnd ((cl (ix2 k p) - dmin (ix2 k (0 : Fin 1))) * sc (ix2 k (0 : Fin 1)))) (sc (ix2 k (0 : Fin 1)))
          + dmin (ix2 k (0 : Fin 1)) := by
  rw [truncf_apply, addf_apply, divf_apply, col_apply, col_apply, shapeCast_self, shapeCast_self]
  refine congrArg (fun s => Ideal.div s (sc (ix2 k (0 : Fin 1))) + dmin (ix2 k (0 : Fin 1))) ?_
  rw [rnd_apply, mulf_apply, subf_apply, col_apply, col_apply]

/-- The second product's result: u times the quantized clamped projection. -/
private theorem pay2_apply (x : Vec Ideal S1x256x3136 .f32) (ut : Vec Ideal S256x256 .f32) (mc cv dmin sc : Vec Ideal S256x1 .f32)
    (u : Vec Ideal S256x256 .f32) (r : Fin 256) (p : Fin 3136) :
    k2_pay2 x ut mc cv dmin sc u (ix2 r p) = ∑ k : Fin 256, u (ix2 r k) * quantAt x ut mc cv dmin sc k p := by
  unfold k2_pay2
  refine (mm_apply _ _ r p).trans ?_
  refine Finset.sum_congr rfl fun k _ => ?_
  refine congrArg (u (ix2 r k) * ·) ?_
  refine (quant_apply _ dmin sc k p).trans ?_
  unfold quantAt
  refine congrArg (fun s => Ideal.div (Cert.Spec.rnd ((s - dmin (ix2 k (0 : Fin 1))) * sc (ix2 k (0 : Fin 1)))) (sc (ix2 k (0 : Fin 1))) + dmin (ix2 k (0 : Fin 1))) ?_
  exact clamp_apply x ut mc cv k p

/-- What the body stores, entry (0, r, p): the second product plus the mean. -/
private theorem out2_apply (x : Vec Ideal S1x256x3136 .f32) (ut u : Vec Ideal S256x256 .f32) (mc mean cv dmin sc : Vec Ideal S256x1 .f32)
    (r : Fin 256) (p : Fin 3136) :
    Hand.out2 x ut u mc mean cv dmin sc (ix3 (0 : Fin 1) r p)
      = (∑ k : Fin 256, u (ix2 r k) * quantAt x ut mc cv dmin sc k p) + mean (ix2 r (0 : Fin 1)) := by
  unfold Hand.out2 k2_pay1
  refine (lift_apply _ r p).trans ?_
  rw [addf_apply, col_apply, shapeCast_self]
  exact congrArg (· + mean (ix2 r (0 : Fin 1))) (pay2_apply x ut mc cv dmin sc u r p)

/-! ## From the body's entries to the specification's reconstruction -/

/-- When the eight blocks the body reads hold, entry by entry, what the specification names — block b of x, uᵀ, u, the
    projected mean, the mean, the clamp values, the finished minimum and the scale —, what the body stores at
    (0, r, p) is the specification's result at (b, r, p). -/
private theorem recon_of_entries (X : Fin 32 → Fin 256 → Fin 3136 → EReal) (Um : Fin 256 → Fin 256 → EReal) (CV : Fin 256 → EReal)
    (b : Fin 32) (x : S1x256x3136.Idx → EReal) (ut u : S256x256.Idx → EReal) (mc mean cv dmin sc : S256x1.Idx → EReal)
    (hx : ∀ (ch : Fin 256) (p : Fin 3136), x (ix3 (0 : Fin 1) ch p) = X b ch p)
    (hut : ∀ k ch : Fin 256, ut (ix2 k ch) = Um ch k)
    (hu : ∀ r k : Fin 256, u (ix2 r k) = Um r k)
    (hmc : ∀ k : Fin 256, mc (ix2 k (0 : Fin 1)) = Cert.Spec.kmeanProj X Um k)
    (hmean : ∀ r : Fin 256, mean (ix2 r (0 : Fin 1)) = Cert.Spec.kmean X r)
    (hcv : ∀ k : Fin 256, cv (ix2 k (0 : Fin 1)) = CV k)
    (hdmin : ∀ k : Fin 256, dmin (ix2 k (0 : Fin 1)) = Cert.Spec.kmin X Um CV k 31)
    (hsc : ∀ k : Fin 256, sc (ix2 k (0 : Fin 1)) = Ideal.div Cert.Spec.levelsW (Cert.Spec.kmax X Um CV k 31 - Cert.Spec.kmin X Um CV k 31))
    (r : Fin 256) (p : Fin 3136) :
    (∑ k : Fin 256, u (ix2 r k) * quantAt x ut mc cv dmin sc k p) + mean (ix2 r (0 : Fin 1)) = Cert.Spec.kout X Um CV b r p := by
  unfold Cert.Spec.kout Cert.Spec.recon
  rw [hmean r]
  refine congrArg (· + Cert.Spec.kmean X r) (Finset.sum_congr rfl fun k _ => ?_)
  rw [hu r k]
  refine congrArg (Um r k * ·) ?_
  unfold quantAt Cert.Spec.quant
  rw [hdmin k, hsc k]
  have hcl : clampAt x ut mc cv k p = Cert.Spec.kclamp X Um CV k b p := by
    unfold clampAt Cert.Spec.kclamp Cert.Spec.kproj
    rw [hcv k, hmc k]
    refine congrArg (fun s => min (CV k) (max (Cert.Spec.zeroW - CV k) (s - Cert.Spec.kmeanProj X Um k))) (Finset.sum_congr rfl fun ch _ => ?_)
    rw [hut k ch, hx ch p]
    rfl
  rw [hcl]
/-! ## Region 2's blocks, read off the arrays the region finds -/

/-- The x block and the result block move with the point; every other window's one block is its whole array
    (the index maps, decided over the 32 points). -/
private theorem idx_moving : ∀ t : Fin cfg2.N,
    win2_0.index t (0 : Fin 3) = t.val ∧ win2_0.index t (1 : Fin 3) = 0 ∧ win2_0.index t (2 : Fin 3) = 0
    ∧ win2_8.index t (0 : Fin 3) = t.val ∧ win2_8.index t (1 : Fin 3) = 0 ∧ win2_8.index t (2 : Fin 3) = 0 :=
  (by decide +kernel : ∀ t : Fin grid2.N, _)
private theorem idx_fixed : ∀ t : Fin cfg2.N,
    win2_1.index t (0 : Fin 2) = 0 ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 2) = 0 ∧ win2_4.index t (1 : Fin 2) = 0
    ∧ win2_5.index t (0 : Fin 2) = 0 ∧ win2_5.index t (1 : Fin 2) = 0
    ∧ win2_6.index t (0 : Fin 2) = 0 ∧ win2_6.index t (1 : Fin 2) = 0
    ∧ win2_7.index t (0 : Fin 2) = 0 ∧ win2_7.index t (1 : Fin 2) = 0 :=
  (by decide +kernel : ∀ t : Fin grid2.N, _)

/-- The batch block a point works on. -/
private abbrev batchOf (t : Fin cfg2.N) : Fin 32 := t.cast N_2

/-- The eight blocks the body reads at point t, each at its literal type. -/
private abbrev xblk (t : Fin cfg2.N) : Vec Ideal S1x256x3136 .f32 := iblk2 (Hand.V5 m) c 0 t
private abbrev utblk (t : Fin cfg2.N) : Vec Ideal S256x256 .f32 := iblk2 (Hand.V5 m) c 1 t
private abbrev ublk (t : Fin cfg2.N) : Vec Ideal S256x256 .f32 := iblk2 (Hand.V5 m) c 2 t
private abbrev mcblk (t : Fin cfg2.N) : Vec Ideal S256x1 .f32 := iblk2 (Hand.V5 m) c 3 t
private abbrev meanblk (t : Fin cfg2.N) : Vec Ideal S256x1 .f32 := iblk2 (Hand.V5 m) c 4 t
private abbrev cvblk (t : Fin cfg2.N) : Vec Ideal S256x1 .f32 := iblk2 (Hand.V5 m) c 5 t
private abbrev dminblk (t : Fin cfg2.N) : Vec Ideal S256x1 .f32 := iblk2 (Hand.V5 m) c 6 t
private abbrev scblk (t : Fin cfg2.N) : Vec Ideal S256x1 .f32 := iblk2 (Hand.V5 m) c 7 t

/-- Block t of x is batch block t of the input. -/
private theorem xblk_apply (t : Fin cfg2.N) (ch : Fin 256) (p : Fin 3136) :
    xblk m c t (ix3 (0 : Fin 1) ch p) = xin m c (batchOf t) ch p := by
  obtain ⟨e0, e1, e2, -, -, -⟩ := idx_moving t
  show (Hand.V5 m c main_v0 : S32x256x3136.Idx → EReal) (((cfg2.win 0).blk t).view.emb (ix3 (0 : Fin 1) ch p)) = _
  rw [V5_x, x_entry]
  have hi : ((cfg2.win 0).blk t).view.emb (ix3 (0 : Fin 1) ch p) = (ix3 (batchOf t) ch p : S32x256x3136.Idx) := by
    funext a; apply Fin.ext
    match a with
    | ⟨0, _⟩ => show win2_0.index t (0 : Fin 3) * 1 + 1 * 0 = t.val; omega
    | ⟨1, _⟩ => show win2_0.index t (1 : Fin 3) * 256 + 1 * ch.val = ch.val; omega
    | ⟨2, _⟩ => show win2_0.index t (2 : Fin 3) * 3136 + 1 * p.val = p.val; omega
  rw [hi]
  rfl

/-- The uᵀ block is all of uᵀ. -/
private theorem utblk_apply (t : Fin cfg2.N) (k ch : Fin 256) : utblk m c t (ix2 k ch) = uin m c ch k := by
  obtain ⟨e0, e1, -, -, -, -, -, -, -, -, -, -, -, -⟩ := idx_fixed t
  show (Hand.V5 m c main_v1 : S256x256.Idx → EReal) (((cfg2.win 1).blk t).view.emb (ix2 k ch)) = _
  rw [V5_ut, ut_entry]
  have hi : ((cfg2.win 1).blk t).view.emb (ix2 k ch) = (ix2 k ch : S256x256.Idx) := by
    funext a; apply Fin.ext
    match a with
    | ⟨0, _⟩ => show win2_1.index t (0 : Fin 2) * 256 + 1 * k.val = k.val; omega
    | ⟨1, _⟩ => show win2_1.index t (1 : Fin 2) * 256 + 1 * ch.val = ch.val; omega
  rw [hi]
  rfl

/-- The u block is all of u. -/
private theorem ublk_apply (t : Fin cfg2.N) (k ch : Fin 256) : ublk m c t (ix2 k ch) = uin m c k ch := by
  obtain ⟨-, -, e0, e1, -, -, -, -, -, -, -, -, -, -⟩ := idx_fixed t
  show (Hand.V5 m c main_arg1 : S256x256.Idx → EReal) (((cfg2.win 2).blk t).view.emb (ix2 k ch)) = _
  rw [V5_u, u_entry]
  have hi : ((cfg2.win 2).blk t).view.emb (ix2 k ch) = (ix2 k ch : S256x256.Idx) := by
    funext a; apply Fin.ext
    match a with
    | ⟨0, _⟩ => show win2_2.index t (0 : Fin 2) * 256 + 1 * k.val = k.val; omega
    | ⟨1, _⟩ => show win2_2.index t (1 : Fin 2) * 256 + 1 * ch.val = ch.val; omega
  rw [hi]
  rfl

/-- The projected-mean column. -/
private theorem mcblk_apply (t : Fin cfg2.N) (k : Fin 256) : mcblk m c t (ix2 k (0 : Fin 1)) = Cert.Spec.kmeanProj (xin m c) (uin m c) k := by
  obtain ⟨-, -, -, -, e0, e1, -, -, -, -, -, -, -, -⟩ := idx_fixed t
  show (Hand.V5 m c main_v6 : S256x1.Idx → EReal) (((cfg2.win 3).blk t).view.emb (ix2 k (0 : Fin 1))) = _
  rw [V5_meanProj, meanProj_val]
  have hi : ((cfg2.win 3).blk t).view.emb (ix2 k (0 : Fin 1)) = (ix2 k (0 : Fin 1) : S256x1.Idx) := by
    funext a; apply Fin.ext
    match a with
    | ⟨0, _⟩ => show win2_3.index t (0 : Fin 2) * 256 + 1 * k.val = k.val; omega
    | ⟨1, _⟩ => show win2_3.index t (1 : Fin 2) * 1 + 1 * 0 = 0; omega
  rw [hi]
  rfl

/-- The mean column. -/
private theorem meanblk_apply (t : Fin cfg2.N) (k : Fin 256) : meanblk m c t (ix2 k (0 : Fin 1)) = Cert.Spec.kmean (xin m c) k := by
  obtain ⟨-, -, -, -, -, -, e0, e1, -, -, -, -, -, -⟩ := idx_fixed t
  show (Hand.V5 m c main_v5 : S256x1.Idx → EReal) (((cfg2.win 4).blk t).view.emb (ix2 k (0 : Fin 1))) = _
  rw [V5_mean, mean_val]
  have hi : ((cfg2.win 4).blk t).view.emb (ix2 k (0 : Fin 1)) = (ix2 k (0 : Fin 1) : S256x1.Idx) := by
    funext a; apply Fin.ext
    match a with
    | ⟨0, _⟩ => show win2_4.index t (0 : Fin 2) * 256 + 1 * k.val = k.val; omega
    | ⟨1, _⟩ => show win2_4.index t (1 : Fin 2) * 1 + 1 * 0 = 0; omega
  rw [hi]
  rfl

/-- The clamp column. -/
private theorem cvblk_apply (t : Fin cfg2.N) (k : Fin 256) : cvblk m c t (ix2 k (0 : Fin 1)) = cvin m c k := by
  obtain ⟨-, -, -, -, -, -, -, -, e0, e1, -, -, -, -⟩ := idx_fixed t
  show (Hand.V5 m c main_v2 : S256x1.Idx → EReal) (((cfg2.win 5).blk t).view.emb (ix2 k (0 : Fin 1))) = _
  rw [V5_cv, cv_entry]
  have hi : ((cfg2.win 5).blk t).view.emb (ix2 k (0 : Fin 1)) = (ix2 k (0 : Fin 1) : S256x1.Idx) := by
    funext a; apply Fin.ext
    match a with
    | ⟨0, _⟩ => show win2_5.index t (0 : Fin 2) * 256 + 1 * k.val = k.val; omega
    | ⟨1, _⟩ => show win2_5.index t (1 : Fin 2) * 1 + 1 * 0 = 0; omega
  rw [hi]
  rfl

/-- The finished minimum column. -/
private theorem dminblk_apply (t : Fin cfg2.N) (k : Fin 256) : dminblk m c t (ix2 k (0 : Fin 1)) = Cert.Spec.kmin (xin m c) (uin m c) (cvin m c) k 31 := by
  obtain ⟨-, -, -, -, -, -, -, -, -, -, e0, e1, -, -⟩ := idx_fixed t
  show (Hand.V5 m c main_v7_0 : S256x1.Idx → EReal) (((cfg2.win 6).blk t).view.emb (ix2 k (0 : Fin 1))) = _
  rw [V5_min, min_val]
  have hi : ((cfg2.win 6).blk t).view.emb (ix2 k (0 : Fin 1)) = (ix2 k (0 : Fin 1) : S256x1.Idx) := by
    funext a; apply Fin.ext
    match a with
    | ⟨0, _⟩ => show win2_6.index t (0 : Fin 2) * 256 + 1 * k.val = k.val; omega
    | ⟨1, _⟩ => show win2_6.index t (1 : Fin 2) * 1 + 1 * 0 = 0; omega
  rw [hi]
  rfl

/-- The scale column. -/
private theorem scblk_apply (t : Fin cfg2.N) (k : Fin 256) : scblk m c t (ix2 k (0 : Fin 1)) = Ideal.div Cert.Spec.levelsW (Cert.Spec.kmax (xin m c) (uin m c) (cvin m c) k 31 - Cert.Spec.kmin (xin m c) (uin m c) (cvin m c) k 31) := by
  obtain ⟨-, -, -, -, -, -, -, -, -, -, -, -, e0, e1⟩ := idx_fixed t
  show (Hand.V5 m c main_v10 : S256x1.Idx → EReal) (((cfg2.win 7).blk t).view.emb (ix2 k (0 : Fin 1))) = _
  rw [scale_val]
  have hi : ((cfg2.win 7).blk t).view.emb (ix2 k (0 : Fin 1)) = (ix2 k (0 : Fin 1) : S256x1.Idx) := by
    funext a; apply Fin.ext
    match a with
    | ⟨0, _⟩ => show win2_7.index t (0 : Fin 2) * 256 + 1 * k.val = k.val; omega
    | ⟨1, _⟩ => show win2_7.index t (1 : Fin 2) * 1 + 1 * 0 = 0; omega
  rw [hi]
  rfl

/-! ## Region 2's result array -/

/-- The reconstruction, as the whole result array. -/
private abbrev reconArr : S32x256x3136.Idx → EReal := fun i =>
  Cert.Spec.kout (xin m c) (uin m c) (cvin m c) ⟨(i 0).val, (i 0).isLt⟩ ⟨(i 1).val, (i 1).isLt⟩ ⟨(i 2).val, (i 2).isLt⟩

/-- What the body stores at point t, entry (0, r, p), is the reconstruction at (t, r, p). -/
private theorem outAt2_apply (t : Fin cfg2.N) (r : Fin 256) (p : Fin 3136) :
    outAt2 (Hand.V5 m) c t (ix3 (0 : Fin 1) r p) = Cert.Spec.kout (xin m c) (uin m c) (cvin m c) (batchOf t) r p := by
  show out2 (xblk m c t) (utblk m c t) (ublk m c t) (mcblk m c t) (meanblk m c t) (cvblk m c t) (dminblk m c t) (scblk m c t) (ix3 (0 : Fin 1) r p) = _
  refine (out2_apply (xblk m c t) (utblk m c t) (ublk m c t) (mcblk m c t) (meanblk m c t) (cvblk m c t) (dminblk m c t) (scblk m c t) r p).trans ?_
  exact recon_of_entries (xin m c) (uin m c) (cvin m c) (batchOf t) (xblk m c t) (utblk m c t) (ublk m c t) (mcblk m c t) (meanblk m c t) (cvblk m c t) (dminblk m c t) (scblk m c t)
    (xblk_apply m c t) (utblk_apply m c t) (ublk_apply m c t) (mcblk_apply m c t) (meanblk_apply m c t) (cvblk_apply m c t) (dminblk_apply m c t) (scblk_apply m c t) r p

/-- Point t writes back block t of the reconstruction: rows [t, :, :] of the result array. -/
private theorem flushed_recon (t : Fin cfg2.N) :
    (dat2 (Hand.V5 m) c).flushed 8 t = ((cfg2.win 8).blk t).view.read (Elt Ideal) (reconArr m c) := by
  show (cfg2.win 8).cut (grid2.coords t) ((dat2 (Hand.V5 m) c).after 8 t) = _
  rw [after2_8]
  refine funext fun (y : S1x256x3136.Idx) => ?_
  obtain ⟨q, r, p, rfl⟩ : ∃ (q : Fin 1) (r : Fin 256) (p : Fin 3136), y = ix3 q r p := ⟨y 0, y 1, y 2, eq_ix3 y⟩
  obtain rfl : q = 0 := Subsingleton.elim _ _
  obtain ⟨-, -, -, e0, e1, e2⟩ := idx_moving t
  show outAt2 (Hand.V5 m) c t (ix3 (0 : Fin 1) r p) = reconArr m c (((cfg2.win 8).blk t).view.emb (ix3 (0 : Fin 1) r p))
  have hi : ((cfg2.win 8).blk t).view.emb (ix3 (0 : Fin 1) r p) = (ix3 (batchOf t) r p : S32x256x3136.Idx) := by
    funext a; apply Fin.ext
    match a with
    | ⟨0, _⟩ => show win2_8.index t (0 : Fin 3) * 1 + 1 * 0 = t.val; omega
    | ⟨1, _⟩ => show win2_8.index t (1 : Fin 3) * 256 + 1 * r.val = r.val; omega
    | ⟨2, _⟩ => show win2_8.index t (2 : Fin 3) * 3136 + 1 * p.val = p.val; omega
  rw [hi]
  exact outAt2_apply m c t r p

/-- Every entry of the result array is in some point's block: row b is in point b's. -/
private theorem covered (i : S32x256x3136.Idx) :
    ∃ t : Fin cfg2.N, (cfg2.win 8).flush t = true ∧ i ∈ ((cfg2.win 8).blk t).view.set := by
  have h0 : (i 0).val < 32 := (i 0).isLt
  have h1 : (i 1).val < 256 := (i 1).isLt
  have h2 : (i 2).val < 3136 := (i 2).isLt
  obtain ⟨t, ht⟩ : ∃ t : Fin cfg2.N, t.val = (i 0).val := ⟨(⟨(i 0).val, h0⟩ : Fin 32).cast N_2.symm, rfl⟩
  obtain ⟨-, -, -, e0, e1, e2⟩ := idx_moving t
  refine ⟨t, flush2_8 t, ?_⟩
  show i ∈ ((View.whole main_v11).slice (win2_8.rect t)).set
  rw [View.set_slice_whole, Rect.mem_set_unit]
  intro a
  match a with
  | ⟨0, _⟩ => show win2_8.index t (0 : Fin 3) * 1 ≤ (i 0).val ∧ (i 0).val < win2_8.index t (0 : Fin 3) * 1 + 1; omega
  | ⟨1, _⟩ => show win2_8.index t (1 : Fin 3) * 256 ≤ (i 1).val ∧ (i 1).val < win2_8.index t (1 : Fin 3) * 256 + 256; omega
  | ⟨2, _⟩ => show win2_8.index t (2 : Fin 3) * 3136 ≤ (i 2).val ∧ (i 2).val < win2_8.index t (2 : Fin 3) * 3136 + 3136; omega

/-! ## Region 2 -/

theorem out_val : (Hand.V6 m c main_v11 : S32x256x3136.Idx → EReal)
    = fun i => Cert.Spec.kout (xin m c) (uin m c) (cvin m c) ⟨(i 0).val, (i 0).isLt⟩ ⟨(i 1).val, (i 1).isLt⟩ ⟨(i 2).val, (i 2).isLt⟩ := by
  show Hand.W6 m c (Proc.devRef .tc main_v11) = reconArr m c
  refine (Hand.W6_arr m c 8).trans ?_
  exact (dat2 (Hand.V5 m) c).arrAt_eq_of_cover 8 (reconArr m c) (fun t _ => flushed_recon m c t) covered

/-! ## The last host stretch -/

/-- The kernel's result array is the specification's kernel form of the three arguments. -/
theorem result_val : (Hand.W7 m c (Proc.devRef .tc main_v12) : S32x256x56x56.Idx → EReal)
    = Cert.Spec.Gk (m ((c : Thread nD τ).loc main_arg0)) (m ((c : Thread nD τ).loc main_arg1)) (m ((c : Thread nD τ).loc main_arg2)) := by
  have e : (Hand.W7 m c (Proc.devRef .tc main_v12) : S32x256x56x56.Idx → EReal)
      = shapeCast S32x256x56x56 (Hand.V6 m c main_v11 : S32x256x3136.Idx → EReal) shapeCasts_S32x256x3136_S32x256x56x56 := by
    show StableHlo.after hostOps3 (Hand.W6 m c) (Proc.devRef .tc main_v12) = _
    dsimp only [hostOps3]
    after_results
    rfl
  rw [e, out_val]
  funext i
  obtain ⟨b, ch, h, w, rfl⟩ : ∃ (b : Fin 32) (ch : Fin 256) (h w : Fin 56), i = ix4 b ch h w := ⟨i 0, i 1, i 2, i 3, eq_ix4 i⟩
  have hp : h.val * 56 + w.val < 3136 := by have := h.isLt; have := w.isLt; omega
  refine (shapeCast_apply _ shapeCasts_S32x256x3136_S32x256x56x56 (ix4 b ch h w) (ix3 b ch (⟨h.val * 56 + w.val, hp⟩ : Fin 3136)) ?_).trans ?_
  · rw [Shape.rowMajor_val_three, Shape.rowMajor_val_four]
    show (b.val * 256 + ch.val) * 3136 + (h.val * 56 + w.val) = ((b.val * 256 + ch.val) * 56 + h.val) * 56 + w.val
    omega
  · rfl

end Cert.KernelIdeal.HandValue

end
-- ==== Proof.Regroup.lean ====
/-
  Regrouping over the flattened (batch, position) axis: a quantity accumulated over the 32 blocks in block order —
  a sum of lane sums, a minimum of lane minima, a maximum of lane maxima, each from a starting value z — is the same
  quantity taken over all 100352 = 32·3136 positions at once. Only commutativity and associativity of + , min and max
  on the extended reals (and idempotence of min and max, which absorbs the repeated starting value) are used; nothing
  here needs a finite entry.

  The sums are compared through the one-to-one correspondence between pairs (block, place) and positions. The extrema
  are compared through their bounds: a value lies below a minimum exactly when it lies below the starting value and
  below every term, so two minima with the same starting value and the same terms, however grouped, agree; dually
  for maxima.
-/
import proofs.«103972_j30554397343924_1_alg».proof.Proof.Spec
import Idealize.ShloMosaic.PureOps.Ideal
import Mathlib.Order.Basic
import Mathlib.Data.Finset.Fold
import Mathlib.Data.Fintype.BigOperators
import Mathlib.Algebra.BigOperators.Fin
import Mathlib.Data.EReal.Basic

noncomputable section

namespace Cert.Spec

open Idealize.ShloMosaic

/-- Position n splits into its block and its place within the block, and back. -/
theorem posOf_split (n : Fin 100352) : posOf (batchOf n) (withinOf n) = n := by
  apply Fin.ext
  show n.val / 3136 * 3136 + n.val % 3136 = n.val
  omega
theorem batchOf_posOf (b : Fin 32) (p : Fin 3136) : batchOf (posOf b p) = b := by
  apply Fin.ext
  show (b.val * 3136 + p.val) / 3136 = b.val
  have hp := p.isLt
  omega
theorem withinOf_posOf (b : Fin 32) (p : Fin 3136) : withinOf (posOf b p) = p := by
  apply Fin.ext
  show (b.val * 3136 + p.val) % 3136 = p.val
  have hp := p.isLt
  omega

/-- The pairs (block, place) and the positions are the same set: posOf one way, (batchOf, withinOf) back. -/
private def posEquiv : Fin 32 × Fin 3136 ≃ Fin 100352 where
  toFun bp := posOf bp.1 bp.2
  invFun n := (batchOf n, withinOf n)
  left_inv bp := Prod.ext (batchOf_posOf bp.1 bp.2) (withinOf_posOf bp.1 bp.2)
  right_inv n := posOf_split n

/-- The block the recursions visit at step i: i taken modulo 32. -/
private def blk (i : ℕ) : Fin 32 := ⟨i % 32, Nat.mod_lt _ (by decide)⟩

/-- Below 32 the reduction modulo 32 does nothing. -/
private theorem blk_of_lt {i : ℕ} (h : i < 32) : blk i = ⟨i, h⟩ := Fin.ext (Nat.mod_eq_of_lt h)
private theorem blk_coe (b : Fin 32) : blk b.val = b := Fin.ext (Nat.mod_eq_of_lt b.isLt)

/-- A sum accumulated block by block from z. -/
def accSum (z : EReal) (g : Fin 32 → Fin 3136 → EReal) : ℕ → EReal
  | 0 => z + ∑ p : Fin 3136, g 0 p
  | n + 1 => accSum z g n + ∑ p : Fin 3136, g ⟨(n + 1) % 32, Nat.mod_lt _ (by decide)⟩ p

/-- After step n the accumulated sum is z plus the lane sums of the blocks visited at steps 0, …, n. -/
private theorem accSum_eq_range (z : EReal) (g : Fin 32 → Fin 3136 → EReal) (n : ℕ) :
    accSum z g n = z + ∑ i ∈ Finset.range (n + 1), ∑ p : Fin 3136, g (blk i) p := by
  induction n with
  | zero =>
    rw [Finset.sum_range_succ, Finset.range_zero, Finset.sum_empty, zero_add]
    rfl
  | succ n ih =>
    rw [Finset.sum_range_succ, ← add_assoc, ← ih]
    rfl

/-- Summing over all positions is summing block by block, each block over its places. -/
private theorem sum_positions (g : Fin 32 → Fin 3136 → EReal) :
    ∑ n : Fin 100352, g (batchOf n) (withinOf n) = ∑ b : Fin 32, ∑ p : Fin 3136, g b p := by
  rw [← Fintype.sum_prod_type']
  exact Fintype.sum_equiv posEquiv.symm _ _ (fun n => rfl)

/-- Steps 0, …, 31 visit each block once, in order. -/
private theorem sum_blocks (g : Fin 32 → Fin 3136 → EReal) :
    ∑ i ∈ Finset.range 32, ∑ p : Fin 3136, g (blk i) p = ∑ b : Fin 32, ∑ p : Fin 3136, g b p := by
  rw [Finset.sum_range]
  exact Finset.sum_congr rfl (fun b _ => by rw [blk_coe])

/-- After the last block it is z plus the sum over all positions. -/
theorem accSum_last (z : EReal) (g : Fin 32 → Fin 3136 → EReal) :
    accSum z g 31 = z + ∑ n : Fin 100352, g (batchOf n) (withinOf n) := by
  rw [sum_positions, ← sum_blocks]
  exact accSum_eq_range z g 31

/-- A minimum accumulated block by block from z, each block's lane minimum itself folded from z. -/
def accMin (z : EReal) (g : Fin 32 → Fin 3136 → EReal) : ℕ → EReal
  | 0 => min z ((Finset.univ : Finset (Fin 3136)).fold min z fun p => g 0 p)
  | n + 1 => min (accMin z g n) ((Finset.univ : Finset (Fin 3136)).fold min z fun p => g ⟨(n + 1) % 32, Nat.mod_lt _ (by decide)⟩ p)

/-- What lies below the accumulated minimum after step n: exactly what lies below z and below every entry of the
blocks visited at steps 0, …, n. The starting value is met once per block, and a bound that holds once holds each time. -/
private theorem le_accMin_iff (z : EReal) (g : Fin 32 → Fin 3136 → EReal) (c : EReal) (n : ℕ) :
    c ≤ accMin z g n ↔ c ≤ z ∧ ∀ i, i ≤ n → ∀ p : Fin 3136, c ≤ g (blk i) p := by
  induction n with
  | zero =>
    show c ≤ min z ((Finset.univ : Finset (Fin 3136)).fold min z fun p => g (blk 0) p) ↔ _
    rw [le_min_iff, Finset.le_fold_min]
    constructor
    · rintro ⟨hz, _, hp⟩
      refine ⟨hz, fun i hi p => ?_⟩
      obtain rfl : i = 0 := Nat.le_zero.mp hi
      exact hp p (Finset.mem_univ p)
    · rintro ⟨hz, h⟩
      exact ⟨hz, hz, fun p _ => h 0 le_rfl p⟩
  | succ n ih =>
    show c ≤ min (accMin z g n) ((Finset.univ : Finset (Fin 3136)).fold min z fun p => g (blk (n + 1)) p) ↔ _
    rw [le_min_iff, ih, Finset.le_fold_min]
    constructor
    · rintro ⟨⟨hz, h⟩, _, hp⟩
      refine ⟨hz, fun i hi p => ?_⟩
      rcases Nat.lt_or_eq_of_le hi with hlt | rfl
      · exact h i (Nat.lt_succ_iff.mp hlt) p
      · exact hp p (Finset.mem_univ p)
    · rintro ⟨hz, h⟩
      exact ⟨⟨hz, fun i hi p => h i (Nat.le_succ_of_le hi) p⟩, hz, fun p _ => h (n + 1) le_rfl p⟩

theorem accMin_last (z : EReal) (g : Fin 32 → Fin 3136 → EReal) :
    accMin z g 31 = (Finset.univ : Finset (Fin 100352)).fold min z fun n => g (batchOf n) (withinOf n) := by
  apply eq_of_forall_le_iff
  intro c
  rw [le_accMin_iff, Finset.le_fold_min]
  refine and_congr_right fun _ => ⟨fun h n _ => ?_, fun h i hi p => ?_⟩
  · have hb : (batchOf n).val ≤ 31 := by have := (batchOf n).isLt; omega
    have hc := h (batchOf n).val hb (withinOf n)
    rwa [blk_coe] at hc
  · have hi' : i < 32 := by omega
    have hc := h (posOf ⟨i, hi'⟩ p) (Finset.mem_univ _)
    rwa [batchOf_posOf, withinOf_posOf, ← blk_of_lt hi'] at hc

/-- The same for a maximum. -/
def accMax (z : EReal) (g : Fin 32 → Fin 3136 → EReal) : ℕ → EReal
  | 0 => max z ((Finset.univ : Finset (Fin 3136)).fold max z fun p => g 0 p)
  | n + 1 => max (accMax z g n) ((Finset.univ : Finset (Fin 3136)).fold max z fun p => g ⟨(n + 1) % 32, Nat.mod_lt _ (by decide)⟩ p)

/-- What lies above the accumulated maximum after step n: exactly what lies above z and above every entry of the
blocks visited at steps 0, …, n. -/
private theorem accMax_le_iff (z : EReal) (g : Fin 32 → Fin 3136 → EReal) (c : EReal) (n : ℕ) :
    accMax z g n ≤ c ↔ z ≤ c ∧ ∀ i, i ≤ n → ∀ p : Fin 3136, g (blk i) p ≤ c := by
  induction n with
  | zero =>
    show max z ((Finset.univ : Finset (Fin 3136)).fold max z fun p => g (blk 0) p) ≤ c ↔ _
    rw [max_le_iff, Finset.fold_max_le]
    constructor
    · rintro ⟨hz, _, hp⟩
      refine ⟨hz, fun i hi p => ?_⟩
      obtain rfl : i = 0 := Nat.le_zero.mp hi
      exact hp p (Finset.mem_univ p)
    · rintro ⟨hz, h⟩
      exact ⟨hz, hz, fun p _ => h 0 le_rfl p⟩
  | succ n ih =>
    show max (accMax z g n) ((Finset.univ : Finset (Fin 3136)).fold max z fun p => g (blk (n + 1)) p) ≤ c ↔ _
    rw [max_le_iff, ih, Finset.fold_max_le]
    constructor
    · rintro ⟨⟨hz, h⟩, _, hp⟩
      refine ⟨hz, fun i hi p => ?_⟩
      rcases Nat.lt_or_eq_of_le hi with hlt | rfl
      · exact h i (Nat.lt_succ_iff.mp hlt) p
      · exact hp p (Finset.mem_univ p)
    · rintro ⟨hz, h⟩
      exact ⟨⟨hz, fun i hi p => h i (Nat.le_succ_of_le hi) p⟩, hz, fun p _ => h (n + 1) le_rfl p⟩

theorem accMax_last (z : EReal) (g : Fin 32 → Fin 3136 → EReal) :
    accMax z g 31 = (Finset.univ : Finset (Fin 100352)).fold max z fun n => g (batchOf n) (withinOf n) := by
  apply eq_of_forall_ge_iff
  intro c
  rw [accMax_le_iff, Finset.fold_max_le]
  refine and_congr_right fun _ => ⟨fun h n _ => ?_, fun h i hi p => ?_⟩
  · have hb : (batchOf n).val ≤ 31 := by have := (batchOf n).isLt; omega
    have hc := h (batchOf n).val hb (withinOf n)
    rwa [blk_coe] at hc
  · have hi' : i < 32 := by omega
    have hc := h (posOf ⟨i, hi'⟩ p) (Finset.mem_univ _)
    rwa [batchOf_posOf, withinOf_posOf, ← blk_of_lt hi'] at hc

/-- The specification's three accumulations are instances. -/
theorem ksum_eq_accSum (x : Fin 32 → Fin 256 → Fin 3136 → EReal) (c : Fin 256) (n : ℕ) :
    ksum x c n = accSum zeroW (fun b p => relu x b c p) n := by
  induction n with
  | zero => rfl
  | succ n ih =>
    show ksum x c n + _ = accSum zeroW (fun b p => relu x b c p) n + _
    rw [ih]
theorem kmin_eq_accMin (x : Fin 32 → Fin 256 → Fin 3136 → EReal) (u : Fin 256 → Fin 256 → EReal) (cv : Fin 256 → EReal) (k : Fin 256) (n : ℕ) :
    kmin x u cv k n = accMin pinfW (fun b p => kclamp x u cv k b p) n := by
  induction n with
  | zero => rfl
  | succ n ih =>
    show min (kmin x u cv k n) _ = min (accMin pinfW (fun b p => kclamp x u cv k b p) n) _
    rw [ih]
theorem kmax_eq_accMax (x : Fin 32 → Fin 256 → Fin 3136 → EReal) (u : Fin 256 → Fin 256 → EReal) (cv : Fin 256 → EReal) (k : Fin 256) (n : ℕ) :
    kmax x u cv k n = accMax ninfW (fun b p => kclamp x u cv k b p) n := by
  induction n with
  | zero => rfl
  | succ n ih =>
    show max (kmax x u cv k n) _ = max (accMax ninfW (fun b p => kclamp x u cv k b p) n) _
    rw [ih]

end Cert.Spec

end
-- ==== Proof.Consts.lean ====
/-
  The two float words this certificate evaluates, as the extended reals their patterns denote: the count
  100352 = 32 · 56 · 56 that the mean divides by, and +∞, against which the precondition compares |a|.
  Stated once, here; the modules that need them cite these and unfold nothing.
-/
import Idealize.ShloMosaic.PureOps.Ideal

noncomputable section

namespace Cert.Consts

open Idealize.ShloMosaic

/-- The word 0x47C40000 denotes the real number 100352: exponent 2¹⁶, fraction 1.53125. -/
theorem ofBits_count : Ideal.ofBits .f32 0x47C40000#32 = ((100352 : ℝ) : EReal) := by
  simp [Ideal.ofBits, Ideal.ieee, -EReal.coe_mul]; norm_num

/-- The word 0x7F800000 denotes +∞: exponent field all ones, fraction zero, sign clear. -/
theorem ofBits_pinf : Ideal.ofBits .f32 0x7F800000#32 = (⊤ : EReal) := by
  simp [Ideal.ofBits, Ideal.ieee]

end Cert.Consts

end
-- ==== Proof.Bridge.lean ====
/-
  The two closed forms agree on real inputs.

  Regrouping a sum of 100352 terms into 32 block sums added in order, and a minimum / maximum over 100352 positions
  into 32 block extrema folded in order, needs only that + , min and max are commutative and associative on the
  extended reals (and min, max idempotent). The one step that needs the inputs real is the projection:
  uᵀ·(r − mean) = uᵀ·r − uᵀ·mean distributes a product over a difference, which fails at the infinities; with x, u
  real, r = max(x, 0), the sums, the mean (a real over the nonzero real 100352) and all products are real.
  Finally 0 − cv = −cv.
-/
import proofs.«103972_j30554397343924_1_alg».proof.Proof.Spec
import proofs.«103972_j30554397343924_1_alg».proof.Proof.Regroup
import proofs.«103972_j30554397343924_1_alg».proof.Proof.Consts
import Idealize.ShloMosaic.PureOps.Ideal
import Idealize.ShloMosaic.PureOps.Ideal.Laws
import Mathlib.Data.EReal.Basic
import Mathlib.Data.EReal.Operations
import Mathlib.Data.EReal.Inv
import Mathlib.Data.Finset.Fold
import Mathlib.Algebra.BigOperators.Group.Finset.Basic

noncomputable section

namespace Cert.Spec

open Idealize.ShloMosaic

/-! ## Real numbers inside the extended reals -/

/-- A finite sum of real numbers, taken in the extended reals, is the real sum. -/
private theorem coe_sum_real {ι : Type} (s : Finset ι) (f : ι → ℝ) :
    (∑ i ∈ s, ((f i : ℝ) : EReal)) = ((∑ i ∈ s, f i : ℝ) : EReal) := by
  classical
  induction s using Finset.induction_on with
  | empty => simp
  | insert a s ha ih => rw [Finset.sum_insert ha, Finset.sum_insert ha, ih, EReal.coe_add]

/-- The zero word is the number 0. -/
private theorem zeroW_eq : zeroW = 0 := Ideal.ofBits_zero_f32

/-- The count word is the real number 100352 = 32 · 3136. -/
private theorem countW_eq : countW = ((100352 : ℝ) : EReal) := Cert.Consts.ofBits_count

/-- The distributive step on reals: uᵀ·r − uᵀ·m = uᵀ·(r − m), all entries real. -/
private theorem proj_split (U R M : Fin 256 → ℝ) :
    (∑ c : Fin 256, ((U c : ℝ) : EReal) * ((R c : ℝ) : EReal)) - ∑ c : Fin 256, ((U c : ℝ) : EReal) * ((M c : ℝ) : EReal)
      = ∑ c : Fin 256, ((U c : ℝ) : EReal) * (((R c : ℝ) : EReal) - ((M c : ℝ) : EReal)) := by
  simp only [← EReal.coe_mul, ← EReal.coe_sub, coe_sum_real]
  congr 1
  rw [← Finset.sum_sub_distrib]
  exact Finset.sum_congr rfl fun c _ => by ring

/-! ## The entries are real -/

/-- relu of a real entry is real. -/
private theorem relu_real (x : Fin 32 → Fin 256 → Fin 3136 → EReal)
    (hx : ∀ b c p, ∃ r : ℝ, x b c p = (r : EReal)) (b : Fin 32) (c : Fin 256) (p : Fin 3136) :
    ∃ r : ℝ, relu x b c p = (r : EReal) := by
  obtain ⟨r, hr⟩ := hx b c p
  refine ⟨max r 0, ?_⟩
  unfold relu
  rw [hr, zeroW_eq, ← EReal.coe_zero, EReal.coe_strictMono.monotone.map_max]

/-- The reference's sum over all positions is real. -/
private theorem rsum_real (x : Fin 32 → Fin 256 → Fin 3136 → EReal)
    (hx : ∀ b c p, ∃ r : ℝ, x b c p = (r : EReal)) (c : Fin 256) :
    ∃ s : ℝ, rsum x c = (s : EReal) := by
  choose R hR using fun n : Fin 100352 => relu_real x hx (batchOf n) c (withinOf n)
  refine ⟨∑ n : Fin 100352, R n, ?_⟩
  unfold rsum
  rw [zeroW_eq, zero_add, ← coe_sum_real]
  exact Finset.sum_congr rfl fun n _ => hR n

/-- The mean is real: a real sum over the nonzero real count. -/
private theorem rmean_real (x : Fin 32 → Fin 256 → Fin 3136 → EReal)
    (hx : ∀ b c p, ∃ r : ℝ, x b c p = (r : EReal)) (c : Fin 256) :
    ∃ m : ℝ, rmean x c = (m : EReal) := by
  obtain ⟨s, hs⟩ := rsum_real x hx c
  refine ⟨s * (1 / 100352), ?_⟩
  unfold rmean
  rw [hs, countW_eq, Ideal.div_coe (by norm_num) _, ← EReal.coe_mul]

/-! ## The three places the forms differ -/

/-- The mean: 32 block sums added in order are the sum over all positions (no finiteness needed). -/
private theorem kmean_eq_rmean (x : Fin 32 → Fin 256 → Fin 3136 → EReal) (c : Fin 256) :
    kmean x c = rmean x c := by
  unfold kmean rmean rsum
  rw [ksum_eq_accSum, accSum_last]

/-- The projection at position (b, p): uᵀ·r − uᵀ·mean = uᵀ·(r − mean), on real entries. -/
private theorem kproj_eq_rproj (x : Fin 32 → Fin 256 → Fin 3136 → EReal) (u : Fin 256 → Fin 256 → EReal)
    (hx : ∀ b c p, ∃ r : ℝ, x b c p = (r : EReal)) (hu : ∀ c k, ∃ r : ℝ, u c k = (r : EReal))
    (k : Fin 256) (b : Fin 32) (p : Fin 3136) :
    kproj x u k b p = rproj x u k (posOf b p) := by
  choose U hU using fun c => hu c k
  choose R hR using fun c => relu_real x hx b c p
  choose M hM using fun c => rmean_real x hx c
  unfold kproj kmeanProj rproj
  rw [batchOf_posOf, withinOf_posOf]
  simp only [kmean_eq_rmean, hU, hR, hM]
  exact proj_split U R M

/-- The clamped projection at position (b, p); 0 − cv = −cv. -/
private theorem kclamp_eq_rclamp (x : Fin 32 → Fin 256 → Fin 3136 → EReal) (u : Fin 256 → Fin 256 → EReal) (cv : Fin 256 → EReal)
    (hx : ∀ b c p, ∃ r : ℝ, x b c p = (r : EReal)) (hu : ∀ c k, ∃ r : ℝ, u c k = (r : EReal))
    (k : Fin 256) (b : Fin 32) (p : Fin 3136) :
    kclamp x u cv k b p = rclamp x u cv k (posOf b p) := by
  unfold kclamp rclamp
  rw [kproj_eq_rproj x u hx hu, zeroW_eq, zero_sub]

/-- The clamped projection at flat position n, read through its block and place. -/
private theorem kclamp_split (x : Fin 32 → Fin 256 → Fin 3136 → EReal) (u : Fin 256 → Fin 256 → EReal) (cv : Fin 256 → EReal)
    (hx : ∀ b c p, ∃ r : ℝ, x b c p = (r : EReal)) (hu : ∀ c k, ∃ r : ℝ, u c k = (r : EReal))
    (k : Fin 256) (n : Fin 100352) :
    kclamp x u cv k (batchOf n) (withinOf n) = rclamp x u cv k n := by
  rw [kclamp_eq_rclamp x u cv hx hu, posOf_split]

/-- The minimum: 32 block minima folded in order are the minimum over all positions. -/
private theorem kmin_eq_rmin (x : Fin 32 → Fin 256 → Fin 3136 → EReal) (u : Fin 256 → Fin 256 → EReal) (cv : Fin 256 → EReal)
    (hx : ∀ b c p, ∃ r : ℝ, x b c p = (r : EReal)) (hu : ∀ c k, ∃ r : ℝ, u c k = (r : EReal))
    (k : Fin 256) : kmin x u cv k 31 = rmin x u cv k := by
  rw [kmin_eq_accMin, accMin_last]
  unfold rmin
  exact Finset.fold_congr fun n _ => kclamp_split x u cv hx hu k n

/-- The maximum, likewise. -/
private theorem kmax_eq_rmax (x : Fin 32 → Fin 256 → Fin 3136 → EReal) (u : Fin 256 → Fin 256 → EReal) (cv : Fin 256 → EReal)
    (hx : ∀ b c p, ∃ r : ℝ, x b c p = (r : EReal)) (hu : ∀ c k, ∃ r : ℝ, u c k = (r : EReal))
    (k : Fin 256) : kmax x u cv k 31 = rmax x u cv k := by
  rw [kmax_eq_accMax, accMax_last]
  unfold rmax
  exact Finset.fold_congr fun n _ => kclamp_split x u cv hx hu k n

/-! ## The result -/

/-- On real inputs the kernel's form and the reference's form of the result are one function. -/
theorem kout_eq_rout (x : Fin 32 → Fin 256 → Fin 3136 → EReal) (u : Fin 256 → Fin 256 → EReal) (cv : Fin 256 → EReal)
    (hx : ∀ b c p, ∃ r : ℝ, x b c p = (r : EReal)) (hu : ∀ c k, ∃ r : ℝ, u c k = (r : EReal)) (hcv : ∀ k, ∃ r : ℝ, cv k = (r : EReal))
    (b : Fin 32) (c : Fin 256) (p : Fin 3136) : kout x u cv b c p = rout x u cv b c p := by
  have hq : (fun k => quant (kclamp x u cv k b p) (kmin x u cv k 31) (kmax x u cv k 31))
      = fun k => quant (rclamp x u cv k (posOf b p)) (rmin x u cv k) (rmax x u cv k) := by
    funext k
    rw [kclamp_eq_rclamp x u cv hx hu, kmin_eq_rmin x u cv hx hu, kmax_eq_rmax x u cv hx hu]
  unfold kout rout
  rw [kmean_eq_rmean, hq]

/-- The same on the arrays. -/
theorem Gk_eq_Gr (a0 : S4.Idx → EReal) (a1 : S2.Idx → EReal) (a2 : S1.Idx → EReal)
    (h0 : ∀ i, ∃ r : ℝ, a0 i = (r : EReal)) (h1 : ∀ i, ∃ r : ℝ, a1 i = (r : EReal)) (h2 : ∀ i, ∃ r : ℝ, a2 i = (r : EReal)) :
    Gk a0 a1 a2 = Gr a0 a1 a2 := by
  funext i
  unfold Gk Gr toArr
  exact kout_eq_rout _ _ _ (fun b c p => h0 _) (fun c k => h1 _) (fun k => h2 _) _ _ _

end Cert.Spec

end
-- ==== Proof.Finite.lean ====
/-
  The precondition read at the ideal instance: "every entry of the three arguments is finite", decoded — each
  entry of each argument array is a real number.
-/
import proofs.«103972_j30554397343924_1_alg».proof.Proof.Gen.Pre_finite_inputs
import proofs.«103972_j30554397343924_1_alg».proof.Proof.Spec
import proofs.«103972_j30554397343924_1_alg».proof.Proof.Consts
import Idealize.ShloMosaic.PureOps.Ideal
import Idealize.ShloMosaic.PureOps.Ideal.Laws
import Idealize.ShloMosaic.Lib.ReduceAll
import Idealize.ShloMosaic.Lib.ValueIdx

noncomputable section

namespace Cert.Finite

open Idealize.ShloMosaic Cert.Pre_finite_inputs

/-- The word 0x7F800000 denotes +∞: exponent field all ones, fraction zero, sign clear. -/
private theorem inf_word : Ideal.ofBits .f32 0x7F800000#32 = (⊤ : EReal) := Cert.Consts.ofBits_pinf

/-- An extended real whose absolute value max a (−a) lies strictly below +∞ is a real number:
    at ⊥ and at ⊤ the maximum is ⊤, which is not below itself. -/
private theorem real_of_abs_lt_top (a : EReal) (h : max a (-a) < (⊤ : EReal)) : ∃ r : ℝ, a = (r : EReal) := by
  induction a using EReal.rec with
  | bot => simp at h
  | coe r => exact ⟨r, rfl⟩
  | top => simp at h

/-- One element of the compare: the bit "|a| < +∞ word" being 1 makes a a real number. -/
private theorem real_of_cmp_bit (a : EReal)
    (h : FloatOps.cmpf (F := Ideal) (φ := .f32) .olt (FloatOps.hostAbsf (F := Ideal) (φ := .f32) a) (Ideal.ofBits .f32 0x7F800000#32) = 1#1) :
    ∃ r : ℝ, a = (r : EReal) := by
  rw [Ideal.hostAbsf_def, Ideal.absf_def, Ideal.cmpf_def, inf_word] at h
  refine real_of_abs_lt_top a ?_
  by_contra hn
  simp [Ideal.cmp, hn] at h

/-- One argument: the all-axes and-reduction of "|a i| < +∞" coming out 1 makes every entry real. The result has rank 0,
    so every operand index reduces into its one index. -/
private theorem real_of_all {s : Shape} {axes : List (Fin s.rank)} (a : FVec Ideal s .f32)
    (hb : S_.BroadcastsInDim s (![] : Fin 0 → Fin s.rank)) (hr : s.ReducesTo axes S_) (hu : 0 < S_.numel)
    (e : Host.reduce IntOp.andi
          (cmpf .olt (Host.absf a) (broadcastInDim s ![] hb (constant (F := Ideal) S_ .f32 0x7F800000#32)))
          (constantI S_ 1 1#1) hr hu ValueIdx.ix0 = 1#1)
    (i : s.Idx) : ∃ r : ℝ, a i = (r : EReal) :=
  real_of_cmp_bit (a i) (Host.reduce_andi_eq_one _ _ hr hu ValueIdx.ix0 e i (ValueIdx.eq_ix0 _))

/-- If the printed precondition is all ones at the ideal instance, every entry of every argument is a real number. -/
theorem real_of_pre [Cert.Pre_finite_inputs.Facts]
    (a0 : FVec Ideal S32x256x56x56 .f32) (a1 : FVec Ideal S256x256 .f32) (a2 : FVec Ideal S256 .f32)
    (h : Cert.Pre_finite_inputs.fn (F := Ideal) a0 a1 a2 = (fun _ => 1#1)) :
    (∀ i, ∃ r : ℝ, a0 i = (r : EReal)) ∧ (∀ i, ∃ r : ℝ, a1 i = (r : EReal)) ∧ (∀ i, ∃ r : ℝ, a2 i = (r : EReal)) := by
  have h0 := congrFun h ValueIdx.ix0
  dsimp only [Cert.Pre_finite_inputs.fn] at h0
  obtain ⟨h01, h2⟩ := IntOp.andi_eq_one.1 h0
  obtain ⟨h0', h1⟩ := IntOp.andi_eq_one.1 h01
  exact ⟨real_of_all a0 _ _ _ h0', real_of_all a1 _ _ _ h1, real_of_all a2 _ _ _ h2⟩

end Cert.Finite

end
-- ==== Proof.Ref.Run.lean ====
/-
  The reference's run, read in six stretches.

  The reference's @main is a straight line of 47 array operations, so after any execution every buffer holds the fold of
  the operations' results over the launch contents. Several arrays are read more than once (the clamped projection four
  times, the minimum three times, the scale and the mean twice), so the result is not read off the fold as one composed
  term, which would repeat each of them whole. Instead the line is cut where few arrays are still to be read — after the
  flattened relu, after the centred input, after the clamp, after the scale, after the quantized projection — and each
  stretch is read on its own: given that the arrays it reads hold their stage values (as functions of the three
  arguments), the arrays it hands on hold theirs, and the arguments are not written. Chaining the six gives the result
  array at the last stage of the three arguments.
-/
import proofs.«103972_j30554397343924_1_alg».proof.Proof.Ref.Read
import Idealize.ShloMosaic.Lib.StableHlo.Run

set_option Elab.async false

noncomputable section

namespace Cert.ReferenceIdeal.Hand

open Cert.ReferenceIdeal Cert.ReferenceIdeal.Gen Cert.ReferenceIdeal.ReadP Idealize.ShloMosaic Idealize.ShloMosaic.TcCoe Idealize.SL.Sem Idealize.ShloMosaic.StableHlo

variable {F : FTy → Type} [FloatOps F]

/-! ## The six stretches of @main's operations (a called function's operations stand in its call's place) -/

/-- relu of the input, then its three layout steps: the input as a [256, 100352] array, channel by flattened (batch, position) (operations 0 to 5). -/
def opsA : List (HloOp τ sig (Elt F)) :=
  [ TRef.nullary (TRef.of (T := ⟨S_, .f32⟩) main_call0_cst) (constant S_ .f32 0x00000000#32),
    TRef.unary (TRef.of (T := ⟨S_, .f32⟩) main_call0_cst) (TRef.of (T := ⟨S32x256x56x56, .f32⟩) main_call0_v0) (broadcastInDim S32x256x56x56 ![] bcast_S_S32x256x56x56),
    TRef.binary (TRef.of (T := ⟨S32x256x56x56, .f32⟩) main_arg0) (TRef.of (T := ⟨S32x256x56x56, .f32⟩) main_call0_v0) (TRef.of (T := ⟨S32x256x56x56, .f32⟩) main_v0) maximumf,
    unary main_v0 main_v1 ((transpose S32x56x56x256 [0, 2, 3, 1] · transposes_S32x256x56x56_S32x56x56x256_0_2_3_1) : (⟨S32x256x56x56, .f32⟩ : BufTy).Contents (Elt F) → (⟨S32x56x56x256, .f32⟩ : BufTy).Contents (Elt F)),
    reshape main_v1 main_v2 rfl shapeCasts_S32x56x56x256_S100352x256,
    unary main_v2 main_v3 ((transpose S256x100352 [1, 0] · transposes_S100352x256_S256x100352_1_0) : (⟨S100352x256, .f32⟩ : BufTy).Contents (Elt F) → (⟨S256x100352, .f32⟩ : BufTy).Contents (Elt F)) ]

/-- the per-channel sum over all positions from the zero word, divided by the count: the mean; and the input minus its mean (operations 6 to 13). -/
def opsB : List (HloOp τ sig (Elt F)) :=
  [ nullary main_cst (constant S_ .f32 0x00000000#32),
    binary main_v3 main_cst main_v4 ((fun x v => Host.reduceAdd x v reducesTo_S256x100352_S256_d1 h_S_) : (⟨S256x100352, .f32⟩ : BufTy).Contents (Elt F) → (⟨S_, .f32⟩ : BufTy).Contents (Elt F) → (⟨S256, .f32⟩ : BufTy).Contents (Elt F)),
    unary main_v4 main_v5 (broadcastInDim S256x1 ![0] bcast_S256_S256x1_0 : (⟨S256, .f32⟩ : BufTy).Contents (Elt F) → (⟨S256x1, .f32⟩ : BufTy).Contents (Elt F)),
    nullary main_cst_0 (constant S_ .f32 0x47C40000#32),
    unary main_cst_0 main_v6 (broadcastInDim S256x1 ![] bcast_S_S256x1 : (⟨S_, .f32⟩ : BufTy).Contents (Elt F) → (⟨S256x1, .f32⟩ : BufTy).Contents (Elt F)),
    binary main_v5 main_v6 main_v7 (Host.divf : (⟨S256x1, .f32⟩ : BufTy).Contents (Elt F) → (⟨S256x1, .f32⟩ : BufTy).Contents (Elt F) → (⟨S256x1, .f32⟩ : BufTy).Contents (Elt F)),
    unary main_v7 main_v8 (broadcastInDim S256x100352 ![0, 1] bcast_S256x1_S256x100352_0_1 : (⟨S256x1, .f32⟩ : BufTy).Contents (Elt F) → (⟨S256x100352, .f32⟩ : BufTy).Contents (Elt F)),
    binary main_v3 main_v8 main_v9 (subf : (⟨S256x100352, .f32⟩ : BufTy).Contents (Elt F) → (⟨S256x100352, .f32⟩ : BufTy).Contents (Elt F) → (⟨S256x100352, .f32⟩ : BufTy).Contents (Elt F)) ]

/-- the projection with the transposed basis, and its clamp between minus the clamp column and the clamp column (operations 14 to 21). -/
def opsC : List (HloOp τ sig (Elt F)) :=
  [ unary main_arg1 main_v10 ((transpose S256x256 [1, 0] · transposes_S256x256_S256x256_1_0) : (⟨S256x256, .f32⟩ : BufTy).Contents (Elt F) → (⟨S256x256, .f32⟩ : BufTy).Contents (Elt F)),
    binary main_v10 main_v9 main_v11 ((fun l r => Host.dotGeneral dot_S256x256_S256x100352_S256x100352_1_0_0_1_n_n none l r) : (⟨S256x256, .f32⟩ : BufTy).Contents (Elt F) → (⟨S256x100352, .f32⟩ : BufTy).Contents (Elt F) → (⟨S256x100352, .f32⟩ : BufTy).Contents (Elt F)),
    unary main_arg2 main_v12 (broadcastInDim S256x1 ![0] bcast_S256_S256x1_0 : (⟨S256, .f32⟩ : BufTy).Contents (Elt F) → (⟨S256x1, .f32⟩ : BufTy).Contents (Elt F)),
    unary main_v12 main_v13 (Host.negf : (⟨S256x1, .f32⟩ : BufTy).Contents (Elt F) → (⟨S256x1, .f32⟩ : BufTy).Contents (Elt F)),
    TRef.unary (TRef.of (T := ⟨S256x1, .f32⟩) main_v13) (TRef.of (T := ⟨S256x100352, .f32⟩) main_call1_v0) (broadcastInDim S256x100352 ![0, 1] bcast_S256x1_S256x100352_0_1),
    TRef.binary (TRef.of (T := ⟨S256x100352, .f32⟩) main_call1_v0) (TRef.of (T := ⟨S256x100352, .f32⟩) main_v11) (TRef.of (T := ⟨S256x100352, .f32⟩) main_call1_v1) maximumf,
    TRef.unary (TRef.of (T := ⟨S256x1, .f32⟩) main_v12) (TRef.of (T := ⟨S256x100352, .f32⟩) main_call1_v2) (broadcastInDim S256x100352 ![0, 1] bcast_S256x1_S256x100352_0_1),
    TRef.binary (TRef.of (T := ⟨S256x100352, .f32⟩) main_call1_v2) (TRef.of (T := ⟨S256x100352, .f32⟩) main_call1_v1) (TRef.of (T := ⟨S256x100352, .f32⟩) main_v14) minimumf ]

/-- the per-channel maximum and minimum of the clamped projection, and 255 divided by their difference (operations 22 to 31). -/
def opsD : List (HloOp τ sig (Elt F)) :=
  [ nullary main_cst_1 (constant S_ .f32 0xFF800000#32),
    binary main_v14 main_cst_1 main_v15 ((fun x v => Host.reduce FloatOps.maximumf x v reducesTo_S256x100352_S256_d1 h_S_) : (⟨S256x100352, .f32⟩ : BufTy).Contents (Elt F) → (⟨S_, .f32⟩ : BufTy).Contents (Elt F) → (⟨S256, .f32⟩ : BufTy).Contents (Elt F)),
    unary main_v15 main_v16 (broadcastInDim S256x1 ![0] bcast_S256_S256x1_0 : (⟨S256, .f32⟩ : BufTy).Contents (Elt F) → (⟨S256x1, .f32⟩ : BufTy).Contents (Elt F)),
    nullary main_cst_2 (constant S_ .f32 0x7F800000#32),
    binary main_v14 main_cst_2 main_v17 ((fun x v => Host.reduce FloatOps.minimumf x v reducesTo_S256x100352_S256_d1 h_S_) : (⟨S256x100352, .f32⟩ : BufTy).Contents (Elt F) → (⟨S_, .f32⟩ : BufTy).Contents (Elt F) → (⟨S256, .f32⟩ : BufTy).Contents (Elt F)),
    unary main_v17 main_v18 (broadcastInDim S256x1 ![0] bcast_S256_S256x1_0 : (⟨S256, .f32⟩ : BufTy).Contents (Elt F) → (⟨S256x1, .f32⟩ : BufTy).Contents (Elt F)),
    binary main_v16 main_v18 main_v19 (subf : (⟨S256x1, .f32⟩ : BufTy).Contents (Elt F) → (⟨S256x1, .f32⟩ : BufTy).Contents (Elt F) → (⟨S256x1, .f32⟩ : BufTy).Contents (Elt F)),
    nullary main_cst_3 (constant S_ .f32 0x437F0000#32),
    unary main_cst_3 main_v20 (broadcastInDim S256x1 ![] bcast_S_S256x1 : (⟨S_, .f32⟩ : BufTy).Contents (Elt F) → (⟨S256x1, .f32⟩ : BufTy).Contents (Elt F)),
    binary main_v20 main_v19 main_v21 (Host.divf : (⟨S256x1, .f32⟩ : BufTy).Contents (Elt F) → (⟨S256x1, .f32⟩ : BufTy).Contents (Elt F) → (⟨S256x1, .f32⟩ : BufTy).Contents (Elt F)) ]

/-- quantize: subtract the minimum, scale, round half to even, divide by the scale, add the minimum back (operations 32 to 40). -/
def opsE : List (HloOp τ sig (Elt F)) :=
  [ unary main_v18 main_v22 (broadcastInDim S256x100352 ![0, 1] bcast_S256x1_S256x100352_0_1 : (⟨S256x1, .f32⟩ : BufTy).Contents (Elt F) → (⟨S256x100352, .f32⟩ : BufTy).Contents (Elt F)),
    binary main_v14 main_v22 main_v23 (subf : (⟨S256x100352, .f32⟩ : BufTy).Contents (Elt F) → (⟨S256x100352, .f32⟩ : BufTy).Contents (Elt F) → (⟨S256x100352, .f32⟩ : BufTy).Contents (Elt F)),
    unary main_v21 main_v24 (broadcastInDim S256x100352 ![0, 1] bcast_S256x1_S256x100352_0_1 : (⟨S256x1, .f32⟩ : BufTy).Contents (Elt F) → (⟨S256x100352, .f32⟩ : BufTy).Contents (Elt F)),
    binary main_v23 main_v24 main_v25 (mulf : (⟨S256x100352, .f32⟩ : BufTy).Contents (Elt F) → (⟨S256x100352, .f32⟩ : BufTy).Contents (Elt F) → (⟨S256x100352, .f32⟩ : BufTy).Contents (Elt F)),
    TRef.unary (TRef.of (T := ⟨S256x100352, .f32⟩) main_v25) (TRef.of (T := ⟨S256x100352, .f32⟩) main_v26) Host.roundeven,
    unary main_v21 main_v27 (broadcastInDim S256x100352 ![0, 1] bcast_S256x1_S256x100352_0_1 : (⟨S256x1, .f32⟩ : BufTy).Contents (Elt F) → (⟨S256x100352, .f32⟩ : BufTy).Contents (Elt F)),
    binary main_v26 main_v27 main_v28 (Host.divf : (⟨S256x100352, .f32⟩ : BufTy).Contents (Elt F) → (⟨S256x100352, .f32⟩ : BufTy).Contents (Elt F) → (⟨S256x100352, .f32⟩ : BufTy).Contents (Elt F)),
    unary main_v18 main_v29 (broadcastInDim S256x100352 ![0, 1] bcast_S256x1_S256x100352_0_1 : (⟨S256x1, .f32⟩ : BufTy).Contents (Elt F) → (⟨S256x100352, .f32⟩ : BufTy).Contents (Elt F)),
    binary main_v28 main_v29 main_v30 (addf : (⟨S256x100352, .f32⟩ : BufTy).Contents (Elt F) → (⟨S256x100352, .f32⟩ : BufTy).Contents (Elt F) → (⟨S256x100352, .f32⟩ : BufTy).Contents (Elt F)) ]

/-- unproject with the basis, add the mean back, and the three layout steps back to [32, 256, 56, 56] (operations 41 to 46). -/
def opsF : List (HloOp τ sig (Elt F)) :=
  [ binary main_arg1 main_v30 main_v31 ((fun l r => Host.dotGeneral dot_S256x256_S256x100352_S256x100352_1_0_0_1_n_n none l r) : (⟨S256x256, .f32⟩ : BufTy).Contents (Elt F) → (⟨S256x100352, .f32⟩ : BufTy).Contents (Elt F) → (⟨S256x100352, .f32⟩ : BufTy).Contents (Elt F)),
    unary main_v7 main_v32 (broadcastInDim S256x100352 ![0, 1] bcast_S256x1_S256x100352_0_1 : (⟨S256x1, .f32⟩ : BufTy).Contents (Elt F) → (⟨S256x100352, .f32⟩ : BufTy).Contents (Elt F)),
    binary main_v31 main_v32 main_v33 (addf : (⟨S256x100352, .f32⟩ : BufTy).Contents (Elt F) → (⟨S256x100352, .f32⟩ : BufTy).Contents (Elt F) → (⟨S256x100352, .f32⟩ : BufTy).Contents (Elt F)),
    unary main_v33 main_v34 ((transpose S100352x256 [1, 0] · transposes_S256x100352_S100352x256_1_0) : (⟨S256x100352, .f32⟩ : BufTy).Contents (Elt F) → (⟨S100352x256, .f32⟩ : BufTy).Contents (Elt F)),
    reshape main_v34 main_v35 rfl shapeCasts_S100352x256_S32x56x56x256,
    unary main_v35 main_v36 ((transpose S32x256x56x56 [0, 3, 1, 2] · transposes_S32x56x56x256_S32x256x56x56_0_3_1_2) : (⟨S32x56x56x256, .f32⟩ : BufTy).Contents (Elt F) → (⟨S32x256x56x56, .f32⟩ : BufTy).Contents (Elt F)) ]

/-- @main's 47 operations, in order. -/
def ops : List (HloOp τ sig (Elt F)) := opsA ++ opsB ++ opsC ++ opsD ++ opsE ++ opsF

-- one re-association per statement under the chain of binds: the rewrite recurses once per statement
set_option maxRecDepth 4096 in
/-- @main is that straight line: the three outlined functions' definitions unfolded at their calls and the call records
    at their fields, the stretches appended, and both sides are one chain of steps once sequencing is re-associated. -/
theorem main_eq (c : Dev nD) : main (F := F) c = seq ops := by
  simp only [ops, opsA, opsB, opsC, opsD, opsE, opsF, List.cons_append, List.nil_append, seq,
    main, fn_relu.body, fn_clip.body, fn_round.body, main_call0, main_call1, main_call2, bind_assoc, pure_bind]
theorem scopedRefs_eq : (Finset.univ.filter fun b : Ref sig .tc => b.isScoped) = ∅ := by decide
theorem scopedSems_eq : (Finset.univ.filter fun sm : SemLoc sig => sm.isScoped .tc) = ∅ := by decide

/-! ## Every operation touches TensorCore buffers only and determines its result, stretch by stretch -/

private theorem forall_app {α : Type} {p : α → Prop} {l₁ l₂ : List α} (h₁ : l₁.Forall p) (h₂ : l₂.Forall p) :
    (l₁ ++ l₂).Forall p :=
  List.forall_iff_forall_mem.2 (List.forall_mem_append.2 ⟨List.forall_iff_forall_mem.1 h₁, List.forall_iff_forall_mem.1 h₂⟩)

theorem opsA_sub : (opsA : List (HloOp τ sig (Elt F))).Forall fun op => op.bufs ⊆ tcRefs τ sig :=
  ⟨nullary_bufs_sub .., unary_bufs_sub .., binary_bufs_sub .., unary_bufs_sub .., reshape_bufs_sub .., unary_bufs_sub ..⟩
theorem opsA_fresh : ∀ op ∈ (opsA : List (HloOp τ sig (Elt F))), op.fresh = ∅ := by
  intro _ h; unfold opsA at h; (repeat (cases h with | head => rfl | tail _ h => ?_)); exact nomatch h

theorem opsB_sub : (opsB : List (HloOp τ sig (Elt F))).Forall fun op => op.bufs ⊆ tcRefs τ sig :=
  ⟨nullary_bufs_sub .., binary_bufs_sub .., unary_bufs_sub .., nullary_bufs_sub .., unary_bufs_sub .., binary_bufs_sub .., unary_bufs_sub .., binary_bufs_sub ..⟩
theorem opsB_fresh : ∀ op ∈ (opsB : List (HloOp τ sig (Elt F))), op.fresh = ∅ := by
  intro _ h; unfold opsB at h; (repeat (cases h with | head => rfl | tail _ h => ?_)); exact nomatch h

theorem opsC_sub : (opsC : List (HloOp τ sig (Elt F))).Forall fun op => op.bufs ⊆ tcRefs τ sig :=
  ⟨unary_bufs_sub .., binary_bufs_sub .., unary_bufs_sub .., unary_bufs_sub .., unary_bufs_sub .., binary_bufs_sub .., unary_bufs_sub .., binary_bufs_sub ..⟩
theorem opsC_fresh : ∀ op ∈ (opsC : List (HloOp τ sig (Elt F))), op.fresh = ∅ := by
  intro _ h; unfold opsC at h; (repeat (cases h with | head => rfl | tail _ h => ?_)); exact nomatch h

theorem opsD_sub : (opsD : List (HloOp τ sig (Elt F))).Forall fun op => op.bufs ⊆ tcRefs τ sig :=
  ⟨nullary_bufs_sub .., binary_bufs_sub .., unary_bufs_sub .., nullary_bufs_sub .., binary_bufs_sub .., unary_bufs_sub .., binary_bufs_sub .., nullary_bufs_sub .., unary_bufs_sub .., binary_bufs_sub ..⟩
theorem opsD_fresh : ∀ op ∈ (opsD : List (HloOp τ sig (Elt F))), op.fresh = ∅ := by
  intro _ h; unfold opsD at h; (repeat (cases h with | head => rfl | tail _ h => ?_)); exact nomatch h

theorem opsE_sub : (opsE : List (HloOp τ sig (Elt F))).Forall fun op => op.bufs ⊆ tcRefs τ sig :=
  ⟨unary_bufs_sub .., binary_bufs_sub .., unary_bufs_sub .., binary_bufs_sub .., unary_bufs_sub .., unary_bufs_sub .., binary_bufs_sub .., unary_bufs_sub .., binary_bufs_sub ..⟩
theorem opsE_fresh : ∀ op ∈ (opsE : List (HloOp τ sig (Elt F))), op.fresh = ∅ := by
  intro _ h; unfold opsE at h; (repeat (cases h with | head => rfl | tail _ h => ?_)); exact nomatch h

theorem opsF_sub : (opsF : List (HloOp τ sig (Elt F))).Forall fun op => op.bufs ⊆ tcRefs τ sig :=
  ⟨binary_bufs_sub .., unary_bufs_sub .., binary_bufs_sub .., unary_bufs_sub .., reshape_bufs_sub .., unary_bufs_sub ..⟩
theorem opsF_fresh : ∀ op ∈ (opsF : List (HloOp τ sig (Elt F))), op.fresh = ∅ := by
  intro _ h; unfold opsF at h; (repeat (cases h with | head => rfl | tail _ h => ?_)); exact nomatch h

theorem ops_sub : (ops : List (HloOp τ sig (Elt F))).Forall fun op => op.bufs ⊆ tcRefs τ sig :=
  forall_app (forall_app (forall_app (forall_app (forall_app opsA_sub opsB_sub) opsC_sub) opsD_sub) opsE_sub) opsF_sub

theorem ops_fresh : ∀ op ∈ (ops : List (HloOp τ sig (Elt F))), op.fresh = ∅ := by
  intro op h
  unfold ops at h
  simp only [List.mem_append] at h
  rcases h with ((((h | h) | h) | h) | h) | h
  · exact opsA_fresh op h
  · exact opsB_fresh op h
  · exact opsC_fresh op h
  · exact opsD_fresh op h
  · exact opsE_fresh op h
  · exact opsF_fresh op h

/-- The fold over the whole line is the six stretches' folds in turn. -/
theorem after_ops_eq (V : Valuation τ sig (Elt F)) :
    after ops V = after opsF (after opsE (after opsD (after opsC (after opsB (after opsA V))))) := by
  unfold ops
  rw [after_append, after_append, after_append, after_append, after_append]

/-! ## No stretch writes an argument -/

theorem A_arg0 (W : Valuation τ sig (Elt F)) :
    after opsA W (main_arg0 : DevRef τ sig) = W (main_arg0 : DevRef τ sig) := by
  unfold opsA
  after_results

theorem A_arg1 (W : Valuation τ sig (Elt F)) :
    after opsA W (main_arg1 : DevRef τ sig) = W (main_arg1 : DevRef τ sig) := by
  unfold opsA
  after_results

theorem A_arg2 (W : Valuation τ sig (Elt F)) :
    after opsA W (main_arg2 : DevRef τ sig) = W (main_arg2 : DevRef τ sig) := by
  unfold opsA
  after_results

theorem B_arg0 (W : Valuation τ sig (Elt F)) :
    after opsB W (main_arg0 : DevRef τ sig) = W (main_arg0 : DevRef τ sig) := by
  unfold opsB
  after_results

theorem B_arg1 (W : Valuation τ sig (Elt F)) :
    after opsB W (main_arg1 : DevRef τ sig) = W (main_arg1 : DevRef τ sig) := by
  unfold opsB
  after_results

theorem B_arg2 (W : Valuation τ sig (Elt F)) :
    after opsB W (main_arg2 : DevRef τ sig) = W (main_arg2 : DevRef τ sig) := by
  unfold opsB
  after_results

theorem C_arg0 (W : Valuation τ sig (Elt F)) :
    after opsC W (main_arg0 : DevRef τ sig) = W (main_arg0 : DevRef τ sig) := by
  unfold opsC
  after_results

theorem C_arg1 (W : Valuation τ sig (Elt F)) :
    after opsC W (main_arg1 : DevRef τ sig) = W (main_arg1 : DevRef τ sig) := by
  unfold opsC
  after_results

theorem C_arg2 (W : Valuation τ sig (Elt F)) :
    after opsC W (main_arg2 : DevRef τ sig) = W (main_arg2 : DevRef τ sig) := by
  unfold opsC
  after_results

theorem D_arg0 (W : Valuation τ sig (Elt F)) :
    after opsD W (main_arg0 : DevRef τ sig) = W (main_arg0 : DevRef τ sig) := by
  unfold opsD
  after_results

theorem D_arg1 (W : Valuation τ sig (Elt F)) :
    after opsD W (main_arg1 : DevRef τ sig) = W (main_arg1 : DevRef τ sig) := by
  unfold opsD
  after_results

theorem D_arg2 (W : Valuation τ sig (Elt F)) :
    after opsD W (main_arg2 : DevRef τ sig) = W (main_arg2 : DevRef τ sig) := by
  unfold opsD
  after_results

theorem E_arg0 (W : Valuation τ sig (Elt F)) :
    after opsE W (main_arg0 : DevRef τ sig) = W (main_arg0 : DevRef τ sig) := by
  unfold opsE
  after_results

theorem E_arg1 (W : Valuation τ sig (Elt F)) :
    after opsE W (main_arg1 : DevRef τ sig) = W (main_arg1 : DevRef τ sig) := by
  unfold opsE
  after_results

theorem E_arg2 (W : Valuation τ sig (Elt F)) :
    after opsE W (main_arg2 : DevRef τ sig) = W (main_arg2 : DevRef τ sig) := by
  unfold opsE
  after_results

theorem F_arg0 (W : Valuation τ sig (Elt F)) :
    after opsF W (main_arg0 : DevRef τ sig) = W (main_arg0 : DevRef τ sig) := by
  unfold opsF
  after_results

theorem F_arg1 (W : Valuation τ sig (Elt F)) :
    after opsF W (main_arg1 : DevRef τ sig) = W (main_arg1 : DevRef τ sig) := by
  unfold opsF
  after_results

theorem F_arg2 (W : Valuation τ sig (Elt F)) :
    after opsF W (main_arg2 : DevRef τ sig) = W (main_arg2 : DevRef τ sig) := by
  unfold opsF
  after_results

/-! ## Stretch A: the flattened relu -/

theorem A_v3 (W : Valuation τ sig (Elt F)) (a0 : (⟨S32x256x56x56, .f32⟩ : BufTy).Contents (Elt F)) (h0 : W (main_arg0 : DevRef τ sig) = a0) :
    after opsA W (main_v3 : DevRef τ sig) = val_main_v3 a0 := by
  subst h0
  unfold opsA
  after_results
  rfl

/-! ## Stretch B: the mean and the centred input, from the flattened relu -/

theorem B_v7 (W : Valuation τ sig (Elt F)) (a0 : (⟨S32x256x56x56, .f32⟩ : BufTy).Contents (Elt F)) (h3 : W (main_v3 : DevRef τ sig) = val_main_v3 a0) :
    after opsB W (main_v7 : DevRef τ sig) = val_main_v7 a0 := by
  unfold opsB
  after_results
  rw [h3]
  rfl

theorem B_v9 (W : Valuation τ sig (Elt F)) (a0 : (⟨S32x256x56x56, .f32⟩ : BufTy).Contents (Elt F)) (h3 : W (main_v3 : DevRef τ sig) = val_main_v3 a0) :
    after opsB W (main_v9 : DevRef τ sig) = val_main_v9 a0 := by
  unfold opsB
  after_results
  rw [h3]
  rfl

/-! ## Stretch C: the clamped projection, from the centred input, the basis and the clamp column; the mean is not written -/

theorem C_v14 (W : Valuation τ sig (Elt F)) (a0 : (⟨S32x256x56x56, .f32⟩ : BufTy).Contents (Elt F)) (a1 : (⟨S256x256, .f32⟩ : BufTy).Contents (Elt F)) (a2 : (⟨S256, .f32⟩ : BufTy).Contents (Elt F))
    (h9 : W (main_v9 : DevRef τ sig) = val_main_v9 a0) (h1 : W (main_arg1 : DevRef τ sig) = a1) (h2 : W (main_arg2 : DevRef τ sig) = a2) :
    after opsC W (main_v14 : DevRef τ sig) = val_main_v14 a0 a1 a2 := by
  unfold opsC
  after_results
  rw [h9, h1, h2]
  rfl

theorem C_v7 (W : Valuation τ sig (Elt F)) :
    after opsC W (main_v7 : DevRef τ sig) = W (main_v7 : DevRef τ sig) := by
  unfold opsC
  after_results

/-! ## Stretch D: the minimum and the scale, from the clamped projection; the clamped projection and the mean are not written -/

theorem D_v18 (W : Valuation τ sig (Elt F)) (a0 : (⟨S32x256x56x56, .f32⟩ : BufTy).Contents (Elt F)) (a1 : (⟨S256x256, .f32⟩ : BufTy).Contents (Elt F)) (a2 : (⟨S256, .f32⟩ : BufTy).Contents (Elt F))
    (h14 : W (main_v14 : DevRef τ sig) = val_main_v14 a0 a1 a2) :
    after opsD W (main_v18 : DevRef τ sig) = val_main_v18 a0 a1 a2 := by
  unfold opsD
  after_results
  rw [h14]
  rfl

theorem D_v21 (W : Valuation τ sig (Elt F)) (a0 : (⟨S32x256x56x56, .f32⟩ : BufTy).Contents (Elt F)) (a1 : (⟨S256x256, .f32⟩ : BufTy).Contents (Elt F)) (a2 : (⟨S256, .f32⟩ : BufTy).Contents (Elt F))
    (h14 : W (main_v14 : DevRef τ sig) = val_main_v14 a0 a1 a2) :
    after opsD W (main_v21 : DevRef τ sig) = val_main_v21 a0 a1 a2 := by
  unfold opsD
  after_results
  rw [h14]
  rfl

theorem D_v14 (W : Valuation τ sig (Elt F)) :
    after opsD W (main_v14 : DevRef τ sig) = W (main_v14 : DevRef τ sig) := by
  unfold opsD
  after_results

theorem D_v7 (W : Valuation τ sig (Elt F)) :
    after opsD W (main_v7 : DevRef τ sig) = W (main_v7 : DevRef τ sig) := by
  unfold opsD
  after_results

/-! ## Stretch E: the quantized projection, from the clamped projection, the minimum and the scale; the mean is not written -/

theorem E_v30 (W : Valuation τ sig (Elt F)) (a0 : (⟨S32x256x56x56, .f32⟩ : BufTy).Contents (Elt F)) (a1 : (⟨S256x256, .f32⟩ : BufTy).Contents (Elt F)) (a2 : (⟨S256, .f32⟩ : BufTy).Contents (Elt F))
    (h14 : W (main_v14 : DevRef τ sig) = val_main_v14 a0 a1 a2) (h18 : W (main_v18 : DevRef τ sig) = val_main_v18 a0 a1 a2)
    (h21 : W (main_v21 : DevRef τ sig) = val_main_v21 a0 a1 a2) :
    after opsE W (main_v30 : DevRef τ sig) = val_main_v30 a0 a1 a2 := by
  unfold opsE
  after_results
  rw [h14, h18, h21]
  rfl

theorem E_v7 (W : Valuation τ sig (Elt F)) :
    after opsE W (main_v7 : DevRef τ sig) = W (main_v7 : DevRef τ sig) := by
  unfold opsE
  after_results

/-! ## Stretch F: the result, from the quantized projection, the basis and the mean -/

theorem F_v36 (W : Valuation τ sig (Elt F)) (a0 : (⟨S32x256x56x56, .f32⟩ : BufTy).Contents (Elt F)) (a1 : (⟨S256x256, .f32⟩ : BufTy).Contents (Elt F)) (a2 : (⟨S256, .f32⟩ : BufTy).Contents (Elt F))
    (h30 : W (main_v30 : DevRef τ sig) = val_main_v30 a0 a1 a2) (h7 : W (main_v7 : DevRef τ sig) = val_main_v7 a0)
    (h1 : W (main_arg1 : DevRef τ sig) = a1) :
    after opsF W (main_v36 : DevRef τ sig) = val_main_v36 a0 a1 a2 := by
  unfold opsF
  after_results
  rw [h30, h7, h1]
  rfl

/-! ## The six in turn -/

/-- After the whole line the result array holds the last stage of the three arguments' launch contents. -/
theorem after_ops_v36 (V : Valuation τ sig (Elt F)) :
    after ops V (main_v36 : DevRef τ sig)
      = val_main_v36 (V (main_arg0 : DevRef τ sig)) (V (main_arg1 : DevRef τ sig)) (V (main_arg2 : DevRef τ sig)) := by
  rw [after_ops_eq]
  have h3 := A_v3 V _ rfl
  have hA1 := A_arg1 V
  have hA2 := A_arg2 V
  have h7 := B_v7 _ _ h3
  have h9 := B_v9 _ _ h3
  have hB1 := (B_arg1 _).trans hA1
  have hB2 := (B_arg2 _).trans hA2
  have h14 := C_v14 _ _ _ _ h9 hB1 hB2
  have h7C := (C_v7 _).trans h7
  have hC1 := (C_arg1 _).trans hB1
  have h18 := D_v18 _ _ _ _ h14
  have h21 := D_v21 _ _ _ _ h14
  have h14D := (D_v14 _).trans h14
  have h7D := (D_v7 _).trans h7C
  have hD1 := (D_arg1 _).trans hC1
  have h30 := E_v30 _ _ _ _ h14D h18 h21
  have h7E := (E_v7 _).trans h7D
  have hE1 := (E_arg1 _).trans hD1
  exact F_v36 _ _ _ _ h30 h7E hE1

theorem after_ops_arg0 (V : Valuation τ sig (Elt F)) : after ops V (main_arg0 : DevRef τ sig) = V (main_arg0 : DevRef τ sig) := by
  rw [after_ops_eq, F_arg0, E_arg0, D_arg0, C_arg0, B_arg0, A_arg0]

theorem after_ops_arg1 (V : Valuation τ sig (Elt F)) : after ops V (main_arg1 : DevRef τ sig) = V (main_arg1 : DevRef τ sig) := by
  rw [after_ops_eq, F_arg1, E_arg1, D_arg1, C_arg1, B_arg1, A_arg1]

theorem after_ops_arg2 (V : Valuation τ sig (Elt F)) : after ops V (main_arg2 : DevRef τ sig) = V (main_arg2 : DevRef τ sig) := by
  rw [after_ops_eq, F_arg2, E_arg2, D_arg2, C_arg2, B_arg2, A_arg2]

/-- On every device, for any float values, from any memory with zero counters: every weakly fair execution of the
    reference's @main terminates with the result array at the last stage of the three arguments' launch contents, and
    the arguments as they were. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v36)
        = val_main_v36 (m ((c.tc : Thread nD τ).loc main_arg0)) (m ((c.tc : Thread nD τ).loc main_arg1)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c => ⟨(h c main_v36).trans (after_ops_v36 (launchContents m c)),
      (h c main_arg0).trans (after_ops_arg0 (launchContents m c)),
      (h c main_arg1).trans (after_ops_arg1 (launchContents m c)),
      (h c main_arg2).trans (after_ops_arg2 (launchContents m c))⟩)
    (run_seq scopedRefs_eq scopedSems_eq defs main (fun _ => ops) main_eq (fun _ => ops_sub) m ρ (fun _ => ops_fresh))

end Cert.ReferenceIdeal.Hand

end
-- ==== Proof.Ref.Value.lean ====
/-
  The reference's last stage read at an index: composed from the argument arrays operation by operation, the result
  array is the specification's reference form — relu, the mean over all 100352 positions, the projection of the
  centred data, the clamp, its extrema over all positions, the quantizer, the unprojection plus the mean — at
  position n = 3136·b + 56·h + w of the flattened axis.
-/
import proofs.«103972_j30554397343924_1_alg».proof.Proof.Ref.Read
import proofs.«103972_j30554397343924_1_alg».proof.Proof.Spec
import Idealize.ShloMosaic.Lib.Pipeline.Value
import Idealize.ShloMosaic.Lib.ValueIdx
import Idealize.ShloMosaic.Lib.ValueLayout
import Idealize.ShloMosaic.PureOps.Ideal.Laws

noncomputable section

namespace Cert.ReferenceIdeal.RefValue

open Cert.ReferenceIdeal Cert.ReferenceIdeal.Gen Idealize.ShloMosaic Idealize.ShloMosaic.TcCoe
open Cert.ReferenceIdeal.ReadP Cert.Spec Idealize.ShloMosaic.ValueIdx

section Layers

variable (a0 : S32x256x56x56.Idx → EReal) (a1 : S256x256.Idx → EReal) (a2 : S256.Idx → EReal)

/-- Position n of the flattened axis and channel c, carried back through the transpose, the reshape and the transpose:
    batch n / 3136, channel c, row (n % 3136) / 56, column (n % 3136) % 56. -/
private theorem idx_relu (c : Fin 256) (n : Fin 100352) :
    idx_main_v1 (idx_main_v2 (idx_main_v3 (ix2 c n)))
      = ix4 (batchOf n) c (⟨(withinOf n).val / 56, by have := (withinOf n).isLt; omega⟩ : Fin 56)
          (⟨(withinOf n).val % 56, Nat.mod_lt _ (by decide)⟩ : Fin 56) := by
  have hc := c.isLt
  have hn := n.isLt
  funext a
  refine Fin.ext ?_
  match a with
  | ⟨0, _⟩ => show (n.val * 256 + c.val) / 802816 = n.val / 3136; omega
  | ⟨1, _⟩ => show (n.val * 256 + c.val) % 256 = c.val; omega
  | ⟨2, _⟩ => show (n.val * 256 + c.val) / 14336 % 56 = n.val % 3136 / 56; omega
  | ⟨3, _⟩ => show (n.val * 256 + c.val) / 256 % 56 = n.val % 3136 % 56; omega

/-- The transposed, flattened relu at [c, n]. -/
private theorem v3_at (c : Fin 256) (n : Fin 100352) :
    val_main_v3 (F := Ideal) a0 (ix2 c n) = relu (xOf a0) (batchOf n) c (withinOf n) := by
  rw [val_main_v3_apply, val_main_v2_apply, val_main_v1_apply, val_main_v0_apply, val_main_call0_v0_apply,
    val_main_call0_cst_apply, idx_relu, Ideal.maximumf_def, Ideal.ofBits_def]
  rfl

/-- The per-channel mean, as the column [c, 0]. -/
private theorem v7_at (c : Fin 256) :
    val_main_v7 (F := Ideal) a0 (ix2 c (0 : Fin 1)) = rmean (xOf a0) c := by
  have e4 : ∀ k : Fin 100352, idx_main_v4 (idx_main_v5 (ix2 c (0 : Fin 1))) k = ix2 c k := fun k =>
    funext fun a => Fin.ext (by match a with | ⟨0, _⟩ => rfl | ⟨1, _⟩ => rfl)
  rw [val_main_v7_apply, val_main_v5_apply, val_main_v6_apply, val_main_cst_0_apply, val_main_v4_apply,
    val_main_cst_apply, Ideal.hostDivf_def, Ideal.ofBits_def, Ideal.ofBits_def]
  unfold rmean rsum
  refine congrArg (fun s => Ideal.div (zeroW + s) countW) (Finset.sum_congr rfl fun k _ => ?_)
  rw [e4 k, v3_at]

/-- The centred data at [c, n]. -/
private theorem v9_at (c : Fin 256) (n : Fin 100352) :
    val_main_v9 (F := Ideal) a0 (ix2 c n) = relu (xOf a0) (batchOf n) c (withinOf n) - rmean (xOf a0) c := by
  have e8 : idx_main_v8 (ix2 c n) = ix2 c (0 : Fin 1) :=
    funext fun a => Fin.ext (by match a with | ⟨0, _⟩ => rfl | ⟨1, _⟩ => rfl)
  rw [val_main_v9_apply, val_main_v8_apply, e8, v7_at, v3_at, Ideal.subf_def]

/-- The projection of the centred data at [k, n]. -/
private theorem v11_at (k : Fin 256) (n : Fin 100352) :
    val_main_v11 (F := Ideal) a0 a1 (ix2 k n) = rproj (xOf a0) (uOf a1) k n := by
  rw [val_main_v11_apply]
  unfold rproj
  refine Finset.sum_congr rfl fun c _ => ?_
  have el : idx_main_v10 (lidx_main_v11 (ix2 k n) c) = ix2 c k :=
    funext fun a => Fin.ext (by match a with | ⟨0, _⟩ => rfl | ⟨1, _⟩ => rfl)
  have er : ridx_main_v11 (ix2 k n) c = ix2 c n :=
    funext fun a => Fin.ext (by match a with | ⟨0, _⟩ => rfl | ⟨1, _⟩ => rfl)
  rw [val_main_v10_apply, el, er, v9_at]
  rfl

/-- The clamp column [k, 0]. -/
private theorem v12_at (k : Fin 256) : val_main_v12 (F := Ideal) a2 (ix2 k (0 : Fin 1)) = cvOf a2 k := by
  have e : idx_main_v12 (ix2 k (0 : Fin 1)) = ix1 k :=
    funext fun a => Fin.ext (by match a with | ⟨0, _⟩ => rfl)
  rw [val_main_v12_apply, e]
  rfl

/-- The clamped projection at [k, n]. -/
private theorem v14_at (k : Fin 256) (n : Fin 100352) :
    val_main_v14 (F := Ideal) a0 a1 a2 (ix2 k n) = rclamp (xOf a0) (uOf a1) (cvOf a2) k n := by
  have e0 : idx_main_call1_v0 (ix2 k n) = ix2 k (0 : Fin 1) :=
    funext fun a => Fin.ext (by match a with | ⟨0, _⟩ => rfl | ⟨1, _⟩ => rfl)
  have e2 : idx_main_call1_v2 (ix2 k n) = ix2 k (0 : Fin 1) :=
    funext fun a => Fin.ext (by match a with | ⟨0, _⟩ => rfl | ⟨1, _⟩ => rfl)
  rw [val_main_v14_apply, val_main_call1_v2_apply, e2, v12_at, val_main_call1_v1_apply, val_main_call1_v0_apply, e0,
    val_main_v13_apply, v12_at, v11_at, Ideal.hostNegf_def, Ideal.negf_def, Ideal.maximumf_def, Ideal.minimumf_def]
  rfl

/-- Result index [k] of the reduce over positions, with position n put back, is [k, n]. -/
private theorem lift_pos (h : S256x100352.Reduces [1] S256) (k : Fin 256) (n : Fin (S256x100352.size 1)) :
    h.lift (ix1 k) n = ix2 k (⟨n.val, n.isLt⟩ : Fin 100352) := by
  funext c; apply Fin.ext
  fin_cases c <;> rfl

/-- The maximum of the clamped projection over all positions, at [k]. -/
private theorem v15_at (k : Fin 256) :
    val_main_v15 (F := Ideal) a0 a1 a2 (ix1 k) = rmax (xOf a0) (uOf a1) (cvOf a2) k := by
  have h : S256x100352.Reduces [1] S256 := by decide
  unfold val_main_v15
  rw [Host.reduce_eq_fold_single FloatOps.maximumf _ _ reducesTo_S256x100352_S256_d1 h h_S_]
  have hf : (val_main_v14 (F := Ideal) a0 a1 a2 ∘ h.lift (ix1 k))
      = fun n : Fin 100352 => rclamp (xOf a0) (uOf a1) (cvOf a2) k n :=
    funext fun n => (congrArg (val_main_v14 (F := Ideal) a0 a1 a2) (lift_pos h k n)).trans (v14_at a0 a1 a2 k n)
  exact congrArg (fun f => Finset.fold max ninfW f (Finset.univ : Finset (Fin 100352))) hf

/-- The minimum of the clamped projection over all positions, at [k]. -/
private theorem v17_at (k : Fin 256) :
    val_main_v17 (F := Ideal) a0 a1 a2 (ix1 k) = rmin (xOf a0) (uOf a1) (cvOf a2) k := by
  have h : S256x100352.Reduces [1] S256 := by decide
  unfold val_main_v17
  rw [Host.reduce_eq_fold_single FloatOps.minimumf _ _ reducesTo_S256x100352_S256_d1 h h_S_]
  have hf : (val_main_v14 (F := Ideal) a0 a1 a2 ∘ h.lift (ix1 k))
      = fun n : Fin 100352 => rclamp (xOf a0) (uOf a1) (cvOf a2) k n :=
    funext fun n => (congrArg (val_main_v14 (F := Ideal) a0 a1 a2) (lift_pos h k n)).trans (v14_at a0 a1 a2 k n)
  exact congrArg (fun f => Finset.fold min pinfW f (Finset.univ : Finset (Fin 100352))) hf

/-- The maximum as the column [k, 0]. -/
private theorem v16_at (k : Fin 256) :
    val_main_v16 (F := Ideal) a0 a1 a2 (ix2 k (0 : Fin 1)) = rmax (xOf a0) (uOf a1) (cvOf a2) k := by
  have e : idx_main_v16 (ix2 k (0 : Fin 1)) = ix1 k :=
    funext fun a => Fin.ext (by match a with | ⟨0, _⟩ => rfl)
  rw [val_main_v16_apply, e, v15_at]

/-- The minimum as the column [k, 0]. -/
private theorem v18_at (k : Fin 256) :
    val_main_v18 (F := Ideal) a0 a1 a2 (ix2 k (0 : Fin 1)) = rmin (xOf a0) (uOf a1) (cvOf a2) k := by
  have e : idx_main_v18 (ix2 k (0 : Fin 1)) = ix1 k :=
    funext fun a => Fin.ext (by match a with | ⟨0, _⟩ => rfl)
  rw [val_main_v18_apply, e, v17_at]

/-- The quantizer's scale, 255 over the range, as the column [k, 0]. -/
private theorem v21_at (k : Fin 256) :
    val_main_v21 (F := Ideal) a0 a1 a2 (ix2 k (0 : Fin 1))
      = Ideal.div levelsW (rmax (xOf a0) (uOf a1) (cvOf a2) k - rmin (xOf a0) (uOf a1) (cvOf a2) k) := by
  rw [val_main_v21_apply, val_main_v20_apply, val_main_cst_3_apply, val_main_v19_apply, v16_at, v18_at,
    Ideal.hostDivf_def, Ideal.subf_def, Ideal.ofBits_def]

/-- The quantized clamped projection at [k, n]. -/
private theorem v30_at (k : Fin 256) (n : Fin 100352) :
    val_main_v30 (F := Ideal) a0 a1 a2 (ix2 k n)
      = quant (rclamp (xOf a0) (uOf a1) (cvOf a2) k n) (rmin (xOf a0) (uOf a1) (cvOf a2) k)
          (rmax (xOf a0) (uOf a1) (cvOf a2) k) := by
  have e22 : idx_main_v22 (ix2 k n) = ix2 k (0 : Fin 1) :=
    funext fun a => Fin.ext (by match a with | ⟨0, _⟩ => rfl | ⟨1, _⟩ => rfl)
  have e24 : idx_main_v24 (ix2 k n) = ix2 k (0 : Fin 1) :=
    funext fun a => Fin.ext (by match a with | ⟨0, _⟩ => rfl | ⟨1, _⟩ => rfl)
  have e27 : idx_main_v27 (ix2 k n) = ix2 k (0 : Fin 1) :=
    funext fun a => Fin.ext (by match a with | ⟨0, _⟩ => rfl | ⟨1, _⟩ => rfl)
  have e29 : idx_main_v29 (ix2 k n) = ix2 k (0 : Fin 1) :=
    funext fun a => Fin.ext (by match a with | ⟨0, _⟩ => rfl | ⟨1, _⟩ => rfl)
  rw [val_main_v30_apply, val_main_v28_apply, val_main_v26_apply, val_main_v25_apply, val_main_v23_apply,
    val_main_v22_apply, e22, v18_at, v14_at, val_main_v24_apply, e24, v21_at, val_main_v27_apply, e27, v21_at,
    val_main_v29_apply, e29, v18_at, Ideal.addf_def, Ideal.hostDivf_def, Ideal.hostUnary_roundeven_def,
    Ideal.mulf_def, Ideal.subf_def]
  rfl

/-- The unprojection plus the mean at [c, n]. -/
private theorem v33_at (c : Fin 256) (n : Fin 100352) :
    val_main_v33 (F := Ideal) a0 a1 a2 (ix2 c n)
      = recon (uOf a1) (fun k => quant (rclamp (xOf a0) (uOf a1) (cvOf a2) k n) (rmin (xOf a0) (uOf a1) (cvOf a2) k)
          (rmax (xOf a0) (uOf a1) (cvOf a2) k)) (rmean (xOf a0) c) c := by
  have e32 : idx_main_v32 (ix2 c n) = ix2 c (0 : Fin 1) :=
    funext fun a => Fin.ext (by match a with | ⟨0, _⟩ => rfl | ⟨1, _⟩ => rfl)
  rw [val_main_v33_apply, val_main_v32_apply, e32, v7_at, val_main_v31_apply, Ideal.addf_def]
  unfold recon
  refine congrArg (· + rmean (xOf a0) c) (Finset.sum_congr rfl fun k _ => ?_)
  have el : lidx_main_v31 (ix2 c n) k = ix2 c k :=
    funext fun a => Fin.ext (by match a with | ⟨0, _⟩ => rfl | ⟨1, _⟩ => rfl)
  have er : ridx_main_v31 (ix2 c n) k = ix2 k n :=
    funext fun a => Fin.ext (by match a with | ⟨0, _⟩ => rfl | ⟨1, _⟩ => rfl)
  rw [el, er, v30_at]
  rfl

/-- Result index [b, c, h, w], carried back through the transpose, the reshape and the transpose, is [c, n] at
    n = 3136·b + 56·h + w. -/
private theorem idx_out (b : Fin 32) (c : Fin 256) (h w : Fin 56) :
    idx_main_v34 (idx_main_v35 (idx_main_v36 (ix4 b c h w)))
      = ix2 c (posOf b (⟨h.val * 56 + w.val, by have := h.isLt; have := w.isLt; omega⟩ : Fin 3136)) := by
  have hb := b.isLt
  have hc := c.isLt
  have hh := h.isLt
  have hw := w.isLt
  funext a
  refine Fin.ext ?_
  match a with
  | ⟨0, _⟩ => show (((b.val * 56 + h.val) * 56 + w.val) * 256 + c.val) % 256 = c.val; omega
  | ⟨1, _⟩ => show (((b.val * 56 + h.val) * 56 + w.val) * 256 + c.val) / 256 = b.val * 3136 + (h.val * 56 + w.val); omega

/-- The reference's result at [b, c, h, w]. -/
private theorem v36_at (b : Fin 32) (c : Fin 256) (h w : Fin 56) :
    val_main_v36 (F := Ideal) a0 a1 a2 (ix4 b c h w)
      = rout (xOf a0) (uOf a1) (cvOf a2) b c (⟨h.val * 56 + w.val, by have := h.isLt; have := w.isLt; omega⟩ : Fin 3136) := by
  rw [val_main_v36_apply, val_main_v35_apply, val_main_v34_apply, idx_out, v33_at]
  rfl

end Layers

/-- The last stage of the reference, as a function of the three argument arrays, is the specification's reference form. -/
theorem val_eq_Gr (a0 : S32x256x56x56.Idx → EReal) (a1 : S256x256.Idx → EReal) (a2 : S256.Idx → EReal) :
    Cert.ReferenceIdeal.ReadP.val_main_v36 (F := Ideal) a0 a1 a2 = Cert.Spec.Gr a0 a1 a2 := by
  funext i
  obtain ⟨b, c, h, w, rfl⟩ : ∃ (b : Fin 32) (c : Fin 256) (h w : Fin 56), i = ix4 b c h w :=
    ⟨i 0, i 1, i 2, i 3, eq_ix4 i⟩
  rw [v36_at]
  rfl

end Cert.ReferenceIdeal.RefValue

end
-- ==== Proof.Ref.Result.lean ====
/-
  The reference's run with its result named: every weakly fair execution of the reference's @main terminates with
  the result array at the specification's reference form of the three arguments, the arguments unchanged.
-/
import proofs.«103972_j30554397343924_1_alg».proof.Proof.Gen.ReferenceIdeal
import proofs.«103972_j30554397343924_1_alg».proof.Proof.Spec
import proofs.«103972_j30554397343924_1_alg».proof.Proof.Ref.Run
import proofs.«103972_j30554397343924_1_alg».proof.Proof.Ref.Value
import Idealize.ShloMosaic.Lib.StableHlo.Run
import Idealize.ShloMosaic.Lib.Pipeline.Value
import Idealize.ShloMosaic.Lib.ValueIdx
import Idealize.ShloMosaic.PureOps.Ideal.Laws

noncomputable section

namespace Cert.ReferenceIdeal.Hand

open Cert.ReferenceIdeal Cert.ReferenceIdeal.Gen Idealize.ShloMosaic Idealize.ShloMosaic.TcCoe Idealize.SL.Sem Idealize.ShloMosaic.StableHlo

theorem run_result (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c.tc : Thread nD τ).loc main_v36)
        = Cert.Spec.Gr (m ((c.tc : Thread nD τ).loc main_arg0)) (m ((c.tc : Thread nD τ).loc main_arg1)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  -- the run ends with the result array at the last stage of the three arguments; that stage is the specification's reference form
  (θ_run (defs (F := Ideal)) _ _).mono
    (fun _ h c => ⟨((h c).1).trans (Cert.ReferenceIdeal.RefValue.val_eq_Gr _ _ _), (h c).2.1, (h c).2.2.1, (h c).2.2.2⟩)
    (run (F := Ideal) m ρ)

end Cert.ReferenceIdeal.Hand

end
-- ==== Proof.lean ====
/-
  ReLU, PCA projection, per-channel clamp and 8-bit dynamic-range quantization, unprojection: the Pallas kernel
  against its jnp reference, equal over the extended reals on finite inputs.

  Both programs take x[b, c, h, w] (32 × 256 × 56 × 56), an orthonormal-looking basis u[c, k] and clamp values cv[k];
  with r = max(x, 0) and the 100352 = 32·56·56 positions n = (b, h, w) they compute, per channel,
      mean[c]   = (Σ_n r[c, n]) / 100352,
      proj[k,n] = Σ_c u[c, k] · (r[c, n] − mean[c]),             clamped to [−cv[k], cv[k]],
      lo[k], hi[k] = the minimum and maximum of the clamped projection over n,
      q[k, n]   = round((clamped − lo) · 255/(hi − lo)) / (255/(hi − lo)) + lo,
      out[c, n] = Σ_k u[c, k] · q[k, n] + mean[c].
  The kernel does it in three passes over the 32 batch blocks: it accumulates the channel sums in a scratch column,
  then the running minimum and maximum in two scratch columns, then reconstructs block by block; it projects r and
  the mean separately, uᵀ·r − uᵀ·mean, and rounds its matmul operands to bf16, which is the identity on the extended
  reals. So the two results differ only by regroupings of a sum, a minimum and a maximum over the positions
  (Regroup.lean) and by one use of distributivity, valid because every entry is a real number (Bridge.lean: the
  precondition, Finite.lean). Spec.lean states both forms; KI/Val0–Val2 read the kernel's run as the first form and
  Ref/Result.lean the reference's run as the second. The frames come with the runs: the kernel's three regions are
  launched over their proof data in KI/Run.lean (K/Run.lean at the word level, the same text in the other namespace).
-/
import proofs.«103972_j30554397343924_1_alg».proof.Defs
import proofs.«103972_j30554397343924_1_alg».proof.Proof.Gen.Kernel
import proofs.«103972_j30554397343924_1_alg».proof.Proof.Gen.Kernel.Skeleton
import proofs.«103972_j30554397343924_1_alg».proof.Proof.Gen.Kernel.Launch
import proofs.«103972_j30554397343924_1_alg».proof.Proof.Gen.Kernel.Regions
import proofs.«103972_j30554397343924_1_alg».proof.Proof.Gen.Kernel.Points
import proofs.«103972_j30554397343924_1_alg».proof.Proof.Gen.KernelIdeal
import proofs.«103972_j30554397343924_1_alg».proof.Proof.Gen.KernelIdeal.Skeleton
import proofs.«103972_j30554397343924_1_alg».proof.Proof.Gen.KernelIdeal.Launch
import proofs.«103972_j30554397343924_1_alg».proof.Proof.Gen.KernelIdeal.Regions
import proofs.«103972_j30554397343924_1_alg».proof.Proof.Gen.KernelIdeal.Points
import proofs.«103972_j30554397343924_1_alg».proof.Proof.Gen.ReferenceIdeal
import proofs.«103972_j30554397343924_1_alg».proof.Proof.Gen.Pre_finite_inputs
import proofs.«103972_j30554397343924_1_alg».proof.Proof.K.Run
import proofs.«103972_j30554397343924_1_alg».proof.Proof.KI.Run
import proofs.«103972_j30554397343924_1_alg».proof.Proof.KI.Val2
import proofs.«103972_j30554397343924_1_alg».proof.Proof.Bridge
import proofs.«103972_j30554397343924_1_alg».proof.Proof.Finite
import proofs.«103972_j30554397343924_1_alg».proof.Proof.Ref.Result
import Idealize.ShloMosaic.Adequacy
import Idealize.ShloMosaic.Init

noncomputable section

namespace Cert.Proof

open Idealize.ShloMosaic Idealize.ShloMosaic.TcCoe Idealize.SL.Sem

/-- The word-level kernel runs to the end and leaves its arguments as launched. -/
theorem frame_k : Cert.frame_Kernel := fun m ρ _ => Cert.Kernel.Hand.frame (F := Bits) m ρ

/-- So does the kernel read at the ideal instance. -/
theorem frame_ki : Cert.frame_KernelIdeal := fun m ρ _ => Cert.KernelIdeal.Hand.frame (F := Ideal) m ρ

/-- The reference's frame is its run with the result dropped. -/
theorem frame_ri : Cert.frame_ReferenceIdeal := fun m ρ _ =>
  (θ_run Cert.ReferenceIdeal.defs _ _).mono (fun _ h c => (h c).2) (Cert.ReferenceIdeal.Hand.run_result m ρ)

/-- The ideal pass rewrote nothing. -/
theorem preserves : Cert.preserves_Kernel_KernelIdeal := trivial

/-- From memories agreeing on the arguments, the kernel's result is the first closed form of them and the
    reference's the second; on finite arguments the two forms are one function. -/
theorem algebraic : Cert.algebraic_KernelIdeal_ReferenceIdeal := by
  intro m ρ m' ρ' hpre hagree
  refine ⟨fun c => Cert.Spec.Gk (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2)), ?_, ?_⟩
  · exact (θ_run Cert.KernelIdeal.defs _ _).mono
      (fun _ h c => ⟨(h c).1.trans (Cert.KernelIdeal.HandValue.result_val m c), (h c).2⟩)
      (Cert.KernelIdeal.Hand.run_result (F := Ideal) m ρ)
  · refine (θ_run Cert.ReferenceIdeal.defs _ _).mono (fun _ h c => ⟨(h c).1.trans ?_, (h c).2⟩)
      (Cert.ReferenceIdeal.Hand.run_result m' ρ')
    rw [(hagree c).1, (hagree c).2.1, (hagree c).2.2]
    obtain ⟨h0, h1, h2⟩ := Cert.Finite.real_of_pre _ _ _ (hpre c)
    exact (Cert.Spec.Gk_eq_Gr _ _ _ h0 h1 h2).symm

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
